-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v153_0)) (v1 : (c : Dev Cert.KernelIdeal.nD) → Buf (Elt Ideal) ((c.tc : Thread Cert.KernelIdeal.nD Cert.KernelIdeal.τ).loc Cert.KernelIdeal.main_v153_1)) (v2 : (c : Dev Cert.KernelIdeal.nD) → Buf (Elt Ideal) ((c.tc : Thread Cert.KernelIdeal.nD Cert.KernelIdeal.τ).loc Cert.KernelIdeal.main_v152)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153_0) = v0 c
          ∧ r.2.mem ((c.tc : Thread Cert.KernelIdeal.nD Cert.KernelIdeal.τ).loc Cert.KernelIdeal.main_v153_1) = v1 c
          ∧ r.2.mem ((c.tc : Thread Cert.KernelIdeal.nD Cert.KernelIdeal.τ).loc Cert.KernelIdeal.main_v152) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_v176) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg8 : FVec F S3x128 .f32) (main_arg13 : FVec F S64x2 .f32) (main_arg14 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x2 .f32 := Host.absf main_arg13
  let main_cst_20 : FVec F S_ .f32 := constant S_ .f32 0x7F800000#32
  let main_v55 : FVec F S64x2 .f32 := broadcastInDim S64x2 ![] bcast_S_S64x2 main_cst_20
  let main_v56 : IVec S64x2 1 := cmpf .olt main_v54 main_v55
  let main_c_21 : IVec S_ 1 := constantI S_ 1 1#1
  let main_v57 : IVec S_ 1 := (fun x v => Host.reduce IntOp.andi x v reducesTo_S64x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  let main_cst_24 : FVec F S_ .f32 := constant S_ .f32 0x00000000#32
  let main_v64 : FVec F S3x128 .f32 := broadcastInDim S3x128 ![] bcast_S_S3x128 main_cst_24
  let main_v65 : IVec S3x128 1 := cmpf .oge main_arg8 main_v64
  let main_c_25 : IVec S_ 1 := constantI S_ 1 1#1
  let main_v66 : IVec S_ 1 := (fun x v => Host.reduce IntOp.andi x v reducesTo_S3x128_S_d0_1 h_S_) main_v65 main_c_25
  let main_v67 : IVec S_ 1 := andi main_v63 main_v66
  main_v67

def fn_part2 {F : FTy → Type} [FloatOps F] (main_arg8 : FVec F S3x128 .f32) (main_arg9 : FVec F S128x10 .f32) (main_arg10 : FVec F S10 .f32) (main_arg11 : FVec F S128x64 .f32) (main_arg12 : FVec F S64 .f32) (main_arg13 : FVec F S64x2 .f32) (main_arg14 : FVec F S2 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg8 main_arg13 main_arg14 main_v48 main_v49 main_v50

def fn_part1 {F : FTy → Type} [FloatOps F] (main_arg6 : FVec F S3x128 .f32) (main_arg7 : FVec F S3x128 .f32) (main_arg8 : FVec F S3x128 .f32) (main_arg9 : FVec F S128x10 .f32) (main_arg10 : FVec F S10 .f32) (main_arg11 : FVec F S128x64 .f32) (main_arg12 : FVec F S64 .f32) (main_arg13 : FVec F S64x2 .f32) (main_arg14 : FVec F S2 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S3x128 .f32) (main_arg6 : FVec F S3x128 .f32) (main_arg7 : FVec F S3x128 .f32) (main_arg8 : FVec F S3x128 .f32) (main_arg9 : FVec F S128x10 .f32) (main_arg10 : FVec F S10 .f32) (main_arg11 : FVec F S128x64 .f32) (main_arg12 : FVec F S64 .f32) (main_arg13 : FVec F S64x2 .f32) (main_arg14 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S5000x128 : Shape := ⟨2, ![5000, 128]⟩
abbrev S1700000x128 : Shape := ⟨2, ![1700000, 128]⟩
abbrev S1x128 : Shape := ⟨2, ![1, 128]⟩
abbrev S128 : Shape := ⟨1, ![128]⟩
abbrev S100000x1 : Shape := ⟨2, ![100000, 1]⟩
abbrev S512x128 : Shape := ⟨2, ![512, 128]⟩
abbrev S5000x1 : Shape := ⟨2, ![5000, 1]⟩
abbrev S5000x512 : Shape := ⟨2, ![5000, 512]⟩
abbrev S500x128 : Shape := ⟨2, ![500, 128]⟩
abbrev S500 : Shape := ⟨1, ![500]⟩
abbrev S500x1 : Shape := ⟨2, ![500, 1]⟩
abbrev S500x10 : Shape := ⟨2, ![500, 10]⟩
abbrev S500x2 : Shape := ⟨2, ![500, 2]⟩
abbrev S1x10 : Shape := ⟨2, ![1, 10]⟩
abbrev S500x64 : Shape := ⟨2, ![500, 64]⟩
abbrev S1x64 : Shape := ⟨2, ![1, 64]⟩
abbrev S1x2 : Shape := ⟨2, ![1, 2]⟩

abbrev nBuf : Space → Nat
  | .hbm => 195
  | .vmem => 47
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S128x10, .f32⟩
  | 10 => ⟨S10, .f32⟩
  | 11 => ⟨S128x64, .f32⟩
  | 12 => ⟨S64, .f32⟩
  | 13 => ⟨S64x2, .f32⟩
  | 14 => ⟨S2, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S1x128x128, .f32⟩
  | 56 => ⟨S128x128, .f32⟩
  | 57 => ⟨S100000x128, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x128, .f32⟩
  | 67 => ⟨S1700000x1, .f32⟩
  | 68 => ⟨S1700000x128, .f32⟩
  | 69 => ⟨S1700000x128, .f32⟩
  | 70 => ⟨S_, .f32⟩
  | 71 => ⟨S100000x128, .f32⟩
  | 72 => ⟨S1700000x1, .i32⟩
  | 73 => ⟨S100000x128, .f32⟩
  | 74 => ⟨S1x128, .f32⟩
  | 75 => ⟨S128, .f32⟩
  | 76 => ⟨S1x128, .f32⟩
  | 77 => ⟨S128, .f32⟩
  | 78 => ⟨S_, .f32⟩
  | 79 => ⟨S128, .f32⟩
  | 80 => ⟨S128, .f32⟩
  | 81 => ⟨S128, .f32⟩
  | 82 => ⟨S128, .f32⟩
  | 83 => ⟨S1x128, .f32⟩
  | 84 => ⟨S128, .f32⟩
  | 85 => ⟨S1x128, .f32⟩
  | 86 => ⟨S128, .f32⟩
  | 87 => ⟨S128, .f32⟩
  | 88 => ⟨S128, .f32⟩
  | 89 => ⟨S1x128, .f32⟩
  | 90 => ⟨S128, .f32⟩
  | 91 => ⟨S128, .f32⟩
  | 92 => ⟨S128, .f32⟩
  | 93 => ⟨S1x128, .f32⟩
  | 94 => ⟨S1x128, .f32⟩
  | 95 => ⟨S100000x128, .f32⟩
  | 96 => ⟨S1x128x128, .f32⟩
  | 97 => ⟨S128x128, .f32⟩
  | 98 => ⟨S100000x128, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x128, .f32⟩
  | 108 => ⟨S1700000x1, .f32⟩
  | 109 => ⟨S1700000x128, .f32⟩
  | 110 => ⟨S1700000x128, .f32⟩
  | 111 => ⟨S_, .f32⟩
  | 112 => ⟨S100000x128, .f32⟩
  | 113 => ⟨S1700000x1, .i32⟩
  | 114 => ⟨S100000x128, .f32⟩
  | 115 => ⟨S1x128, .f32⟩
  | 116 => ⟨S128, .f32⟩
  | 117 => ⟨S1x128, .f32⟩
  | 118 => ⟨S128, .f32⟩
  | 119 => ⟨S_, .f32⟩
  | 120 => ⟨S128, .f32⟩
  | 121 => ⟨S128, .f32⟩
  | 122 => ⟨S128, .f32⟩
  | 123 => ⟨S128, .f32⟩
  | 124 => ⟨S1x128, .f32⟩
  | 125 => ⟨S128, .f32⟩
  | 126 => ⟨S1x128, .f32⟩
  | 127 => ⟨S128, .f32⟩
  | _ => ⟨S100000x128, .f32⟩

abbrev hbmTy0_1 (i : Nat) : BufTy := match i % 128 with
  | 0 => ⟨S128, .f32⟩
  | 1 => ⟨S128, .f32⟩
  | 2 => ⟨S1x128, .f32⟩
  | 3 => ⟨S128, .f32⟩
  | 4 => ⟨S128, .f32⟩
  | 5 => ⟨S128, .f32⟩
  | 6 => ⟨S1x128, .f32⟩
  | 7 => ⟨S1x128, .f32⟩
  | 8 => ⟨S100000x128, .f32⟩
  | 9 => ⟨S1x128x128, .f32⟩
  | 10 => ⟨S128x128, .f32⟩
  | 11 => ⟨S100000x128, .f32⟩
  | 12 => ⟨S_, .i32⟩
  | 13 => ⟨S1700000, .i32⟩
  | 14 => ⟨S1700000, .i1⟩
  | 15 => ⟨S_, .i32⟩
  | 16 => ⟨S1700000, .i32⟩
  | 17 => ⟨S1700000, .i32⟩
  | 18 => ⟨S1700000, .i32⟩
  | 19 => ⟨S1700000x1, .i32⟩
  | 20 => ⟨S1700000x128, .f32⟩
  | 21 => ⟨S1700000x1, .f32⟩
  | 22 => ⟨S1700000x128, .f32⟩
  | 23 => ⟨S1700000x128, .f32⟩
  | 24 => ⟨S_, .f32⟩
  | 25 => ⟨S100000x128, .f32⟩
  | 26 => ⟨S1700000x1, .i32⟩
  | 27 => ⟨S100000x128, .f32⟩
  | 28 => ⟨S1x128, .f32⟩
  | 29 => ⟨S128, .f32⟩
  | 30 => ⟨S1x128, .f32⟩
  | 31 => ⟨S128, .f32⟩
  | 32 => ⟨S_, .f32⟩
  | 33 => ⟨S128, .f32⟩
  | 34 => ⟨S128, .f32⟩
  | 35 => ⟨S128, .f32⟩
  | 36 => ⟨S128, .f32⟩
  | 37 => ⟨S1x128, .f32⟩
  | 38 => ⟨S128, .f32⟩
  | 39 => ⟨S1x128, .f32⟩
  | 40 => ⟨S128, .f32⟩
  | 41 => ⟨S128, .f32⟩
  | 42 => ⟨S128, .f32⟩
  | 43 => ⟨S1x128, .f32⟩
  | 44 => ⟨S128, .f32⟩
  | 45 => ⟨S128, .f32⟩
  | 46 => ⟨S128, .f32⟩
  | 47 => ⟨S1x128, .f32⟩
  | 48 => ⟨S1x128, .f32⟩
  | 49 => ⟨S100000x128, .f32⟩
  | 50 => ⟨S100000x1, .i32⟩
  | 51 => ⟨S512x128, .f32⟩
  | 52 => ⟨S500x128, .f32⟩
  | 53 => ⟨S_, .f32⟩
  | 54 => ⟨S100000, .f32⟩
  | 55 => ⟨S_, .f32⟩
  | 56 => ⟨S500, .f32⟩
  | 57 => ⟨S100000x1, .i32⟩
  | 58 => ⟨S500, .f32⟩
  | 59 => ⟨S_, .f32⟩
  | 60 => ⟨S500, .f32⟩
  | 61 => ⟨S500, .f32⟩
  | 62 => ⟨S500x1, .f32⟩
  | 63 => ⟨S500x128, .f32⟩
  | 64 => ⟨S500x128, .f32⟩
  | 65 => ⟨S500x10, .f32⟩
  | 66 => ⟨S500x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .i32⟩
  | .local _ .vmem, ⟨36, _⟩ => ⟨S5000x1, .i32⟩
  | .local _ .vmem, ⟨37, _⟩ => ⟨S512x128, .f32⟩
  | .local _ .vmem, ⟨38, _⟩ => ⟨S500x128, .f32⟩
  | .local _ .vmem, ⟨39, _⟩ => ⟨S128x10, .f32⟩
  | .local _ .vmem, ⟨40, _⟩ => ⟨S10, .f32⟩
  | .local _ .vmem, ⟨41, _⟩ => ⟨S128x64, .f32⟩
  | .local _ .vmem, ⟨42, _⟩ => ⟨S64, .f32⟩
  | .local _ .vmem, ⟨43, _⟩ => ⟨S64x2, .f32⟩
  | .local _ .vmem, ⟨44, _⟩ => ⟨S2, .f32⟩
  | .local _ .vmem, ⟨45, _⟩ => ⟨S500x10, .f32⟩
  | .local _ .vmem, ⟨46, _⟩ => ⟨S500x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_10 : Ref sig .tc := ⟨.hbm, 99, rfl⟩
abbrev main_v70 : Ref sig .tc := ⟨.hbm, 100, rfl⟩
abbrev main_v71 : Ref sig .tc := ⟨.hbm, 101, rfl⟩
abbrev main_c_11 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_12 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_13 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_c_14 : Ref sig .tc := ⟨.hbm, 140, rfl⟩
abbrev main_v107 : Ref sig .tc := ⟨.hbm, 141, rfl⟩
abbrev main_v108 : Ref sig .tc := ⟨.hbm, 142, rfl⟩
abbrev main_c_15 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_16 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_cst_17 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_cst_18 : Ref sig .tc := ⟨.hbm, 181, rfl⟩
abbrev main_v144 : Ref sig .tc := ⟨.hbm, 182, rfl⟩
abbrev main_cst_19 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_cst_20 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153_0 : Ref sig .tc := ⟨.hbm, 193, rfl⟩
abbrev main_v153_1 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg1_1 : Ref sig .tc := ⟨.vmem, 36, rfl⟩
abbrev cc6_stg2_0 : Ref sig .tc := ⟨.vmem, 37, rfl⟩
abbrev cc7_stg0_0 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg3_0 : Ref sig .tc := ⟨.vmem, 41, rfl⟩
abbrev cc7_stg4_0 : Ref sig .tc := ⟨.vmem, 42, rfl⟩
abbrev cc7_stg5_0 : Ref sig .tc := ⟨.vmem, 43, rfl⟩
abbrev cc7_stg6_0 : Ref sig .tc := ⟨.vmem, 44, rfl⟩
abbrev cc7_stg7_0 : Ref sig .tc := ⟨.vmem, 45, rfl⟩
abbrev cc7_stg8_0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32
abbrev cc6_sem0_0 : DmaSem sig := 33
abbrev cc6_sem0_1 : DmaSem sig := 34
abbrev cc6_sem1_0 : DmaSem sig := 35
abbrev cc6_sem1_1 : DmaSem sig := 36
abbrev cc6_sem2_0 : DmaSem sig := 37
abbrev cc7_sem0_0 : DmaSem sig := 38
abbrev cc7_sem1_0 : DmaSem sig := 39
abbrev cc7_sem2_0 : DmaSem sig := 40
abbrev cc7_sem3_0 : DmaSem sig := 41
abbrev cc7_sem4_0 : DmaSem sig := 42
abbrev cc7_sem5_0 : DmaSem sig := 43
abbrev cc7_sem6_0 : DmaSem sig := 44
abbrev cc7_sem7_0 : DmaSem sig := 45
abbrev cc7_sem8_0 : DmaSem sig := 46

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S512x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S500x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S128x10 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S10 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x2 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S2 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S500x10 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S500x2 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  bcast_S_S128 : S_.BroadcastsInDim S128 (![] : Fin 0 → Fin S128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S100000_S100000x1 : S100000.ShapeCasts S100000x1
  inb_S512x128_S512x128_0_0 : ∀ a, (![0, 0] : Fin 2 → Nat) a + S512x128.size a ≤ S512x128.size a
  h_S512x128 : 0 < S512x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x512_d1_w32 : S5000x512.Iotas .tc 32 [1]
  broadcasts_S5000x1_S5000x512 : S5000x1.Broadcasts S5000x512
  natLt_1_32 : 1 < 32
  shapeCasts_S512x128_S512x128 : S512x128.ShapeCasts S512x128
  slices_S512x128_S500x128_0_0 : S512x128.Slices ![0, 0] S500x128
  bcast_S_S500 : S_.BroadcastsInDim S500 (![] : Fin 0 → Fin S500.rank)
  bcast_S100000_S100000x1_0 : S100000.BroadcastsInDim S100000x1 (![0] : Fin 1 → Fin S100000x1.rank)
  bcast_S500_S500x1_0 : S500.BroadcastsInDim S500x1 (![0] : Fin 1 → Fin S500x1.rank)
  bcast_S500x1_S500x128_0_1 : S500x1.BroadcastsInDim S500x128 (![0, 1] : Fin 2 → Fin S500x128.rank)
  inb_S500x128_S500x128_0_0 : ∀ a, (![0, 0] : Fin 2 → Nat) a + S500x128.size a ≤ S500x128.size a
  h_S500x128 : 0 < S500x128.numel
  shapeCasts_S500x128_S500x128 : S500x128.ShapeCasts S500x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S500x10 : S1x10.Broadcasts S500x10
  inb_S500x10_S500x10_0_0 : ∀ a, (![0, 0] : Fin 2 → Nat) a + S500x10.size a ≤ S500x10.size a
  h_S500x10 : 0 < S500x10.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S500x64 : S1x64.Broadcasts S500x64
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S500x2 : S1x2.Broadcasts S500x2
  inb_S500x2_S500x2_0_0 : ∀ a, (![0, 0] : Fin 2 → Nat) a + S500x2.size a ≤ S500x2.size a
  h_S500x2 : 0 < S500x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x512_S5000x128_S512x128_0_0_1_1_n_n_wf : DotDims.WF S5000x512 S5000x128 S512x128 [0] [0] [1] [1] [] []
  scatter_S500_S100000x1_S100000_n_0_0_1_wf : ScatterDims.WF S500 S100000x1 S100000 [] [0] [0] 1
  dot_S500x128_S128x10_S500x10_1_0_0_1_n_n_wf : DotDims.WF S500x128 S128x10 S500x10 [1] [0] [0] [1] [] []
  dot_S500x128_S128x64_S500x64_1_0_0_1_n_n_wf : DotDims.WF S500x128 S128x64 S500x64 [1] [0] [0] [1] [] []
  dot_S500x64_S64x2_S500x2_1_0_0_1_n_n_wf : DotDims.WF S500x64 S64x2 S500x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .i32 = 32 ∨ (Rect.block (s := S100000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x128.size a ≤ S512x128.size a
  hwx6_2 : ∀ i : grid6.Coords, EltTy.bits .f32 = 32 ∨ (Rect.block (s := S512x128) S512x128.size (cc6_transform_2 i) (hinb6_2 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S500x128.size a ≤ S500x128.size a
  hwx7_0 : ∀ i : grid7.Coords, EltTy.bits .f32 = 32 ∨ (Rect.block (s := S500x128) S500x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x10.size a ≤ S128x10.size a
  hwx7_1 : ∀ i : grid7.Coords, EltTy.bits .f32 = 32 ∨ (Rect.block (s := S128x10) S128x10.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S10.size a ≤ S10.size a
  hwx7_2 : ∀ i : grid7.Coords, EltTy.bits .f32 = 32 ∨ (Rect.block (s := S10) S10.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x64.size a ≤ S128x64.size a
  hwx7_3 : ∀ i : grid7.Coords, EltTy.bits .f32 = 32 ∨ (Rect.block (s := S128x64) S128x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64.size a ≤ S64.size a
  hwx7_4 : ∀ i : grid7.Coords, EltTy.bits .f32 = 32 ∨ (Rect.block (s := S64) S64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x2.size a ≤ S64x2.size a
  hwx7_5 : ∀ i : grid7.Coords, EltTy.bits .f32 = 32 ∨ (Rect.block (s := S64x2) S64x2.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S2.size a ≤ S2.size a
  hwx7_6 : ∀ i : grid7.Coords, EltTy.bits .f32 = 32 ∨ (Rect.block (s := S2) S2.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S500x10.size a ≤ S500x10.size a
  hwx7_7 : ∀ i : grid7.Coords, EltTy.bits .f32 = 32 ∨ (Rect.block (s := S500x10) S500x10.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S500x2.size a ≤ S500x2.size a
  hwx7_8 : ∀ i : grid7.Coords, EltTy.bits .f32 = 32 ∨ (Rect.block (s := S500x2) S500x2.size (cc7_transform_8 i) (hinb7_8 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf
def scatter_S500_S100000x1_S100000_n_0_0_1 : ScatterDims S500 S100000x1 S100000 where
  updateWindowDims := []
  insertedWindowDims := [0]
  scatterDimsToOperandDims := [0]
  indexVectorDim := 1
  wf := scatter_S500_S100000x1_S100000_n_0_0_1_wf
def dot_S500x128_S128x10_S500x10_1_0_0_1_n_n : DotDims S500x128 S128x10 S500x10 where
  lhsContracting := [1]
  rhsContracting := [0]
  lhsNonContracting := [0]
  rhsNonContracting := [1]
  lhsBatch := []
  rhsBatch := []
  wf := dot_S500x128_S128x10_S500x10_1_0_0_1_n_n_wf
def dot_S500x128_S128x64_S500x64_1_0_0_1_n_n : DotDims S500x128 S128x64 S500x64 where
  lhsContracting := [1]
  rhsContracting := [0]
  lhsNonContracting := [0]
  rhsNonContracting := [1]
  lhsBatch := []
  rhsBatch := []
  wf := dot_S500x128_S128x64_S500x64_1_0_0_1_n_n_wf
def dot_S500x64_S64x2_S500x2_1_0_0_1_n_n : DotDims S500x64 S64x2 S500x2 where
  lhsContracting := [1]
  rhsContracting := [0]
  lhsNonContracting := [0]
  rhsNonContracting := [1]
  lhsBatch := []
  rhsBatch := []
  wf := dot_S500x64_S64x2_S500x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v64) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v65) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v66) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v66) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v82) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v101) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v102) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v103) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v103) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v105) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v106) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v119) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v138) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v139) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v140) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v140) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v141) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v142) S512x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v152) S500x128.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S128x10.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg10) S10.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg11) S128x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg12) S64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg13) S64x2.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_arg14) S2.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v153_0) S500x10.size cc7_transform_7 reads7_7 true true 1 stage7_7 sem7_7
    hrank7 hreads7_7 hinb7_7 nbuf7_7 (Memref.isWhole_whole _) hwx7_7 hstage7_7

abbrev win7_8 : Pipeline.Window sig grid7 :=
  Pipeline.Window.ofSpec (Memref.whole main_v153_1) S500x2.size cc7_transform_8 reads7_8 true true 1 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S1700000x128 : Shape := ⟨2, ![1700000, 128]⟩
abbrev S1x128 : Shape := ⟨2, ![1, 128]⟩
abbrev S128 : Shape := ⟨1, ![128]⟩
abbrev S500x128 : Shape := ⟨2, ![500, 128]⟩
abbrev S100000x1 : Shape := ⟨2, ![100000, 1]⟩
abbrev S500 : Shape := ⟨1, ![500]⟩
abbrev S500x1 : Shape := ⟨2, ![500, 1]⟩
abbrev S500x10 : Shape := ⟨2, ![500, 10]⟩
abbrev S1x10 : Shape := ⟨2, ![1, 10]⟩
abbrev S500x64 : Shape := ⟨2, ![500, 64]⟩
abbrev S1x64 : Shape := ⟨2, ![1, 64]⟩
abbrev S500x2 : Shape := ⟨2, ![500, 2]⟩
abbrev S1x2 : Shape := ⟨2, ![1, 2]⟩

abbrev nBuf : Space → Nat
  | .hbm => 239
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S128x10, .f32⟩
  | 10 => ⟨S10, .f32⟩
  | 11 => ⟨S128x64, .f32⟩
  | 12 => ⟨S64, .f32⟩
  | 13 => ⟨S64x2, .f32⟩
  | 14 => ⟨S2, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S1x128x128, .f32⟩
  | 56 => ⟨S128x128, .f32⟩
  | 57 => ⟨S100000x128, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x128, .f32⟩
  | 67 => ⟨S1700000x1, .f32⟩
  | 68 => ⟨S1700000x128, .f32⟩
  | 69 => ⟨S1700000x128, .f32⟩
  | 70 => ⟨S_, .f32⟩
  | 71 => ⟨S100000x128, .f32⟩
  | 72 => ⟨S1700000x1, .i32⟩
  | 73 => ⟨S100000x128, .f32⟩
  | 74 => ⟨S1x128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S128, .f32⟩
  | 86 => ⟨S_, .f32⟩
  | 87 => ⟨S128, .f32⟩
  | 88 => ⟨S128, .f32⟩
  | 89 => ⟨S128, .f32⟩
  | 90 => ⟨S1x128, .f32⟩
  | 91 => ⟨S100000x128, .f32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S128, .f32⟩
  | 100 => ⟨S1x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S1x128x128, .f32⟩
  | 107 => ⟨S128x128, .f32⟩
  | 108 => ⟨S100000x128, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x128, .f32⟩
  | 118 => ⟨S1700000x1, .f32⟩
  | 119 => ⟨S1700000x128, .f32⟩
  | 120 => ⟨S1700000x128, .f32⟩
  | 121 => ⟨S_, .f32⟩
  | 122 => ⟨S100000x128, .f32⟩
  | 123 => ⟨S1700000x1, .i32⟩
  | 124 => ⟨S100000x128, .f32⟩
  | 125 => ⟨S1x128, .f32⟩
  | 126 => ⟨S128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S1x128, .f32⟩
  | 3 => ⟨S128, .f32⟩
  | 4 => ⟨S1x128, .f32⟩
  | 5 => ⟨S100000x128, .f32⟩
  | 6 => ⟨S100000x128, .f32⟩
  | 7 => ⟨S1x128, .f32⟩
  | 8 => ⟨S128, .f32⟩
  | 9 => ⟨S_, .f32⟩
  | 10 => ⟨S128, .f32⟩
  | 11 => ⟨S128, .f32⟩
  | 12 => ⟨S128, .f32⟩
  | 13 => ⟨S1x128, .f32⟩
  | 14 => ⟨S100000x128, .f32⟩
  | 15 => ⟨S100000x128, .f32⟩
  | 16 => ⟨S1x128, .f32⟩
  | 17 => ⟨S128, .f32⟩
  | 18 => ⟨S1x128, .f32⟩
  | 19 => ⟨S100000x128, .f32⟩
  | 20 => ⟨S100000x128, .f32⟩
  | 21 => ⟨S1x128, .f32⟩
  | 22 => ⟨S128, .f32⟩
  | 23 => ⟨S1x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S1x128x128, .f32⟩
  | 30 => ⟨S128x128, .f32⟩
  | 31 => ⟨S100000x128, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000x128, .f32⟩
  | 41 => ⟨S1700000x1, .f32⟩
  | 42 => ⟨S1700000x128, .f32⟩
  | 43 => ⟨S1700000x128, .f32⟩
  | 44 => ⟨S_, .f32⟩
  | 45 => ⟨S100000x128, .f32⟩
  | 46 => ⟨S1700000x1, .i32⟩
  | 47 => ⟨S100000x128, .f32⟩
  | 48 => ⟨S1x128, .f32⟩
  | 49 => ⟨S128, .f32⟩
  | 50 => ⟨S1x128, .f32⟩
  | 51 => ⟨S100000x128, .f32⟩
  | 52 => ⟨S100000x128, .f32⟩
  | 53 => ⟨S1x128, .f32⟩
  | 54 => ⟨S128, .f32⟩
  | 55 => ⟨S1x128, .f32⟩
  | 56 => ⟨S100000x128, .f32⟩
  | 57 => ⟨S100000x128, .f32⟩
  | 58 => ⟨S1x128, .f32⟩
  | 59 => ⟨S128, .f32⟩
  | 60 => ⟨S_, .f32⟩
  | 61 => ⟨S128, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S128, .f32⟩
  | 69 => ⟨S1x128, .f32⟩
  | 70 => ⟨S100000x128, .f32⟩
  | 71 => ⟨S100000x128, .f32⟩
  | 72 => ⟨S1x128, .f32⟩
  | 73 => ⟨S128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S_, .f32⟩
  | 81 => ⟨S500x128, .f32⟩
  | 82 => ⟨S100000x1, .i32⟩
  | 83 => ⟨S500x128, .f32⟩
  | 84 => ⟨S_, .f32⟩
  | 85 => ⟨S100000, .f32⟩
  | 86 => ⟨S_, .f32⟩
  | 87 => ⟨S500, .f32⟩
  | 88 => ⟨S100000x1, .i32⟩
  | 89 => ⟨S500, .f32⟩
  | 90 => ⟨S_, .f32⟩
  | 91 => ⟨S500, .f32⟩
  | 92 => ⟨S500, .f32⟩
  | 93 => ⟨S500x1, .f32⟩
  | 94 => ⟨S500x128, .f32⟩
  | 95 => ⟨S500x128, .f32⟩
  | 96 => ⟨S500x10, .f32⟩
  | 97 => ⟨S1x10, .f32⟩
  | 98 => ⟨S500x10, .f32⟩
  | 99 => ⟨S500x10, .f32⟩
  | 100 => ⟨S500x64, .f32⟩
  | 101 => ⟨S1x64, .f32⟩
  | 102 => ⟨S500x64, .f32⟩
  | 103 => ⟨S500x64, .f32⟩
  | 104 => ⟨S_, .f32⟩
  | 105 => ⟨S500x64, .f32⟩
  | 106 => ⟨S500x64, .f32⟩
  | 107 => ⟨S500x2, .f32⟩
  | 108 => ⟨S1x2, .f32⟩
  | 109 => ⟨S500x2, .f32⟩
  | 110 => ⟨S500x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_9 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_call1_cst : Ref sig .tc := ⟨.hbm, 103, rfl⟩
abbrev main_call1_v0 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_10 : Ref sig .tc := ⟨.hbm, 109, rfl⟩
abbrev main_v78 : Ref sig .tc := ⟨.hbm, 110, rfl⟩
abbrev main_v79 : Ref sig .tc := ⟨.hbm, 111, rfl⟩
abbrev main_c_11 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_12 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_13 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_call2_cst : Ref sig .tc := ⟨.hbm, 154, rfl⟩
abbrev main_call2_v0 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_c_14 : Ref sig .tc := ⟨.hbm, 160, rfl⟩
abbrev main_v123 : Ref sig .tc := ⟨.hbm, 161, rfl⟩
abbrev main_v124 : Ref sig .tc := ⟨.hbm, 162, rfl⟩
abbrev main_c_15 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_16 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_cst_17 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_call3_cst : Ref sig .tc := ⟨.hbm, 205, rfl⟩
abbrev main_call3_v0 : Ref sig .tc := ⟨.hbm, 206, rfl⟩
abbrev main_v164 : Ref sig .tc := ⟨.hbm, 207, rfl⟩
abbrev main_cst_18 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_cst_19 : Ref sig .tc := ⟨.hbm, 212, rfl⟩
abbrev main_v168 : Ref sig .tc := ⟨.hbm, 213, rfl⟩
abbrev main_cst_20 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_cst_21 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_call4_cst : Ref sig .tc := ⟨.hbm, 232, rfl⟩
abbrev main_call4_v0 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S500x128 : S_.BroadcastsInDim S500x128 (![] : Fin 0 → Fin S500x128.rank)
  bcast_S100000_S100000x1_0 : S100000.BroadcastsInDim S100000x1 (![0] : Fin 1 → Fin S100000x1.rank)
  bcast_S_S500 : S_.BroadcastsInDim S500 (![] : Fin 0 → Fin S500.rank)
  bcast_S500_S500x1_0 : S500.BroadcastsInDim S500x1 (![0] : Fin 1 → Fin S500x1.rank)
  bcast_S500x1_S500x128_0_1 : S500x1.BroadcastsInDim S500x128 (![0, 1] : Fin 2 → Fin S500x128.rank)
  bcast_S10_S1x10_1 : S10.BroadcastsInDim S1x10 (![1] : Fin 1 → Fin S1x10.rank)
  bcast_S1x10_S500x10_0_1 : S1x10.BroadcastsInDim S500x10 (![0, 1] : Fin 2 → Fin S500x10.rank)
  bcast_S64_S1x64_1 : S64.BroadcastsInDim S1x64 (![1] : Fin 1 → Fin S1x64.rank)
  bcast_S1x64_S500x64_0_1 : S1x64.BroadcastsInDim S500x64 (![0, 1] : Fin 2 → Fin S500x64.rank)
  bcast_S_S500x64 : S_.BroadcastsInDim S500x64 (![] : Fin 0 → Fin S500x64.rank)
  bcast_S2_S1x2_1 : S2.BroadcastsInDim S1x2 (![1] : Fin 1 → Fin S1x2.rank)
  bcast_S1x2_S500x2_0_1 : S1x2.BroadcastsInDim S500x2 (![0, 1] : Fin 2 → Fin S500x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S500x128_S100000x1_S100000x128_1_0_0_1_wf : ScatterDims.WF S500x128 S100000x1 S100000x128 [1] [0] [0] 1
  scatter_S500_S100000x1_S100000_n_0_0_1_wf : ScatterDims.WF S500 S100000x1 S100000 [] [0] [0] 1
  dot_S500x128_S128x10_S500x10_1_0_0_1_n_n_wf : DotDims.WF S500x128 S128x10 S500x10 [1] [0] [0] [1] [] []
  dot_S500x128_S128x64_S500x64_1_0_0_1_n_n_wf : DotDims.WF S500x128 S128x64 S500x64 [1] [0] [0] [1] [] []
  dot_S500x64_S64x2_S500x2_1_0_0_1_n_n_wf : DotDims.WF S500x64 S64x2 S500x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S500x128_S100000x1_S100000x128_1_0_0_1 : ScatterDims S500x128 S100000x1 S100000x128 where
  updateWindowDims := [1]
  insertedWindowDims := [0]
  scatterDimsToOperandDims := [0]
  indexVectorDim := 1
  wf := scatter_S500x128_S100000x1_S100000x128_1_0_0_1_wf
def scatter_S500_S100000x1_S100000_n_0_0_1 : ScatterDims S500 S100000x1 S100000 where
  updateWindowDims := []
  insertedWindowDims := [0]
  scatterDimsToOperandDims := [0]
  indexVectorDim := 1
  wf := scatter_S500_S100000x1_S100000_n_0_0_1_wf
def dot_S500x128_S128x10_S500x10_1_0_0_1_n_n : DotDims S500x128 S128x10 S500x10 where
  lhsContracting := [1]
  rhsContracting := [0]
  lhsNonContracting := [0]
  rhsNonContracting := [1]
  lhsBatch := []
  rhsBatch := []
  wf := dot_S500x128_S128x10_S500x10_1_0_0_1_n_n_wf
def dot_S500x128_S128x64_S500x64_1_0_0_1_n_n : DotDims S500x128 S128x64 S500x64 where
  lhsContracting := [1]
  rhsContracting := [0]
  lhsNonContracting := [0]
  rhsNonContracting := [1]
  lhsBatch := []
  rhsBatch := []
  wf := dot_S500x128_S128x64_S500x64_1_0_0_1_n_n_wf
def dot_S500x64_S64x2_S500x2_1_0_0_1_n_n : DotDims S500x64 S64x2 S500x2 where
  lhsContracting := [1]
  rhsContracting := [0]
  lhsNonContracting := [0]
  rhsNonContracting := [1]
  lhsBatch := []
  rhsBatch := []
  wf := dot_S500x64_S64x2_S500x2_1_0_0_1_n_n_wf

class Facts : Prop extends Facts₀ where

variable [Facts]
-- ==== Proof.Spec.lean ====
/-
  The graph network's dense steps, stated once over literal shapes and read index by index on the extended reals.

  * `rowsTimes h w`: every row of `h` times the matrix `w` (one linear layer without bias).
  * `scaleShiftRelu a s b`: column-wise scale and shift, floored at zero (bias, normalisation and the
    activation folded into one multiply-add and a maximum).
  * `segSums h seg`: row `g` of the result is the sum of those rows of `h` whose segment number, read as a
    signed integer, is `g` (a segment sum; rows whose number is outside the range fall on no result row).
  * `foldScale`, `foldShift`: a layer's bias and normalisation folded into one scale and one shift per column,
    `s = γ · rsqrt(v + ε)` and `t = b · s + (β − μ · s)`; `RealParams` says the five parameter tables hold real
    numbers and the variances are not negative, which is what makes the folding an identity on the extended reals.
  * `clsHead`, `domHead`: the two small heads on the pooled features (one linear layer; two linear layers
    with a floor at zero between them).
-/
import Idealize.ShloMosaic.PureOps.Ideal
import Idealize.ShloMosaic.Lib.ValueIdx

noncomputable section

namespace Cert.Gnn

open Idealize.ShloMosaic Idealize.ShloMosaic.ValueIdx

/-- Row `i 0` of `h` against column `i 1` of `w`. -/
def rowsTimes {n d e : Nat} (h : (⟨2, ![n, d]⟩ : Shape).Idx → EReal) (w : (⟨2, ![d, e]⟩ : Shape).Idx → EReal) :
    (⟨2, ![n, e]⟩ : Shape).Idx → EReal :=
  fun i => ∑ k : Fin d, h (ix2 (i 0) k) * w (ix2 k (i 1))

/-- `max (a · s + b) 0`, the scale `s` and the shift `b` one per column. -/
def scaleShiftRelu {n d : Nat} (a : (⟨2, ![n, d]⟩ : Shape).Idx → EReal) (s b : (⟨2, ![1, d]⟩ : Shape).Idx → EReal) :
    (⟨2, ![n, d]⟩ : Shape).Idx → EReal :=
  fun i => max (a i * s (ix2 (0 : Fin 1) (i 1)) + b (ix2 (0 : Fin 1) (i 1))) 0

/-- The sum of the rows of `h` whose segment number is `i 0`. -/
def segSums {n d g : Nat} (h : (⟨2, ![n, d]⟩ : Shape).Idx → EReal) (seg : (⟨2, ![n, 1]⟩ : Shape).Idx → BitVec 32) :
    (⟨2, ![g, d]⟩ : Shape).Idx → EReal :=
  fun i => ∑ e ∈ Finset.univ.filter (fun e : Fin n => (seg (ix2 e (0 : Fin 1))).toInt = ((i 0).val : Int)), h (ix2 e (i 1))

/-- The variance floor inside the normalisation, as both programs spell it. -/
def bnEps : EReal := Ideal.ofBits .f32 0x3727C5AC#32

/-- Layer `l`'s folded scale `γ · rsqrt(v + ε)`, one per column. -/
def foldScale {L d : Nat} (l : Fin L) (gam var : (⟨2, ![L, d]⟩ : Shape).Idx → EReal) :
    (⟨2, ![1, d]⟩ : Shape).Idx → EReal :=
  fun j => gam (ix2 l (j 1)) * Ideal.rsqrt (var (ix2 l (j 1)) + bnEps)

/-- Layer `l`'s folded shift `b · s + (β − μ · s)`, one per column. -/
def foldShift {L d : Nat} (l : Fin L) (bc gam bet mu var : (⟨2, ![L, d]⟩ : Shape).Idx → EReal) :
    (⟨2, ![1, d]⟩ : Shape).Idx → EReal :=
  fun j => bc (ix2 l (j 1)) * foldScale l gam var j + (bet (ix2 l (j 1)) - mu (ix2 l (j 1)) * foldScale l gam var j)

/-- The five per-layer parameter tables hold real numbers, and the variances are not negative. -/
structure RealParams {L d : Nat} (bc gam bet mu var : (⟨2, ![L, d]⟩ : Shape).Idx → EReal) : Prop where
  bc : ∀ i, ∃ r : ℝ, bc i = (r : EReal)
  gam : ∀ i, ∃ r : ℝ, gam i = (r : EReal)
  bet : ∀ i, ∃ r : ℝ, bet i = (r : EReal)
  mu : ∀ i, ∃ r : ℝ, mu i = (r : EReal)
  var : ∀ i, ∃ r : ℝ, 0 ≤ r ∧ var i = (r : EReal)

/-- One linear layer with a bias per column. -/
def clsHead {n d e : Nat} (f : (⟨2, ![n, d]⟩ : Shape).Idx → EReal) (w : (⟨2, ![d, e]⟩ : Shape).Idx → EReal)
    (b : (⟨1, ![e]⟩ : Shape).Idx → EReal) : (⟨2, ![n, e]⟩ : Shape).Idx → EReal :=
  fun i => rowsTimes f w i + b (ix1 (i 1))

/-- Two linear layers with biases, floored at zero between them. -/
def domHead {n d e o : Nat} (f : (⟨2, ![n, d]⟩ : Shape).Idx → EReal) (w1 : (⟨2, ![d, e]⟩ : Shape).Idx → EReal)
    (b1 : (⟨1, ![e]⟩ : Shape).Idx → EReal) (w2 : (⟨2, ![e, o]⟩ : Shape).Idx → EReal)
    (b2 : (⟨1, ![o]⟩ : Shape).Idx → EReal) : (⟨2, ![n, o]⟩ : Shape).Idx → EReal :=
  clsHead (fun j => max (clsHead f w1 b1 j) 0) w2 b2

end Cert.Gnn

end
-- ==== Proof.Reals.lean ====
/-
  What the precondition says of the five per-layer parameter tables: every entry is a real number, and the
  variances are not negative.
-/
import proofs.«415775_j12214886990280_1_alg».proof.Defs
import proofs.«415775_j12214886990280_1_alg».proof.Proof.Gen.Pre_finite_inputs
import proofs.«415775_j12214886990280_1_alg».proof.Proof.Spec
import Idealize.ShloMosaic.Lib.ReduceAll
import Idealize.ShloMosaic.PureOps.Ideal.Laws
import Idealize.ShloMosaic.Lib.ValueIdx

noncomputable section

namespace Cert.KernelIdeal.Reals

open Idealize.ShloMosaic Idealize.ShloMosaic.TcCoe Idealize.SL.Sem Idealize.ShloMosaic.ValueIdx
open Cert.KernelIdeal

/-- The scalar shape has one index. -/
instance : Subsingleton (⟨0, ![]⟩ : Shape).Idx := ⟨fun a b => funext fun d => d.elim0⟩

/-- The pattern 0x7F800000 is +∞. -/
theorem ofBits_inf : Ideal.ofBits .f32 0x7F800000#32 = ⊤ := by simp [Ideal.ofBits, Ideal.ieee]

/-- An extended real whose absolute value `max x (-x)` is below +∞ is a real number. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- `jnp.all(|x| < inf)` read back: every entry of `x` is a real number. Generic in the shape. -/
theorem real_of_all_finite {s : Shape} {axes : List (Fin s.rank)} (x : FVec Ideal s .f32)
    (bc : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] bc (constant (⟨0, ![]⟩ : Shape) .f32 0x7F800000#32)))
        (constantI (⟨0, ![]⟩ : Shape) 1 1#1) hr hu ix0 = 1#1)
    (i : s.Idx) : ∃ r : ℝ, x i = (r : EReal) :=
  real_of_abs_lt_top (x i) (Host.reduce_andi_all _ _ hr hu ix0 e i)

/-- `jnp.all(x >= 0)` read back: every entry of `x` is at least zero. Generic in the shape. -/
theorem nonneg_of_all_ge_zero {s : Shape} {axes : List (Fin s.rank)} (x : FVec Ideal s .f32)
    (bc : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .oge x (broadcastInDim s ![] bc (constant (⟨0, ![]⟩ : Shape) .f32 0x00000000#32)))
        (constantI (⟨0, ![]⟩ : Shape) 1 1#1) hr hu ix0 = 1#1)
    (i : s.Idx) : (0 : EReal) ≤ x i := by
  have h : Ideal.cmp .oge (x i) (Ideal.ofBits .f32 0x00000000#32) = 1#1 := Host.reduce_andi_all _ _ hr hu ix0 e i
  rw [Ideal.ofBits_zero_f32] at h
  by_contra hn
  simp [Ideal.cmp, hn] at h

/-- Under the precondition the bias, gain, offset, mean and variance tables hold reals, the variances not negative. -/
theorem realParams_of_pre [hPre_finite_inputs : Cert.Pre_finite_inputs.Facts]
    (m : (ℓ : Loc nD τ sig) → Buf (Elt Ideal) ℓ) (h : Cert.Pre_KernelIdeal m) (c : Dev nD) :
    Cert.Gnn.RealParams (L := 3) (d := 128)
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) := by
  have e := congrFun (h c) ix0
  dsimp only [Cert.Pre_finite_inputs.fn, Cert.Pre_finite_inputs.fn_part1, Cert.Pre_finite_inputs.fn_part2,
    Cert.Pre_finite_inputs.fn_part3, andi] at e
  simp only [IntOp.andi_eq_one] at e
  obtain ⟨⟨⟨⟨⟨⟨⟨⟨⟨⟨⟨⟨⟨_, _⟩, e4⟩, e5⟩, e6⟩, e7⟩, e8⟩, _⟩, _⟩, _⟩, _⟩, _⟩, _⟩, p8⟩ := e
  exact
    { bc := real_of_all_finite _ _ _ _ e4
      gam := real_of_all_finite _ _ _ _ e5
      bet := real_of_all_finite _ _ _ _ e6
      mu := real_of_all_finite _ _ _ _ e7
      var := fun i => by
        obtain ⟨r, hr⟩ := real_of_all_finite _ _ _ _ e8 i
        have h0 := nonneg_of_all_ge_zero _ _ _ _ p8 i
        rw [hr] at h0
        exact ⟨r, EReal.coe_nonneg.mp h0, hr⟩ }

end Cert.KernelIdeal.Reals

end
-- ==== Proof.Kept.lean ====
/-
  Which buffers a stretch of host operations leaves alone.

  Each stretch between two kernel launches writes a fixed list of buffers; a buffer outside the list holds after
  the stretch what it held before it. A launch changes only its own windows' arrays, and of those only the
  outputs: an input window's array is read, never written back. With these steps any buffer is walked back from
  a later boundary to the boundary that last wrote it, or to the launch memory for an argument.
-/
import proofs.«415775_j12214886990280_1_alg».proof.Proof.Gen.KernelIdeal.Frame
import Idealize.ShloMosaic.Lib.StableHlo.Run

set_option maxRecDepth 16384

noncomputable section

namespace Cert.KernelIdeal.Kept

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-- The buffers the stretch `hostOps0` writes. -/
abbrev wr0 : List (Ref sig .tc) := [main_v0, main_v1, main_v2, main_v3, main_v4, main_v5, main_v6, main_cst, main_v7, main_cst_0, main_v8, main_v9, main_v10, main_cst_1, main_v11, main_v12, main_v13, main_cst_2]
theorem wr0_sub : (hostOps0 : List (HloOp τ sig (Elt F))).Forall fun op => op.writes ⊆ ((wr0).map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write is as it was. -/
theorem keep0 (r : Ref sig .tc) (h : r ∉ wr0) :
    W1 m ρ c (Proc.devRef .tc r) = W0 m ρ c (Proc.devRef .tc r) :=
  StableHlo.after_of_writes_sub hostOps0 _ (wr0_sub (F := F)) h

/-- The buffers the stretch `hostOps0_1` writes. -/
abbrev wr0_1 : List (Ref sig .tc) := [main_call0_v0, main_call0_v1, main_v14]
theorem wr0_1_sub : (hostOps0_1 : List (HloOp τ sig (Elt F))).Forall fun op => op.writes ⊆ ((wr0_1).map (Proc.devRef (τ := τ) .tc)).toFinset := by
  simp only [hostOps0_1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write is as it was. -/
theorem keep0_1 (r : Ref sig .tc) (h : r ∉ wr0_1) :
    W2 m ρ c (Proc.devRef .tc r) = W1 m ρ c (Proc.devRef .tc r) :=
  StableHlo.after_of_writes_sub hostOps0_1 _ (wr0_1_sub (F := F)) h

/-- The buffers the stretch `hostOps0_2` writes. -/
abbrev wr0_2 : List (Ref sig .tc) := [main_c, main_v15, main_v16, main_c_3, main_v17, main_v18, main_v19, main_v20, main_v21, main_c_4, main_v22, main_v23, main_c_5, main_v24, main_v25, main_v26, main_v27, main_v28, main_v29, main_v30, main_v31]
theorem wr0_2_sub : (hostOps0_2 : List (HloOp τ sig (Elt F))).Forall fun op => op.writes ⊆ ((wr0_2).map (Proc.devRef (τ := τ) .tc)).toFinset := by
  simp only [hostOps0_2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write is as it was. -/
theorem keep0_2 (r : Ref sig .tc) (h : r ∉ wr0_2) :
    W3 m ρ c (Proc.devRef .tc r) = W2 m ρ c (Proc.devRef .tc r) :=
  StableHlo.after_of_writes_sub hostOps0_2 _ (wr0_2_sub (F := F)) h

/-- The buffers the stretch `hostOps1` writes. -/
abbrev wr1 : List (Ref sig .tc) := [main_c_6, main_v33, main_v34, main_c_7, main_v35, main_v36, main_v37, main_v38, main_v39, main_v40, main_v41, main_v42, main_cst_8, main_v43, main_v44, main_v45, main_v46, main_v47, main_v48, main_v49, main_cst_9, main_v50, main_v51, main_v52, main_v53, main_v54, main_v55, main_v56, main_v57, main_v58, main_v59, main_v60, main_v61, main_v62, main_v63, main_v64, main_v65]
theorem wr1_sub : (hostOps1 : List (HloOp τ sig (Elt F))).Forall fun op => op.writes ⊆ ((wr1).map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write is as it was. -/
theorem keep1 (r : Ref sig .tc) (h : r ∉ wr1) :
    W5 m ρ c (Proc.devRef .tc r) = W4 m ρ c (Proc.devRef .tc r) :=
  StableHlo.after_of_writes_sub hostOps1 _ (wr1_sub (F := F)) h

/-- The buffers the stretch `hostOps2` writes. -/
abbrev wr2 : List (Ref sig .tc) := [main_v67, main_v68]
theorem wr2_sub : (hostOps2 : List (HloOp τ sig (Elt F))).Forall fun op => op.writes ⊆ ((wr2).map (Proc.devRef (τ := τ) .tc)).toFinset := by
  simp only [hostOps2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write is as it was. -/
theorem keep2 (r : Ref sig .tc) (h : r ∉ wr2) :
    W7 m ρ c (Proc.devRef .tc r) = W6 m ρ c (Proc.devRef .tc r) :=
  StableHlo.after_of_writes_sub hostOps2 _ (wr2_sub (F := F)) h

/-- The buffers the stretch `hostOps3` writes. -/
abbrev wr3 : List (Ref sig .tc) := [main_c_10, main_v70, main_v71, main_c_11, main_v72, main_v73, main_v74, main_v75, main_v76, main_v77, main_v78, main_v79, main_cst_12, main_v80, main_v81, main_v82, main_v83, main_v84, main_v85, main_v86, main_cst_13, main_v87, main_v88, main_v89, main_v90, main_v91, main_v92, main_v93, main_v94, main_v95, main_v96, main_v97, main_v98, main_v99, main_v100, main_v101, main_v102]
theorem wr3_sub : (hostOps3 : List (HloOp τ sig (Elt F))).Forall fun op => op.writes ⊆ ((wr3).map (Proc.devRef (τ := τ) .tc)).toFinset := by
  simp only [hostOps3, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write is as it was. -/
theorem keep3 (r : Ref sig .tc) (h : r ∉ wr3) :
    W9 m ρ c (Proc.devRef .tc r) = W8 m ρ c (Proc.devRef .tc r) :=
  StableHlo.after_of_writes_sub hostOps3 _ (wr3_sub (F := F)) h

/-- The buffers the stretch `hostOps4` writes. -/
abbrev wr4 : List (Ref sig .tc) := [main_v104, main_v105]
theorem wr4_sub : (hostOps4 : List (HloOp τ sig (Elt F))).Forall fun op => op.writes ⊆ ((wr4).map (Proc.devRef (τ := τ) .tc)).toFinset := by
  simp only [hostOps4, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write is as it was. -/
theorem keep4 (r : Ref sig .tc) (h : r ∉ wr4) :
    W11 m ρ c (Proc.devRef .tc r) = W10 m ρ c (Proc.devRef .tc r) :=
  StableHlo.after_of_writes_sub hostOps4 _ (wr4_sub (F := F)) h

/-- The buffers the stretch `hostOps5` writes. -/
abbrev wr5 : List (Ref sig .tc) := [main_c_14, main_v107, main_v108, main_c_15, main_v109, main_v110, main_v111, main_v112, main_v113, main_v114, main_v115, main_v116, main_cst_16, main_v117, main_v118, main_v119, main_v120, main_v121, main_v122, main_v123, main_cst_17, main_v124, main_v125, main_v126, main_v127, main_v128, main_v129, main_v130, main_v131, main_v132, main_v133, main_v134, main_v135, main_v136, main_v137, main_v138, main_v139]
theorem wr5_sub : (hostOps5 : List (HloOp τ sig (Elt F))).Forall fun op => op.writes ⊆ ((wr5).map (Proc.devRef (τ := τ) .tc)).toFinset := by
  simp only [hostOps5, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write is as it was. -/
theorem keep5 (r : Ref sig .tc) (h : r ∉ wr5) :
    W13 m ρ c (Proc.devRef .tc r) = W12 m ρ c (Proc.devRef .tc r) :=
  StableHlo.after_of_writes_sub hostOps5 _ (wr5_sub (F := F)) h

/-- The buffers the stretch `hostOps6` writes. -/
abbrev wr6 : List (Ref sig .tc) := [main_v141]
theorem wr6_sub : (hostOps6 : List (HloOp τ sig (Elt F))).Forall fun op => op.writes ⊆ ((wr6).map (Proc.devRef (τ := τ) .tc)).toFinset := by
  simp only [hostOps6, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write is as it was. -/
theorem keep6 (r : Ref sig .tc) (h : r ∉ wr6) :
    W15 m ρ c (Proc.devRef .tc r) = W14 m ρ c (Proc.devRef .tc r) :=
  StableHlo.after_of_writes_sub hostOps6 _ (wr6_sub (F := F)) h

/-- The buffers the stretch `hostOps7` writes. -/
abbrev wr7 : List (Ref sig .tc) := [main_v143, main_cst_18, main_v144, main_cst_19, main_v145, main_v146, main_v147, main_cst_20, main_v148, main_v149, main_v150, main_v151, main_v152]
theorem wr7_sub : (hostOps7 : List (HloOp τ sig (Elt F))).Forall fun op => op.writes ⊆ ((wr7).map (Proc.devRef (τ := τ) .tc)).toFinset := by
  simp only [hostOps7, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write is as it was. -/
theorem keep7 (r : Ref sig .tc) (h : r ∉ wr7) :
    W17 m ρ c (Proc.devRef .tc r) = W16 m ρ c (Proc.devRef .tc r) :=
  StableHlo.after_of_writes_sub hostOps7 _ (wr7_sub (F := F)) h

/-- The pooled features are an input window of the last launch: read, not written back. -/
theorem in18_0 : W18 m ρ c (Proc.devRef .tc main_v152) = W17 m ρ c (Proc.devRef .tc main_v152) :=
  (W18_arr m ρ c 0).trans (((dat7 (V17 m ρ) c).arrAt_in 0 rfl _).trans (A_eq7 (V17 m ρ) c 0))

/-- At launch a buffer holds the launch memory. -/
theorem at0 (r : Ref sig .tc) : W0 m ρ c (Proc.devRef .tc r) = m ((c : Thread nD τ).loc r) := rfl

end Cert.KernelIdeal.Kept

end
-- ==== Proof.Chain0.lean ====
import proofs.«415775_j12214886990280_1_alg».proof.Proof.Gen.KernelIdeal.Frame
import proofs.«415775_j12214886990280_1_alg».proof.Proof.RefRead
import proofs.«415775_j12214886990280_1_alg».proof.Proof.Spec
import proofs.«415775_j12214886990280_1_alg».proof.Proof.Kept
import Idealize.ShloMosaic.Lib.Pipeline.Value
import Idealize.ShloMosaic.Lib.ValueIdx
import Idealize.ShloMosaic.Lib.StableHlo.Run

set_option maxRecDepth 16384

noncomputable section

namespace Cert.KernelIdeal.Chain

open Idealize.ShloMosaic Idealize.ShloMosaic.TcCoe Idealize.SL.Sem Idealize.ShloMosaic.ValueIdx
open Cert.KernelIdeal Cert.KernelIdeal.Gen Cert.ReferenceIdeal.Read

variable (m : (ℓ : Loc nD τ sig) → Buf (Elt Ideal) ℓ) (ρ : Dev nD → PrngReg) (c : Dev nD)

/-- Argument 0 as launched. -/
abbrev a0 : (⟨S100000x128, .f32⟩ : BufTy).Contents (Elt Ideal) := m ((c : Thread nD τ).loc main_arg0)
/-- Argument 1 as launched. -/
abbrev a1 : (⟨S2x1600000, .i32⟩ : BufTy).Contents (Elt Ideal) := m ((c : Thread nD τ).loc main_arg1)
/-- Argument 2 as launched. -/
abbrev a2 : (⟨S100000, .i32⟩ : BufTy).Contents (Elt Ideal) := m ((c : Thread nD τ).loc main_arg2)
/-- Argument 3 as launched. -/
abbrev a3 : (⟨S3x128x128, .f32⟩ : BufTy).Contents (Elt Ideal) := m ((c : Thread nD τ).loc main_arg3)
/-- Argument 4 as launched. -/
abbrev a4 : (⟨S3x128, .f32⟩ : BufTy).Contents (Elt Ideal) := m ((c : Thread nD τ).loc main_arg4)
/-- Argument 5 as launched. -/
abbrev a5 : (⟨S3x128, .f32⟩ : BufTy).Contents (Elt Ideal) := m ((c : Thread nD τ).loc main_arg5)
/-- Argument 6 as launched. -/
abbrev a6 : (⟨S3x128, .f32⟩ : BufTy).Contents (Elt Ideal) := m ((c : Thread nD τ).loc main_arg6)
/-- Argument 7 as launched. -/
abbrev a7 : (⟨S3x128, .f32⟩ : BufTy).Contents (Elt Ideal) := m ((c : Thread nD τ).loc main_arg7)
/-- Argument 8 as launched. -/
abbrev a8 : (⟨S3x128, .f32⟩ : BufTy).Contents (Elt Ideal) := m ((c : Thread nD τ).loc main_arg8)
/-- Argument 9 as launched. -/
abbrev a9 : (⟨S128x10, .f32⟩ : BufTy).Contents (Elt Ideal) := m ((c : Thread nD τ).loc main_arg9)
/-- Argument 10 as launched. -/
abbrev a10 : (⟨S10, .f32⟩ : BufTy).Contents (Elt Ideal) := m ((c : Thread nD τ).loc main_arg10)
/-- Argument 11 as launched. -/
abbrev a11 : (⟨S128x64, .f32⟩ : BufTy).Contents (Elt Ideal) := m ((c : Thread nD τ).loc main_arg11)
/-- Argument 12 as launched. -/
abbrev a12 : (⟨S64, .f32⟩ : BufTy).Contents (Elt Ideal) := m ((c : Thread nD τ).loc main_arg12)
/-- Argument 13 as launched. -/
abbrev a13 : (⟨S64x2, .f32⟩ : BufTy).Contents (Elt Ideal) := m ((c : Thread nD τ).loc main_arg13)
/-- Argument 14 as launched. -/
abbrev a14 : (⟨S2, .f32⟩ : BufTy).Contents (Elt Ideal) := m ((c : Thread nD τ).loc main_arg14)

/-! ## Before the first layer: the edge lists with their self loops, the edge weights, the first weight matrix -/

open Cert.KernelIdeal.Kept

/-! ### The same host operations, at any float instance

Both programs build the two edge lists the same way: a row of the edge table, flattened, followed by the node
numbers 0 … 99999 (one self loop per node). The degree of a node is the number of list entries that name it as a
target; its inverse root is taken where the degree is positive and replaced by zero elsewhere; an edge's weight
is the product of the two values at its ends. None of this depends on what a float is, so each buffer is compared
with the reference's stage once, over an arbitrary float instance, where the comparison is one of operation
names and dimension records only. -/

section AnyFloat

variable {F : FTy → Type} [FloatOps F] (mF : (ℓ : Loc nD τ sig) → Buf (Elt F) ℓ)

/-- The edge table as launched. -/
abbrev b1 : (⟨S2x1600000, .i32⟩ : BufTy).Contents (Elt F) := mF ((c : Thread nD τ).loc main_arg1)
/-- The weight table as launched. -/
abbrev b3 : (⟨S3x128x128, .f32⟩ : BufTy).Contents (Elt F) := mF ((c : Thread nD τ).loc main_arg3)

/-- The source list after the first stretch. -/
theorem g1_v3 : W1 mF ρ c (Proc.devRef .tc main_v3) = val_main_v3 (F := F) (b1 c mF) := by
  show StableHlo.after hostOps0 (W0 mF ρ c) (Proc.devRef .tc main_v3) = _
  after_results
  rfl

/-- The target list after the first stretch. -/
theorem g1_v6 : W1 mF ρ c (Proc.devRef .tc main_v6) = val_main_v6 (F := F) (b1 c mF) := by
  show StableHlo.after hostOps0 (W0 mF ρ c) (Proc.devRef .tc main_v6) = _
  after_results
  rfl

/-- Which nodes have a positive degree. -/
theorem g1_v12 : W1 mF ρ c (Proc.devRef .tc main_v12) = val_main_v12 (F := F) (b1 c mF) := by
  show StableHlo.after hostOps0 (W0 mF ρ c) (Proc.devRef .tc main_v12) = _
  after_results
  rfl

/-- The inverse root of every degree. -/
theorem g1_v13 : W1 mF ρ c (Proc.devRef .tc main_v13) = val_main_v13 (F := F) (b1 c mF) := by
  show StableHlo.after hostOps0 (W0 mF ρ c) (Proc.devRef .tc main_v13) = _
  after_results
  rfl

/-- The zero that replaces the inverse root of a zero degree. -/
theorem g1_cst_2 : W1 mF ρ c (Proc.devRef .tc main_cst_2) = val_main_cst_2 (F := F) := by
  show StableHlo.after hostOps0 (W0 mF ρ c) (Proc.devRef .tc main_cst_2) = _
  after_results
  rfl

/-- The inverse root degrees, zero where the degree is zero. -/
theorem g2_v14 : W2 mF ρ c (Proc.devRef .tc main_v14) = val_main_v14 (F := F) (b1 c mF) := by
  have h12 := g1_v12 ρ c mF
  have h13 := g1_v13 ρ c mF
  have hz := g1_cst_2 ρ c mF
  show StableHlo.after hostOps0_1 (W1 mF ρ c) (Proc.devRef .tc main_v14) = _
  -- the contents before the selection enter only through the three buffers it reads
  generalize W1 mF ρ c = V1 at h12 h13 hz ⊢
  after_results_simp
  rw [h12, h13, hz]
  rfl

/-- The selection leaves the source list alone. -/
theorem g2_v3 : W2 mF ρ c (Proc.devRef .tc main_v3) = val_main_v3 (F := F) (b1 c mF) :=
  (keep0_1 mF ρ c main_v3 (by decide)).trans (g1_v3 ρ c mF)

/-- The selection leaves the target list alone. -/
theorem g2_v6 : W2 mF ρ c (Proc.devRef .tc main_v6) = val_main_v6 (F := F) (b1 c mF) :=
  (keep0_1 mF ρ c main_v6 (by decide)).trans (g1_v6 ρ c mF)

/-- The weight table is an argument: the first two stretches do not write it. -/
theorem g2_arg3 : W2 mF ρ c (Proc.devRef .tc main_arg3) = b3 c mF :=
  (keep0_1 mF ρ c main_arg3 (by decide)).trans (keep0 mF ρ c main_arg3 (by decide))

/-- The source list at the entry of the first launch. -/
theorem g3_v3 : W3 mF ρ c (Proc.devRef .tc main_v3) = val_main_v3 (F := F) (b1 c mF) :=
  (keep0_2 mF ρ c main_v3 (by decide)).trans (g2_v3 ρ c mF)

/-- The target list at the entry of the first launch. -/
theorem g3_v6 : W3 mF ρ c (Proc.devRef .tc main_v6) = val_main_v6 (F := F) (b1 c mF) :=
  (keep0_2 mF ρ c main_v6 (by decide)).trans (g2_v6 ρ c mF)

/-- The inverse root degrees at the entry of the first launch. -/
theorem g3_v14 : W3 mF ρ c (Proc.devRef .tc main_v14) = val_main_v14 (F := F) (b1 c mF) :=
  (keep0_2 mF ρ c main_v14 (by decide)).trans (g2_v14 ρ c mF)

/-- The edge weights: the inverse root degree at the source times the one at the target. -/
theorem g3_v29 : W3 mF ρ c (Proc.devRef .tc main_v29) = val_main_v29 (F := F) (b1 c mF) := by
  have h3 := g2_v3 ρ c mF
  have h6 := g2_v6 ρ c mF
  have h14 := g2_v14 ρ c mF
  show StableHlo.after hostOps0_2 (W2 mF ρ c) (Proc.devRef .tc main_v29) = _
  -- the earlier contents enter only through the two lists and the inverse root degrees
  generalize W2 mF ρ c = V2 at h3 h6 h14 ⊢
  after_results_simp
  rw [h3, h6, h14]
  rfl

/-- The first layer's weight matrix: slice 0 of the weight table, its leading unit axis dropped. -/
theorem g3_v31 : W3 mF ρ c (Proc.devRef .tc main_v31) = val_main_v31 (F := F) (b3 c mF) := by
  have h := g2_arg3 ρ c mF
  show StableHlo.after hostOps0_2 (W2 mF ρ c) (Proc.devRef .tc main_v31) = _
  generalize W2 mF ρ c = V2 at h ⊢
  after_results_simp
  rw [h]
  rfl

end AnyFloat

/-! ### At the extended reals -/

/-- The inverse root degrees (zero at a node of degree zero) are the reference's. -/
theorem k_v14 : W3 m ρ c (Proc.devRef .tc main_v14) = val_main_v14 (F := Ideal) (a1 m c) :=
  g3_v14 ρ c m
/-- The source list (edges, then one self loop per node) is the reference's. -/
theorem k_v3 : W3 m ρ c (Proc.devRef .tc main_v3) = val_main_v3 (F := Ideal) (a1 m c) :=
  g3_v3 ρ c m
/-- The target list is the reference's. -/
theorem k_v6 : W3 m ρ c (Proc.devRef .tc main_v6) = val_main_v6 (F := Ideal) (a1 m c) :=
  g3_v6 ρ c m
/-- The edge weights (inverse root degrees of both ends, multiplied) are the reference's. -/
theorem k_v29 : W3 m ρ c (Proc.devRef .tc main_v29) = val_main_v29 (F := Ideal) (a1 m c) :=
  g3_v29 ρ c m
/-- The first layer's weight matrix is the reference's slice. -/
theorem k_v31 : W3 m ρ c (Proc.devRef .tc main_v31) = val_main_v31 (F := Ideal) (a3 m c) :=
  g3_v31 ρ c m

end Cert.KernelIdeal.Chain

end
-- ==== Proof.Rows0.lean ====
import proofs.«415775_j12214886990280_1_alg».proof.Proof.Gen.KernelIdeal.Frame
import proofs.«415775_j12214886990280_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Rows0

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## The product of a row tile with the weights, entry by entry -/

/-- The body's loads and its one store go through the whole tile: zero offsets on both axes. -/
theorem zero_offsets : (![0, 0] : Fin 2 → Nat) = fun _ => 0 := funext fun a => by fin_cases a <;> rfl

/-- On the left operand the row axis is kept: its coordinate is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- On the left operand the column axis is the summed one. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- On the right operand the row axis is the summed one. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- On the right operand the column axis is kept: its coordinate is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(p, q)` of what the body stores: row `p` of the loaded tile against column `q` of the loaded weights.
    On the extended reals the narrowing of both operands is the identity, the reshapes keep the shape, and the
    accumulator starts at zero, so only the sum over the 128 shared coordinates is left. -/
theorem tile_product (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er, truncf_apply, truncf_apply, shapeCast_self]

/-! ## From the tiles to the whole array -/

/-- The index maps over the 20 grid points: the feature tile and the output tile at point `t` are row tile `t`
    (column tile 0), and the weights are always their one block. -/
theorem tile_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Tile `t` of the product, read off whole arrays `A` (features) and `W` (weights): row `r` of the feature
    tile is row `5000 t + r` of `A`, the weights' one block is `W` itself, and the output tile sits at the same rows. -/
theorem tile_reads (A : S100000x128.Idx → EReal) (W : S128x128.Idx → EReal) (t : Fin cfg0.N) (p : Fin 5000) (q : Fin 128) :
    ∑ k : Fin 128, A (((cfg0.win 0).blk t).view.emb (ix2 p k)) * W (((cfg0.win 1).blk t).view.emb (ix2 k q))
      = Cert.Gnn.rowsTimes (n := 100000) (d := 128) (e := 128) A W (((cfg0.win 2).blk t).view.emb (ix2 p q)) := by
  obtain ⟨e00, e01, e10, e11, e20, e21⟩ := tile_indices t
  unfold Cert.Gnn.rowsTimes
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  exact congrArg₂ (· * ·) (congrArg A h0) (congrArg W h1)

/-- What point `t` writes back is tile `t` of the product of the whole feature array with the weights. -/
theorem flushed_eq (c : Dev nD) (t : Fin cfg0.N) :
    (dat0 (F := Ideal) V c).flushed 2 t
      = ((cfg0.win 2).blk t).view.read (Elt Ideal)
          (Cert.Gnn.rowsTimes (n := 100000) (d := 128) (e := 128) (V c main_arg0) (V c main_v31)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  funext j
  obtain ⟨p, q, rfl⟩ : ∃ (p : Fin 5000) (q : Fin 128), j = ix2 p q := ⟨j 0, j 1, eq_ix2 j⟩
  refine (tile_product (iblk0 V c 0 t) (iblk0 V c 1 t) p q).trans ?_
  exact tile_reads (V c main_arg0) (V c main_v31) t p q

/-- An index of the output array lies in point `t`'s tile iff each coordinate is in the tile's range on its axis. -/
theorem mem_tile (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every row lies in some tile: row `r` in tile `r / 5000`. -/
theorem tiles_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  obtain ⟨-, -, -, -, e20, e21⟩ := tile_indices t
  refine ⟨t, flush0_2 t, ?_⟩
  rw [mem_tile]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The row blocks of the product, written back tile by tile, make up the whole product. -/
theorem rows (c : Dev nD) :
    (dat0 (F := Ideal) V c).arrAt 2 cfg0.N
      = Cert.Gnn.rowsTimes (n := 100000) (d := 128) (e := 128) (V c main_arg0) (V c main_v31) :=
  (dat0 (F := Ideal) V c).arrAt_eq_of_cover 2 _ (fun t _ => flushed_eq V c t) tiles_cover

end Cert.KernelIdeal.Rows0

end
-- ==== Proof.Aff1.lean ====
/-
  Launch 1 of the kernel scales every column of the aggregated features, shifts it, and floors the result at
  zero, one tile of 5000 rows at a time over a grid of 20 tiles.  The scale and the shift are single rows of 128
  entries, fetched whole at every tile; tile `t` reads rows `5000 t … 5000 t + 4999` of the aggregate and
  writes the same rows of the result.

  The proof reads one stored entry (`pay_apply`, `tile_apply`), places every window's block in its array
  (`idx_facts`, `flushed_eq`: what tile `t` writes back is its rows of the specification), and notes that row
  `r` belongs to tile `r / 5000` (`cover`), so the written array is the specification everywhere (`aff`).
-/
import proofs.«415775_j12214886990280_1_alg».proof.Proof.Gen.KernelIdeal.Frame
import proofs.«415775_j12214886990280_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Aff1

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The two zero offsets of a whole-block rectangle, as the constant function. -/
theorem hz : (![0, 0] : Fin 2 → Nat) = fun _ => 0 := funext fun a => by fin_cases a <;> rfl

/-- A row vector spread over 5000 rows reads, at row `p` and column `q`, the vector's column `q`. -/
theorem spread_apply (x : Vec Ideal S1x128 .f32) (p : Fin 5000) (q : Fin 128) :
    broadcastTo S5000x128 x broadcasts_S1x128_S5000x128 (ix2 p q) = x (ix2 (0 : Fin 1) q) := by
  refine broadcastTo_apply x _ (ix2 p q) (ix2 (0 : Fin 1) q) ?_
  intro a
  match a with
  | ⟨0, _⟩ => rfl
  | ⟨1, _⟩ => rfl

/-- One entry of the tile the body stores: the aggregate's entry times its column's scale, plus its column's
    shift, floored at zero. -/
theorem pay_apply (x0 : Vec Ideal S5000x128 .f32) (x1 x2 : Vec Ideal S1x128 .f32) (p : Fin 5000) (q : Fin 128) :
    k1_pay1 (F := Ideal) x0 x1 x2 (ix2 p q)
      = max (x0 (ix2 p q) * x1 (ix2 (0 : Fin 1) q) + x2 (ix2 (0 : Fin 1) q)) 0 := by
  unfold k1_pay1
  rw [shapeCast_self, shapeCast_self, shapeCast_self]
  rw [maximumf_apply, addf_apply, mulf_apply, broadcast_apply, spread_apply, spread_apply]
  exact congrArg _ Ideal.ofBits_zero_f32

/-- The same entry against the whole arrays: if the tile's entry `j` is the aggregate's entry `i` in the same
    column, and the two row vectors are the scale and the shift, the stored entry is the specification's at `i`. -/
theorem tile_apply (A : (⟨2, ![100000, 128]⟩ : Shape).Idx → EReal) (s b : (⟨2, ![1, 128]⟩ : Shape).Idx → EReal)
    (x0 : Vec Ideal S5000x128 .f32) (x1 x2 : Vec Ideal S1x128 .f32)
    (j : S5000x128.Idx) (i : S100000x128.Idx) (hcol : (i 1).val = (j 1).val)
    (h0 : x0 j = A i) (h1 : ∀ k, x1 k = s k) (h2 : ∀ k, x2 k = b k) :
    k1_pay1 (F := Ideal) x0 x1 x2 j = Cert.Gnn.scaleShiftRelu (n := 100000) (d := 128) A s b i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hcol
  rw [pay_apply, h0, h1, h2]
  rfl

/-- Where each window's block sits at tile `t`: the aggregate's and the result's at row block `t`, the scale's
    and the shift's always at their one block (decided over the 20 tiles). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What tile `t` writes back is rows `5000 t … 5000 t + 4999` of the specification. -/
theorem flushed_eq (c : Dev nD) (t : Fin cfg1.N) :
    (dat1 (F := Ideal) V c).flushed 3 t
      = ((cfg1.win 3).blk t).view.read (Elt Ideal)
          (Cert.Gnn.scaleShiftRelu (n := 100000) (d := 128) (V c main_v45) (V c main_v64) (V c main_v65)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz]
  obtain ⟨e00, e01, e10, e11, e20, e21, e30, e31⟩ := idx_facts t
  funext j
  refine tile_apply (V c main_v45) (V c main_v64) (V c main_v65) (iblk1 V c 0 t) (iblk1 V c 1 t) (iblk1 V c 2 t) j
    (((cfg1.win 3).blk t).view.emb j) ?_ ?_ ?_ ?_
  · show win1_3.index t (1 : Fin 2) * 128 + 1 * (j 1).val = (j 1).val
    omega
  · show V c main_v45 (((cfg1.win 0).blk t).view.emb j) = V c main_v45 (((cfg1.win 3).blk t).view.emb j)
    refine congrArg (V c main_v45) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  · intro k
    show V c main_v64 (((cfg1.win 1).blk t).view.emb k) = V c main_v64 k
    refine congrArg (V c main_v64) (funext fun a => Fin.ext ?_)
    match a with
    | ⟨0, _⟩ => show win1_1.index t (0 : Fin 2) * 1 + 1 * (k 0).val = (k 0).val; omega
    | ⟨1, _⟩ => show win1_1.index t (1 : Fin 2) * 128 + 1 * (k 1).val = (k 1).val; omega
  · intro k
    show V c main_v65 (((cfg1.win 2).blk t).view.emb k) = V c main_v65 k
    refine congrArg (V c main_v65) (funext fun a => Fin.ext ?_)
    match a with
    | ⟨0, _⟩ => show win1_2.index t (0 : Fin 2) * 1 + 1 * (k 0).val = (k 0).val; omega
    | ⟨1, _⟩ => show win1_2.index t (1 : Fin 2) * 128 + 1 * (k 1).val = (k 1).val; omega

/-- An entry of the array is in tile `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v66).slice (win1_3.rect t)).set ↔ _
  rw [View.set_slice_whole, Rect.mem_set_unit]
  exact Iff.rfl

/-- Row `r` lies in the block of tile `r / 5000`: the twenty row blocks make up the array. -/
theorem cover (i : S100000x128.Idx) :
    ∃ t : Fin cfg1.N, (cfg1.win 3).flush t = true ∧ i ∈ ((cfg1.win 3).blk t).view.set := by
  have hN : cfg1.N = 20 := N_1
  have hi0 : (i 0).val < 100000 := (i 0).isLt
  have hi1 : (i 1).val < 128 := (i 1).isLt
  let t : Fin cfg1.N := ⟨(i 0).val / 5000, by rw [hN]; omega⟩
  have ht : t.val = (i 0).val / 5000 := rfl
  obtain ⟨-, -, -, -, -, -, e30, e31⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The tiles of the scaled, shifted and floored array make up the whole array. -/
theorem aff (c : Dev nD) :
    (dat1 (F := Ideal) V c).arrAt 3 cfg1.N
      = Cert.Gnn.scaleShiftRelu (n := 100000) (d := 128) (V c main_v45) (V c main_v64) (V c main_v65) :=
  (dat1 (F := Ideal) V c).arrAt_eq_of_cover 3 _ (fun t _ => flushed_eq V c t) cover

end Cert.KernelIdeal.Aff1

end
-- ==== Proof.RefRows.lean ====
import proofs.«415775_j12214886990280_1_alg».proof.Proof.RefRead
import proofs.«415775_j12214886990280_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.Stages

open Idealize.ShloMosaic Idealize.ShloMosaic.TcCoe Idealize.SL.Sem Idealize.ShloMosaic.ValueIdx
open Cert.ReferenceIdeal Cert.ReferenceIdeal.Gen Cert.ReferenceIdeal.Read

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S3x128x128, .f32⟩ : BufTy).Contents (Elt Ideal))
  (x4 x5 x6 x7 x8 : (⟨S3x128, .f32⟩ : BufTy).Contents (Elt Ideal))
  (x9 : (⟨S128x10, .f32⟩ : BufTy).Contents (Elt Ideal)) (x10 : (⟨S10, .f32⟩ : BufTy).Contents (Elt Ideal))
  (x11 : (⟨S128x64, .f32⟩ : BufTy).Contents (Elt Ideal)) (x12 : (⟨S64, .f32⟩ : BufTy).Contents (Elt Ideal))
  (x13 : (⟨S64x2, .f32⟩ : BufTy).Contents (Elt Ideal)) (x14 : (⟨S2, .f32⟩ : BufTy).Contents (Elt Ideal))

/-- The first layer's product, index by index. -/
theorem rows32 : val_main_v32 (F := Ideal) x0 x3
    = Cert.Gnn.rowsTimes (n := 100000) (d := 128) (e := 128) x0 (val_main_v31 (F := Ideal) x3) := by
  funext i
  have el : ∀ k : Fin 128, lidx_main_v32 i k = ix2 (i 0) k := fun k =>
    funext fun a => Fin.ext (by match a with | ⟨0, _⟩ => rfl | ⟨1, _⟩ => rfl)
  have er : ∀ k : Fin 128, ridx_main_v32 i k = ix2 k (i 1) := fun k =>
    funext fun a => Fin.ext (by match a with | ⟨0, _⟩ => rfl | ⟨1, _⟩ => rfl)
  rw [val_main_v32_apply]
  simp only [el, er, Cert.Gnn.rowsTimes]
  rfl

/-- The second layer's product, index by index. -/
theorem rows77 : val_main_v77 (F := Ideal) x0 x1 x3 x4 x5 x6 x7 x8
    = Cert.Gnn.rowsTimes (n := 100000) (d := 128) (e := 128) (val_main_v74 (F := Ideal) x0 x1 x3 x4 x5 x6 x7 x8) (val_main_v76 (F := Ideal) x3) := by
  funext i
  have el : ∀ k : Fin 128, lidx_main_v77 i k = ix2 (i 0) k := fun k =>
    funext fun a => Fin.ext (by match a with | ⟨0, _⟩ => rfl | ⟨1, _⟩ => rfl)
  have er : ∀ k : Fin 128, ridx_main_v77 i k = ix2 k (i 1) := fun k =>
    funext fun a => Fin.ext (by match a with | ⟨0, _⟩ => rfl | ⟨1, _⟩ => rfl)
  rw [val_main_v77_apply]
  simp only [el, er, Cert.Gnn.rowsTimes]
  rfl

/-- The third layer's product, index by index. -/
theorem rows122 : val_main_v122 (F := Ideal) x0 x1 x3 x4 x5 x6 x7 x8
    = Cert.Gnn.rowsTimes (n := 100000) (d := 128) (e := 128) (val_main_v119 (F := Ideal) x0 x1 x3 x4 x5 x6 x7 x8) (val_main_v121 (F := Ideal) x3) := by
  funext i
  have el : ∀ k : Fin 128, lidx_main_v122 i k = ix2 (i 0) k := fun k =>
    funext fun a => Fin.ext (by match a with | ⟨0, _⟩ => rfl | ⟨1, _⟩ => rfl)
  have er : ∀ k : Fin 128, ridx_main_v122 i k = ix2 k (i 1) := fun k =>
    funext fun a => Fin.ext (by match a with | ⟨0, _⟩ => rfl | ⟨1, _⟩ => rfl)
  rw [val_main_v122_apply]
  simp only [el, er, Cert.Gnn.rowsTimes]
  rfl

end Cert.ReferenceIdeal.Stages

end
-- ==== Proof.AffineLaw.lean ====
/-
  The one algebraic law the layers need, on the extended reals: with the bias b, the mean μ, the inverse
  deviation r, the gain γ and the offset β REAL numbers and a ANY extended real,
      ((a + b) − μ) · r · γ + β  =  a · (γ · r) + (b · (γ · r) + (β − μ · (γ · r))).
  Distributing a real factor over a sum one of whose terms is real is sound on the extended reals (the
  infinite term decides the sign on both sides), so nothing is asked of a.
-/
import Idealize.ShloMosaic.PureOps.Ideal

noncomputable section

namespace Cert.Gnn

/-- The law with the two real factors already multiplied into one real s: for a real a it is the
    ring identity; for an infinite a both sides are the infinity whose sign is that of a · s, or, when
    s = 0, both sides are β. -/
theorem fold_law_one (a : EReal) (b μ s β : ℝ) :
    ((a + (b : EReal)) - (μ : EReal)) * (s : EReal) + (β : EReal)
      = a * (s : EReal) + ((b : EReal) * (s : EReal) + ((β : EReal) - (μ : EReal) * (s : EReal))) := by
  have ht : (b : EReal) * (s : EReal) + ((β : EReal) - (μ : EReal) * (s : EReal))
      = ((b * s + (β - μ * s) : ℝ) : EReal) := by norm_cast
  induction a using EReal.rec with
  | bot =>
    rw [ht, EReal.bot_add, EReal.bot_sub]
    rcases lt_trichotomy s 0 with h | h | h
    · rw [EReal.bot_mul_coe_of_neg h, EReal.top_add_coe, EReal.top_add_coe]
    · subst h
      rw [EReal.coe_zero, mul_zero, zero_add, zero_add]
      norm_cast
      ring
    · rw [EReal.bot_mul_coe_of_pos h, EReal.bot_add, EReal.bot_add]
  | coe x =>
    norm_cast
    ring
  | top =>
    rw [ht, EReal.top_add_coe, EReal.top_sub_coe]
    rcases lt_trichotomy s 0 with h | h | h
    · rw [EReal.top_mul_coe_of_neg h, EReal.bot_add, EReal.bot_add]
    · subst h
      rw [EReal.coe_zero, mul_zero, zero_add, zero_add]
      norm_cast
      ring
    · rw [EReal.top_mul_coe_of_pos h, EReal.top_add_coe, EReal.top_add_coe]

/-- The reference's order of operations against the folded scale and shift. -/
theorem fold_law (a : EReal) (b μ r γ β : ℝ) :
    ((a + (b : EReal)) - (μ : EReal)) * (r : EReal) * (γ : EReal) + (β : EReal)
      = a * ((γ : EReal) * (r : EReal)) + ((b : EReal) * ((γ : EReal) * (r : EReal)) + ((β : EReal) - (μ : EReal) * ((γ : EReal) * (r : EReal)))) := by
  have hs : (γ : EReal) * (r : EReal) = ((γ * r : ℝ) : EReal) := (EReal.coe_mul γ r).symm
  rw [mul_assoc, mul_comm (r : EReal) (γ : EReal), hs]
  exact fold_law_one a b μ (γ * r) β

/-- The inverse square root of a positive real plus a non-negative real is a real number. -/
theorem rsqrt_real (v e : ℝ) (hv : 0 ≤ v) (he : 0 < e) :
    ∃ r : ℝ, Idealize.ShloMosaic.Ideal.rsqrt ((v : EReal) + (e : EReal)) = (r : EReal) := by
  have hpos : 0 < v + e := by linarith
  refine ⟨(Real.sqrt (v + e))⁻¹, ?_⟩
  rw [← EReal.coe_add, Idealize.ShloMosaic.Ideal.rsqrt_coe, if_neg (not_lt.mpr hpos.le), if_neg hpos.ne']

end Cert.Gnn

end
-- ==== Proof.RefAff.lean ====
/-
  The reference's layer tail, read at an index. After the aggregate a (stage 45, 90 or 135) the reference adds the
  layer's bias row, subtracts the mean row, multiplies by the inverse deviation row rsqrt(variance + ε), multiplies by
  the gain row, adds the offset row and floors at zero. Every one of the five rows is the layer's row of a [3,128]
  table, cut out by a slice, flattened, and broadcast twice, so at (row, col) it is the table's entry (layer, col).
  With the tables real and the variances not negative, the law of AffineLaw turns that order of operations into one
  multiply-add by the folded scale and shift, which is what scaleShiftRelu states.
-/
import proofs.«415775_j12214886990280_1_alg».proof.Proof.RefRead
import proofs.«415775_j12214886990280_1_alg».proof.Proof.Spec
import proofs.«415775_j12214886990280_1_alg».proof.Proof.AffineLaw
import Idealize.ShloMosaic.Lib.Pipeline.Value
import Idealize.ShloMosaic.Lib.ValueIdx
import Idealize.ShloMosaic.PureOps.Ideal.Laws

set_option maxRecDepth 16384

noncomputable section

namespace Cert.ReferenceIdeal.Stages

open Idealize.ShloMosaic Idealize.ShloMosaic.TcCoe Idealize.SL.Sem Idealize.ShloMosaic.ValueIdx
open Cert.ReferenceIdeal Cert.ReferenceIdeal.Gen Cert.ReferenceIdeal.Read

/-- The variance floor 0x3727C5AC is the positive real 10995116 / 2^40 (about 1e-5). -/
theorem bnEps_real : ∃ e : ℝ, 0 < e ∧ Cert.Gnn.bnEps = (e : EReal) := by
  refine ⟨(10995116 : ℝ) * ((2 : ℝ) ^ 40)⁻¹, by positivity, ?_⟩
  simp [Cert.Gnn.bnEps, Ideal.ofBits, Ideal.ieee]

/-- One column of one layer: with the five table entries real and the variance not negative, the reference's
    order (add the bias, subtract the mean, times the inverse deviation, times the gain, add the offset, floor
    at zero) is the folded multiply-add floored at zero, whatever extended real the aggregate a is. -/
theorem layer_law {bc gam bet mu var : (⟨2, ![3, 128]⟩ : Shape).Idx → EReal}
    (hp : Cert.Gnn.RealParams (L := 3) (d := 128) bc gam bet mu var) (l : Fin 3) (q : Fin 128) (a : EReal) :
    max ((((a + bc (ix2 l q)) - mu (ix2 l q)) * Ideal.rsqrt (var (ix2 l q) + Cert.Gnn.bnEps)) * gam (ix2 l q)
        + bet (ix2 l q)) 0
      = max (a * Cert.Gnn.foldScale (L := 3) (d := 128) l gam var (ix2 (0 : Fin 1) q)
          + Cert.Gnn.foldShift (L := 3) (d := 128) l bc gam bet mu var (ix2 (0 : Fin 1) q)) 0 := by
  obtain ⟨c, hc⟩ := hp.bc (ix2 l q)
  obtain ⟨g, hg⟩ := hp.gam (ix2 l q)
  obtain ⟨o, ho⟩ := hp.bet (ix2 l q)
  obtain ⟨m, hm⟩ := hp.mu (ix2 l q)
  obtain ⟨v, hv0, hv⟩ := hp.var (ix2 l q)
  obtain ⟨e, he0, he⟩ := bnEps_real
  obtain ⟨r, hr⟩ := Cert.Gnn.rsqrt_real v e hv0 he0
  show max ((((a + bc (ix2 l q)) - mu (ix2 l q)) * Ideal.rsqrt (var (ix2 l q) + Cert.Gnn.bnEps)) * gam (ix2 l q)
        + bet (ix2 l q)) 0
      = max (a * (gam (ix2 l q) * Ideal.rsqrt (var (ix2 l q) + Cert.Gnn.bnEps))
          + (bc (ix2 l q) * (gam (ix2 l q) * Ideal.rsqrt (var (ix2 l q) + Cert.Gnn.bnEps))
            + (bet (ix2 l q) - mu (ix2 l q) * (gam (ix2 l q) * Ideal.rsqrt (var (ix2 l q) + Cert.Gnn.bnEps))))) 0
  rw [hc, hg, ho, hm, hv, he, hr, Cert.Gnn.fold_law]

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S3x128x128, .f32⟩ : BufTy).Contents (Elt Ideal))
  (x4 x5 x6 x7 x8 : (⟨S3x128, .f32⟩ : BufTy).Contents (Elt Ideal))
  (x9 : (⟨S128x10, .f32⟩ : BufTy).Contents (Elt Ideal)) (x10 : (⟨S10, .f32⟩ : BufTy).Contents (Elt Ideal))
  (x11 : (⟨S128x64, .f32⟩ : BufTy).Contents (Elt Ideal)) (x12 : (⟨S64, .f32⟩ : BufTy).Contents (Elt Ideal))
  (x13 : (⟨S64x2, .f32⟩ : BufTy).Contents (Elt Ideal)) (x14 : (⟨S2, .f32⟩ : BufTy).Contents (Elt Ideal))

/-! ## Layer 0: the rows of the tables at (row p, column q) -/

/-- The bias row: entry (0, q) of the bias table. -/
theorem bias0 (p : Fin 100000) (q : Fin 128) :
    val_main_v49 (F := Ideal) x4 (ix2 p q) = x4 (ix2 (0 : Fin 3) q) := by
  rw [val_main_v49_apply, val_main_v48_apply, val_main_v47_apply, val_main_v46_apply]
  refine congrArg x4 (funext fun a => ?_)
  match a with
  | ⟨0, _⟩ => rfl
  | ⟨1, _⟩ => exact Fin.ext (Nat.mod_eq_of_lt q.isLt)

/-- The mean row: entry (0, q) of the mean table. -/
theorem mean0 (p : Fin 100000) (q : Fin 128) :
    val_main_v54 (F := Ideal) x7 (ix2 p q) = x7 (ix2 (0 : Fin 3) q) := by
  rw [val_main_v54_apply, val_main_v53_apply, val_main_v52_apply, val_main_v51_apply]
  refine congrArg x7 (funext fun a => ?_)
  match a with
  | ⟨0, _⟩ => rfl
  | ⟨1, _⟩ => exact Fin.ext (Nat.mod_eq_of_lt q.isLt)

/-- The inverse deviation row: rsqrt of entry (0, q) of the variance table plus the floor. -/
theorem rdev0 (p : Fin 100000) (q : Fin 128) :
    val_main_v62 (F := Ideal) x8 (ix2 p q) = Ideal.rsqrt (x8 (ix2 (0 : Fin 3) q) + Cert.Gnn.bnEps) := by
  rw [val_main_v62_apply, val_main_v61_apply, val_main_v60_apply, val_main_v59_apply, val_main_v57_apply,
    val_main_v56_apply, val_main_v58_apply, val_main_cst_9_apply]
  have hidx : idx_main_v56 (idx_main_v57 (idx_main_v61 (idx_main_v62 (ix2 p q)))) = ix2 (0 : Fin 3) q := by
    funext a
    match a with
    | ⟨0, _⟩ => rfl
    | ⟨1, _⟩ => exact Fin.ext (Nat.mod_eq_of_lt q.isLt)
  rw [hidx]
  rfl

/-- The gain row: entry (0, q) of the gain table. -/
theorem gain0 (p : Fin 100000) (q : Fin 128) :
    val_main_v67 (F := Ideal) x5 (ix2 p q) = x5 (ix2 (0 : Fin 3) q) := by
  rw [val_main_v67_apply, val_main_v66_apply, val_main_v65_apply, val_main_v64_apply]
  refine congrArg x5 (funext fun a => ?_)
  match a with
  | ⟨0, _⟩ => rfl
  | ⟨1, _⟩ => exact Fin.ext (Nat.mod_eq_of_lt q.isLt)

/-- The offset row: entry (0, q) of the offset table. -/
theorem offs0 (p : Fin 100000) (q : Fin 128) :
    val_main_v72 (F := Ideal) x6 (ix2 p q) = x6 (ix2 (0 : Fin 3) q) := by
  rw [val_main_v72_apply, val_main_v71_apply, val_main_v70_apply, val_main_v69_apply]
  refine congrArg x6 (funext fun a => ?_)
  match a with
  | ⟨0, _⟩ => rfl
  | ⟨1, _⟩ => exact Fin.ext (Nat.mod_eq_of_lt q.isLt)

/-- The floor of the first activation is the extended real zero. -/
theorem floor1 (i : S100000x128.Idx) : val_main_call1_v0 (F := Ideal) i = 0 := by
  rw [val_main_call1_v0_apply, val_main_call1_cst_apply, Ideal.ofBits_def, Ideal.ofBits_zero_f32]

/-- Layer 0: bias, normalisation and activation in the reference's order are the folded scale and shift. -/
theorem aff74 (hp : Cert.Gnn.RealParams (L := 3) (d := 128) x4 x5 x6 x7 x8) : val_main_v74 (F := Ideal) x0 x1 x3 x4 x5 x6 x7 x8
    = Cert.Gnn.scaleShiftRelu (n := 100000) (d := 128) (val_main_v45 (F := Ideal) x0 x1 x3)
        (Cert.Gnn.foldScale (L := 3) (d := 128) 0 x5 x8) (Cert.Gnn.foldShift (L := 3) (d := 128) 0 x4 x5 x6 x7 x8) := by
  funext i
  obtain ⟨p, q, rfl⟩ : ∃ (p : Fin 100000) (q : Fin 128), i = ix2 p q := ⟨i 0, i 1, eq_ix2 i⟩
  rw [val_main_v74_apply, val_main_v73_apply, val_main_v68_apply, val_main_v63_apply, val_main_v55_apply,
    val_main_v50_apply, bias0 x4 p q, mean0 x7 p q, rdev0 x8 p q, gain0 x5 p q, offs0 x6 p q, floor1]
  exact layer_law hp 0 q (val_main_v45 (F := Ideal) x0 x1 x3 (ix2 p q))

/-! ## Layer 1: the rows of the tables at (row p, column q) -/

/-- The bias row: entry (1, q) of the bias table. -/
theorem bias1 (p : Fin 100000) (q : Fin 128) :
    val_main_v94 (F := Ideal) x4 (ix2 p q) = x4 (ix2 (1 : Fin 3) q) := by
  rw [val_main_v94_apply, val_main_v93_apply, val_main_v92_apply, val_main_v91_apply]
  refine congrArg x4 (funext fun a => ?_)
  match a with
  | ⟨0, _⟩ => rfl
  | ⟨1, _⟩ => exact Fin.ext (Nat.mod_eq_of_lt q.isLt)

/-- The mean row: entry (1, q) of the mean table. -/
theorem mean1 (p : Fin 100000) (q : Fin 128) :
    val_main_v99 (F := Ideal) x7 (ix2 p q) = x7 (ix2 (1 : Fin 3) q) := by
  rw [val_main_v99_apply, val_main_v98_apply, val_main_v97_apply, val_main_v96_apply]
  refine congrArg x7 (funext fun a => ?_)
  match a with
  | ⟨0, _⟩ => rfl
  | ⟨1, _⟩ => exact Fin.ext (Nat.mod_eq_of_lt q.isLt)

/-- The inverse deviation row: rsqrt of entry (1, q) of the variance table plus the floor. -/
theorem rdev1 (p : Fin 100000) (q : Fin 128) :
    val_main_v107 (F := Ideal) x8 (ix2 p q) = Ideal.rsqrt (x8 (ix2 (1 : Fin 3) q) + Cert.Gnn.bnEps) := by
  rw [val_main_v107_apply, val_main_v106_apply, val_main_v105_apply, val_main_v104_apply, val_main_v102_apply,
    val_main_v101_apply, val_main_v103_apply, val_main_cst_13_apply]
  have hidx : idx_main_v101 (idx_main_v102 (idx_main_v106 (idx_main_v107 (ix2 p q)))) = ix2 (1 : Fin 3) q := by
    funext a
    match a with
    | ⟨0, _⟩ => rfl
    | ⟨1, _⟩ => exact Fin.ext (Nat.mod_eq_of_lt q.isLt)
  rw [hidx]
  rfl

/-- The gain row: entry (1, q) of the gain table. -/
theorem gain1 (p : Fin 100000) (q : Fin 128) :
    val_main_v112 (F := Ideal) x5 (ix2 p q) = x5 (ix2 (1 : Fin 3) q) := by
  rw [val_main_v112_apply, val_main_v111_apply, val_main_v110_apply, val_main_v109_apply]
  refine congrArg x5 (funext fun a => ?_)
  match a with
  | ⟨0, _⟩ => rfl
  | ⟨1, _⟩ => exact Fin.ext (Nat.mod_eq_of_lt q.isLt)

/-- The offset row: entry (1, q) of the offset table. -/
theorem offs1 (p : Fin 100000) (q : Fin 128) :
    val_main_v117 (F := Ideal) x6 (ix2 p q) = x6 (ix2 (1 : Fin 3) q) := by
  rw [val_main_v117_apply, val_main_v116_apply, val_main_v115_apply, val_main_v114_apply]
  refine congrArg x6 (funext fun a => ?_)
  match a with
  | ⟨0, _⟩ => rfl
  | ⟨1, _⟩ => exact Fin.ext (Nat.mod_eq_of_lt q.isLt)

/-- The floor of the second activation is the extended real zero. -/
theorem floor2 (i : S100000x128.Idx) : val_main_call2_v0 (F := Ideal) i = 0 := by
  rw [val_main_call2_v0_apply, val_main_call2_cst_apply, Ideal.ofBits_def, Ideal.ofBits_zero_f32]

/-- Layer 1. -/
theorem aff119 (hp : Cert.Gnn.RealParams (L := 3) (d := 128) x4 x5 x6 x7 x8) : val_main_v119 (F := Ideal) x0 x1 x3 x4 x5 x6 x7 x8
    = Cert.Gnn.scaleShiftRelu (n := 100000) (d := 128) (val_main_v90 (F := Ideal) x0 x1 x3 x4 x5 x6 x7 x8)
        (Cert.Gnn.foldScale (L := 3) (d := 128) 1 x5 x8) (Cert.Gnn.foldShift (L := 3) (d := 128) 1 x4 x5 x6 x7 x8) := by
  funext i
  obtain ⟨p, q, rfl⟩ : ∃ (p : Fin 100000) (q : Fin 128), i = ix2 p q := ⟨i 0, i 1, eq_ix2 i⟩
  rw [val_main_v119_apply, val_main_v118_apply, val_main_v113_apply, val_main_v108_apply, val_main_v100_apply,
    val_main_v95_apply, bias1 x4 p q, mean1 x7 p q, rdev1 x8 p q, gain1 x5 p q, offs1 x6 p q, floor2]
  exact layer_law hp 1 q (val_main_v90 (F := Ideal) x0 x1 x3 x4 x5 x6 x7 x8 (ix2 p q))

/-! ## Layer 2: the rows of the tables at (row p, column q) -/

/-- The bias row: entry (2, q) of the bias table. -/
theorem bias2 (p : Fin 100000) (q : Fin 128) :
    val_main_v139 (F := Ideal) x4 (ix2 p q) = x4 (ix2 (2 : Fin 3) q) := by
  rw [val_main_v139_apply, val_main_v138_apply, val_main_v137_apply, val_main_v136_apply]
  refine congrArg x4 (funext fun a => ?_)
  match a with
  | ⟨0, _⟩ => rfl
  | ⟨1, _⟩ => exact Fin.ext (Nat.mod_eq_of_lt q.isLt)

/-- The mean row: entry (2, q) of the mean table. -/
theorem mean2 (p : Fin 100000) (q : Fin 128) :
    val_main_v144 (F := Ideal) x7 (ix2 p q) = x7 (ix2 (2 : Fin 3) q) := by
  rw [val_main_v144_apply, val_main_v143_apply, val_main_v142_apply, val_main_v141_apply]
  refine congrArg x7 (funext fun a => ?_)
  match a with
  | ⟨0, _⟩ => rfl
  | ⟨1, _⟩ => exact Fin.ext (Nat.mod_eq_of_lt q.isLt)

/-- The inverse deviation row: rsqrt of entry (2, q) of the variance table plus the floor. -/
theorem rdev2 (p : Fin 100000) (q : Fin 128) :
    val_main_v152 (F := Ideal) x8 (ix2 p q) = Ideal.rsqrt (x8 (ix2 (2 : Fin 3) q) + Cert.Gnn.bnEps) := by
  rw [val_main_v152_apply, val_main_v151_apply, val_main_v150_apply, val_main_v149_apply, val_main_v147_apply,
    val_main_v146_apply, val_main_v148_apply, val_main_cst_17_apply]
  have hidx : idx_main_v146 (idx_main_v147 (idx_main_v151 (idx_main_v152 (ix2 p q)))) = ix2 (2 : Fin 3) q := by
    funext a
    match a with
    | ⟨0, _⟩ => rfl
    | ⟨1, _⟩ => exact Fin.ext (Nat.mod_eq_of_lt q.isLt)
  rw [hidx]
  rfl

/-- The gain row: entry (2, q) of the gain table. -/
theorem gain2 (p : Fin 100000) (q : Fin 128) :
    val_main_v157 (F := Ideal) x5 (ix2 p q) = x5 (ix2 (2 : Fin 3) q) := by
  rw [val_main_v157_apply, val_main_v156_apply, val_main_v155_apply, val_main_v154_apply]
  refine congrArg x5 (funext fun a => ?_)
  match a with
  | ⟨0, _⟩ => rfl
  | ⟨1, _⟩ => exact Fin.ext (Nat.mod_eq_of_lt q.isLt)

/-- The offset row: entry (2, q) of the offset table. -/
theorem offs2 (p : Fin 100000) (q : Fin 128) :
    val_main_v162 (F := Ideal) x6 (ix2 p q) = x6 (ix2 (2 : Fin 3) q) := by
  rw [val_main_v162_apply, val_main_v161_apply, val_main_v160_apply, val_main_v159_apply]
  refine congrArg x6 (funext fun a => ?_)
  match a with
  | ⟨0, _⟩ => rfl
  | ⟨1, _⟩ => exact Fin.ext (Nat.mod_eq_of_lt q.isLt)

/-- The floor of the third activation is the extended real zero. -/
theorem floor3 (i : S100000x128.Idx) : val_main_call3_v0 (F := Ideal) i = 0 := by
  rw [val_main_call3_v0_apply, val_main_call3_cst_apply, Ideal.ofBits_def, Ideal.ofBits_zero_f32]

/-- Layer 2. -/
theorem aff164 (hp : Cert.Gnn.RealParams (L := 3) (d := 128) x4 x5 x6 x7 x8) : val_main_v164 (F := Ideal) x0 x1 x3 x4 x5 x6 x7 x8
    = Cert.Gnn.scaleShiftRelu (n := 100000) (d := 128) (val_main_v135 (F := Ideal) x0 x1 x3 x4 x5 x6 x7 x8)
        (Cert.Gnn.foldScale (L := 3) (d := 128) 2 x5 x8) (Cert.Gnn.foldShift (L := 3) (d := 128) 2 x4 x5 x6 x7 x8) := by
  funext i
  obtain ⟨p, q, rfl⟩ : ∃ (p : Fin 100000) (q : Fin 128), i = ix2 p q := ⟨i 0, i 1, eq_ix2 i⟩
  rw [val_main_v164_apply, val_main_v163_apply, val_main_v158_apply, val_main_v153_apply, val_main_v145_apply,
    val_main_v140_apply, bias2 x4 p q, mean2 x7 p q, rdev2 x8 p q, gain2 x5 p q, offs2 x6 p q, floor3]
  exact layer_law hp 2 q (val_main_v135 (F := Ideal) x0 x1 x3 x4 x5 x6 x7 x8 (ix2 p q))

end Cert.ReferenceIdeal.Stages

end
-- ==== Proof.ChainL0.lean ====
import proofs.«415775_j12214886990280_1_alg».proof.Proof.Gen.KernelIdeal.Frame
import proofs.«415775_j12214886990280_1_alg».proof.Proof.RefRead
import proofs.«415775_j12214886990280_1_alg».proof.Proof.Spec
import proofs.«415775_j12214886990280_1_alg».proof.Proof.Chain0
import proofs.«415775_j12214886990280_1_alg».proof.Proof.Rows0
import proofs.«415775_j12214886990280_1_alg».proof.Proof.Aff1
import proofs.«415775_j12214886990280_1_alg».proof.Proof.RefRows
import proofs.«415775_j12214886990280_1_alg».proof.Proof.RefAff
import proofs.«415775_j12214886990280_1_alg».proof.Proof.Kept
import Idealize.ShloMosaic.Lib.Pipeline.Value
import Idealize.ShloMosaic.Lib.ValueLayout
import Idealize.ShloMosaic.Lib.IdealHost
import Idealize.ShloMosaic.Lib.ValueIdx
import Idealize.ShloMosaic.Lib.StableHlo.Run

set_option maxRecDepth 16384

noncomputable section

namespace Cert.KernelIdeal.Chain

open Idealize.ShloMosaic Idealize.ShloMosaic.TcCoe Idealize.SL.Sem Idealize.ShloMosaic.ValueIdx
open Cert.KernelIdeal Cert.KernelIdeal.Gen Cert.ReferenceIdeal.Read

variable (m : (ℓ : Loc nD τ sig) → Buf (Elt Ideal) ℓ) (ρ : Dev nD → PrngReg) (c : Dev nD)

/-! ## The first layer: product, aggregation over the edges, folded normalisation -/

namespace L0

/-! ### Walking a buffer back to where it was last written -/

/-- A buffer none of the three opening stretches writes still holds the launch memory at the first launch's entry. -/
theorem launch_W3 (r : Ref sig .tc) (h0 : r ∉ Kept.wr0) (h1 : r ∉ Kept.wr0_1) (h2 : r ∉ Kept.wr0_2) :
    W3 m ρ c (Proc.devRef .tc r) = m ((c : Thread nD τ).loc r) :=
  (Kept.keep0_2 m ρ c r h2).trans ((Kept.keep0_1 m ρ c r h1).trans ((Kept.keep0 m ρ c r h0).trans (Kept.at0 m ρ c r)))

/-- The same buffer across the first launch, when it is none of the launch's arrays. -/
theorem launch_W4 (r : Ref sig .tc) (h0 : r ∉ Kept.wr0) (h1 : r ∉ Kept.wr0_1) (h2 : r ∉ Kept.wr0_2)
    (hb : ∀ w, Pipeline.arrRef spec0 w ≠ r) :
    W4 m ρ c (Proc.devRef .tc r) = m ((c : Thread nD τ).loc r) :=
  (W4_of_ne m ρ c r hb).trans (launch_W3 m ρ c r h0 h1 h2)

/-- The source list is untouched by the first launch. -/
theorem k_v3_W4 : W4 m ρ c (Proc.devRef .tc main_v3) = val_main_v3 (F := Ideal) (a1 m c) :=
  (W4_of_ne m ρ c main_v3 (by decide)).trans (k_v3 m ρ c)
/-- The target list is untouched by the first launch. -/
theorem k_v6_W4 : W4 m ρ c (Proc.devRef .tc main_v6) = val_main_v6 (F := Ideal) (a1 m c) :=
  (W4_of_ne m ρ c main_v6 (by decide)).trans (k_v6 m ρ c)
/-- The edge weights are untouched by the first launch. -/
theorem k_v29_W4 : W4 m ρ c (Proc.devRef .tc main_v29) = val_main_v29 (F := Ideal) (a1 m c) :=
  (W4_of_ne m ρ c main_v29 (by decide)).trans (k_v29 m ρ c)

/-! ### The product -/

/-- The first launch leaves the node features times the first weight matrix, which is the reference's product. -/
theorem k_v32 : W4 m ρ c (Proc.devRef .tc main_v32) = val_main_v32 (F := Ideal) (a0 m c) (a3 m c) := by
  have e0 : V3 m ρ c main_arg0 = a0 m c := launch_W3 m ρ c main_arg0 (by decide) (by decide) (by decide)
  have e1 : V3 m ρ c main_v31 = val_main_v31 (F := Ideal) (a3 m c) := k_v31 m ρ c
  refine (W4_arr m ρ c 2).trans ?_
  rw [Cert.KernelIdeal.Rows0.rows (V3 m ρ) c, Cert.ReferenceIdeal.Stages.rows32, e0, e1]

/-! ### The folded scale and shift, column by column -/

section Fold

variable (o : Nat) (hs : S3x128.Slices ![o, 0] S1x128) (hc : S1x128.ShapeCasts S128)
  (hb : S_.BroadcastsInDim S128 (![] : Fin 0 → Fin S128.rank))

/-- Row `o` of a table of three rows as a vector: the slice, then the reshape that drops the unit axis. -/
def rowVec (x : FVec Ideal S3x128 .f32) : FVec Ideal S128 .f32 :=
  shapeCast S128 (extractStridedSlice S1x128 ![o, 0] x hs) hc

/-- The scale vector as the program composes it: `γ · rsqrt(v + ε)` on rows of the two tables. -/
def scaleVec (gam var : FVec Ideal S3x128 .f32) : FVec Ideal S128 .f32 :=
  mulf (rowVec o hs hc gam)
    (Host.rsqrt (addf (rowVec o hs hc var) (broadcastInDim S128 ![] hb (constant (F := Ideal) S_ .f32 0x3727C5AC#32))))

/-- The shift vector as the program composes it: `b · s + (β − μ · s)`. -/
def shiftVec (bc gam bet mu var : FVec Ideal S3x128 .f32) : FVec Ideal S128 .f32 :=
  addf (mulf (rowVec o hs hc bc) (scaleVec o hs hc hb gam var))
    (subf (rowVec o hs hc bet) (mulf (rowVec o hs hc mu) (scaleVec o hs hc hb gam var)))

/-- The row vector at a column is the table at that row and column. -/
theorem rowVec_apply (l : Fin 3) (hl : l.val = o) (x : FVec Ideal S3x128 .f32) (i : Fin 128) :
    rowVec o hs hc x (ix1 i) = x (ix2 l i) :=
  (shapeCast_1a_a_apply _ hc i).trans (slice2_axis0_apply o x hs (0 : Fin 1) i l (by rw [hl]; rfl))

/-- The host's inverse root at an index. -/
theorem hostRsqrt_apply {s : Shape} {φ : FTy} (a : FVec Ideal s φ) (i : s.Idx) : Host.rsqrt a i = Ideal.rsqrt (a i) := rfl

/-- The scale vector at a column is the folded scale of that column. -/
theorem scaleVec_apply (l : Fin 3) (hl : l.val = o) (gam var : FVec Ideal S3x128 .f32) (u : Fin 1) (i : Fin 128) :
    scaleVec o hs hc hb gam var (ix1 i) = Cert.Gnn.foldScale (L := 3) (d := 128) l gam var (ix2 u i) := by
  show rowVec o hs hc gam (ix1 i) * Ideal.rsqrt (rowVec o hs hc var (ix1 i) + _) = _
  rw [rowVec_apply o hs hc l hl gam i, rowVec_apply o hs hc l hl var i]
  rfl

/-- The shift vector at a column is the folded shift of that column. -/
theorem shiftVec_apply (l : Fin 3) (hl : l.val = o) (bc gam bet mu var : FVec Ideal S3x128 .f32) (u : Fin 1) (i : Fin 128) :
    shiftVec o hs hc hb bc gam bet mu var (ix1 i)
      = Cert.Gnn.foldShift (L := 3) (d := 128) l bc gam bet mu var (ix2 u i) := by
  show rowVec o hs hc bc (ix1 i) * scaleVec o hs hc hb gam var (ix1 i)
      + (rowVec o hs hc bet (ix1 i) - rowVec o hs hc mu (ix1 i) * scaleVec o hs hc hb gam var (ix1 i)) = _
  rw [scaleVec_apply o hs hc hb l hl gam var u i, rowVec_apply o hs hc l hl bc i, rowVec_apply o hs hc l hl bet i,
    rowVec_apply o hs hc l hl mu i]
  rfl

end Fold

/-- The stretch after the first launch composes the folded scale of layer 0. -/
theorem fold_scale0 (V : Valuation τ sig (Elt Ideal)) (x5 x8 : (⟨S3x128, .f32⟩ : BufTy).Contents (Elt Ideal))
    (h5 : V (Proc.devRef .tc main_arg5) = x5) (h8 : V (Proc.devRef .tc main_arg8) = x8) :
    StableHlo.after hostOps1 V (Proc.devRef .tc main_v64) = Cert.Gnn.foldScale (L := 3) (d := 128) 0 x5 x8 := by
  after_results_simp
  rw [h5, h8]
  funext j
  obtain ⟨u, i, rfl⟩ : ∃ (u : Fin 1) (i : Fin 128), j = ix2 u i := ⟨j 0, j 1, eq_ix2 j⟩
  refine (shapeCast_a_1a_apply _ _ u i).trans ?_
  exact scaleVec_apply 0 _ _ _ 0 rfl x5 x8 u i

/-- The stretch after the first launch composes the folded shift of layer 0. -/
theorem fold_shift0 (V : Valuation τ sig (Elt Ideal)) (x4 x5 x6 x7 x8 : (⟨S3x128, .f32⟩ : BufTy).Contents (Elt Ideal))
    (h4 : V (Proc.devRef .tc main_arg4) = x4) (h5 : V (Proc.devRef .tc main_arg5) = x5) (h6 : V (Proc.devRef .tc main_arg6) = x6)
    (h7 : V (Proc.devRef .tc main_arg7) = x7) (h8 : V (Proc.devRef .tc main_arg8) = x8) :
    StableHlo.after hostOps1 V (Proc.devRef .tc main_v65) = Cert.Gnn.foldShift (L := 3) (d := 128) 0 x4 x5 x6 x7 x8 := by
  after_results_simp
  rw [h4, h5, h6, h7, h8]
  funext j
  obtain ⟨u, i, rfl⟩ : ∃ (u : Fin 1) (i : Fin 128), j = ix2 u i := ⟨j 0, j 1, eq_ix2 j⟩
  refine (shapeCast_a_1a_apply _ _ u i).trans ?_
  exact shiftVec_apply 0 _ _ _ 0 rfl x4 x5 x6 x7 x8 u i

/-- The folded scale of layer 0 at the second launch's entry. -/
theorem k_v64 : W5 m ρ c (Proc.devRef .tc main_v64) = Cert.Gnn.foldScale (L := 3) (d := 128) 0 (a5 m c) (a8 m c) :=
  fold_scale0 (W4 m ρ c) _ _
    (launch_W4 m ρ c main_arg5 (by decide) (by decide) (by decide) (by decide))
    (launch_W4 m ρ c main_arg8 (by decide) (by decide) (by decide) (by decide))

/-- The folded shift of layer 0 at the second launch's entry. -/
theorem k_v65 : W5 m ρ c (Proc.devRef .tc main_v65)
    = Cert.Gnn.foldShift (L := 3) (d := 128) 0 (a4 m c) (a5 m c) (a6 m c) (a7 m c) (a8 m c) :=
  fold_shift0 (W4 m ρ c) _ _ _ _ _
    (launch_W4 m ρ c main_arg4 (by decide) (by decide) (by decide) (by decide))
    (launch_W4 m ρ c main_arg5 (by decide) (by decide) (by decide) (by decide))
    (launch_W4 m ρ c main_arg6 (by decide) (by decide) (by decide) (by decide))
    (launch_W4 m ρ c main_arg7 (by decide) (by decide) (by decide) (by decide))
    (launch_W4 m ρ c main_arg8 (by decide) (by decide) (by decide) (by decide))

/-! ### The aggregation over the edges -/

/-- The stretch after the first launch gathers the product's rows at the source list, weights each by its edge weight and
    adds them up at the target list: operation for operation the reference's stages, whatever the number format. -/
theorem agg_same0 {F : FTy → Type} [FloatOps F] (V : Valuation τ sig (Elt F))
    (x0 : (⟨S100000x128, .f32⟩ : BufTy).Contents (Elt F)) (x1 : (⟨S2x1600000, .i32⟩ : BufTy).Contents (Elt F))
    (x3 : (⟨S3x128x128, .f32⟩ : BufTy).Contents (Elt F))
    (h32 : V (Proc.devRef .tc main_v32) = val_main_v32 (F := F) x0 x3)
    (h3 : V (Proc.devRef .tc main_v3) = val_main_v3 (F := F) x1)
    (h6 : V (Proc.devRef .tc main_v6) = val_main_v6 (F := F) x1)
    (h29 : V (Proc.devRef .tc main_v29) = val_main_v29 (F := F) x1) :
    StableHlo.after hostOps1 V (Proc.devRef .tc main_v45) = val_main_v45 (F := F) x0 x1 x3 := by
  after_results_simp
  rw [h32, h3, h6, h29]
  unfold val_main_v45 val_main_v44 val_main_v43 val_main_v42 val_main_v41 val_main_v40 val_main_v39 val_main_v38
    val_main_v37 val_main_v36 val_main_v35 val_main_v34 val_main_v33 val_main_c_6 val_main_c_7 val_main_cst_8
  rfl

/-- The aggregated product at the second launch's entry is the reference's. -/
theorem k_v45 : W5 m ρ c (Proc.devRef .tc main_v45) = val_main_v45 (F := Ideal) (a0 m c) (a1 m c) (a3 m c) :=
  agg_same0 (W4 m ρ c) _ _ _ (k_v32 m ρ c) (k_v3_W4 m ρ c) (k_v6_W4 m ρ c) (k_v29_W4 m ρ c)

end L0

open L0

/-! ### The activation -/

/-- After the first layer's activation the node features are the reference's. -/
theorem k_v66 (hp : Cert.Gnn.RealParams (L := 3) (d := 128) (a4 m c) (a5 m c) (a6 m c) (a7 m c) (a8 m c)) :
    W6 m ρ c (Proc.devRef .tc main_v66) = val_main_v74 (F := Ideal) (a0 m c) (a1 m c) (a3 m c) (a4 m c) (a5 m c) (a6 m c) (a7 m c) (a8 m c) := by
  have e45 : V5 m ρ c main_v45 = val_main_v45 (F := Ideal) (a0 m c) (a1 m c) (a3 m c) := k_v45 m ρ c
  have e64 : V5 m ρ c main_v64 = Cert.Gnn.foldScale (L := 3) (d := 128) 0 (a5 m c) (a8 m c) := k_v64 m ρ c
  have e65 : V5 m ρ c main_v65 = Cert.Gnn.foldShift (L := 3) (d := 128) 0 (a4 m c) (a5 m c) (a6 m c) (a7 m c) (a8 m c) :=
    k_v65 m ρ c
  refine (W6_arr m ρ c 3).trans ?_
  rw [Cert.KernelIdeal.Aff1.aff (V5 m ρ) c, Cert.ReferenceIdeal.Stages.aff74 _ _ _ _ _ _ _ _ hp, e45, e64, e65]

/-! ### What the first layer leaves alone -/

/-- The source list is untouched up to here. -/
theorem k_v3_W6 : W6 m ρ c (Proc.devRef .tc main_v3) = val_main_v3 (F := Ideal) (a1 m c) :=
  (W6_of_ne m ρ c main_v3 (by decide)).trans ((Kept.keep1 m ρ c main_v3 (by decide)).trans (k_v3_W4 m ρ c))
/-- The target list is untouched up to here. -/
theorem k_v6_W6 : W6 m ρ c (Proc.devRef .tc main_v6) = val_main_v6 (F := Ideal) (a1 m c) :=
  (W6_of_ne m ρ c main_v6 (by decide)).trans ((Kept.keep1 m ρ c main_v6 (by decide)).trans (k_v6_W4 m ρ c))
/-- The edge weights are untouched up to here. -/
theorem k_v29_W6 : W6 m ρ c (Proc.devRef .tc main_v29) = val_main_v29 (F := Ideal) (a1 m c) :=
  (W6_of_ne m ρ c main_v29 (by decide)).trans ((Kept.keep1 m ρ c main_v29 (by decide)).trans (k_v29_W4 m ρ c))

end Cert.KernelIdeal.Chain

end
-- ==== Proof.Rows2.lean ====
import proofs.«415775_j12214886990280_1_alg».proof.Proof.Gen.KernelIdeal.Frame
import proofs.«415775_j12214886990280_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Rows2

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## The product of a row tile with the weights, entry by entry -/

/-- The body's loads and its one store go through the whole tile: zero offsets on both axes. -/
theorem zero_offsets : (![0, 0] : Fin 2 → Nat) = fun _ => 0 := funext fun a => by fin_cases a <;> rfl

/-- On the left operand the row axis is kept: its coordinate is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- On the left operand the column axis is the summed one. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- On the right operand the row axis is the summed one. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- On the right operand the column axis is kept: its coordinate is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(p, q)` of what the body stores: row `p` of the loaded tile against column `q` of the loaded weights.
    On the extended reals the narrowing of both operands is the identity, the reshapes keep the shape, and the
    accumulator starts at zero, so only the sum over the 128 shared coordinates is left. -/
theorem tile_product (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er, truncf_apply, truncf_apply, shapeCast_self, shapeCast_self]

/-! ## From the tiles to the whole array -/

/-- The index maps over the 20 grid points: the feature tile and the output tile at point `t` are row tile `t`
    (column tile 0), and the weights are always their one block. -/
theorem tile_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Tile `t` of the product, read off whole arrays `A` (features) and `W` (weights): row `r` of the feature
    tile is row `5000 t + r` of `A`, the weights' one block is `W` itself, and the output tile sits at the same rows. -/
theorem tile_reads (A : S100000x128.Idx → EReal) (W : S128x128.Idx → EReal) (t : Fin cfg2.N) (p : Fin 5000) (q : Fin 128) :
    ∑ k : Fin 128, A (((cfg2.win 0).blk t).view.emb (ix2 p k)) * W (((cfg2.win 1).blk t).view.emb (ix2 k q))
      = Cert.Gnn.rowsTimes (n := 100000) (d := 128) (e := 128) A W (((cfg2.win 2).blk t).view.emb (ix2 p q)) := by
  obtain ⟨e00, e01, e10, e11, e20, e21⟩ := tile_indices t
  unfold Cert.Gnn.rowsTimes
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  exact congrArg₂ (· * ·) (congrArg A h0) (congrArg W h1)

/-- What point `t` writes back is tile `t` of the product of the whole feature array with the weights. -/
theorem flushed_eq (c : Dev nD) (t : Fin cfg2.N) :
    (dat2 (F := Ideal) V c).flushed 2 t
      = ((cfg2.win 2).blk t).view.read (Elt Ideal)
          (Cert.Gnn.rowsTimes (n := 100000) (d := 128) (e := 128) (V c main_v66) (V c main_v68)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  funext j
  obtain ⟨p, q, rfl⟩ : ∃ (p : Fin 5000) (q : Fin 128), j = ix2 p q := ⟨j 0, j 1, eq_ix2 j⟩
  refine (tile_product (iblk2 V c 0 t) (iblk2 V c 1 t) p q).trans ?_
  exact tile_reads (V c main_v66) (V c main_v68) t p q

/-- An index of the output array lies in point `t`'s tile iff each coordinate is in the tile's range on its axis. -/
theorem mem_tile (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v69).slice (win2_2.rect t)).set ↔ _
  rw [View.set_slice_whole, Rect.mem_set_unit]
  exact Iff.rfl

/-- Every row lies in some tile: row `r` in tile `r / 5000`. -/
theorem tiles_cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  have ht : t.val = (i 0).val / 5000 := rfl
  obtain ⟨-, -, -, -, e20, e21⟩ := tile_indices t
  refine ⟨t, flush2_2 t, ?_⟩
  rw [mem_tile]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The row blocks of the product, written back tile by tile, make up the whole product. -/
theorem rows (c : Dev nD) :
    (dat2 (F := Ideal) V c).arrAt 2 cfg2.N
      = Cert.Gnn.rowsTimes (n := 100000) (d := 128) (e := 128) (V c main_v66) (V c main_v68) :=
  (dat2 (F := Ideal) V c).arrAt_eq_of_cover 2 _ (fun t _ => flushed_eq V c t) tiles_cover

end Cert.KernelIdeal.Rows2

end
-- ==== Proof.Aff3.lean ====
/-
  Launch 3 of the kernel scales every column of the aggregated features, shifts it, and floors the result at
  zero, one tile of 5000 rows at a time over a grid of 20 tiles.  The scale and the shift are single rows of 128
  entries, fetched whole at every tile; tile `t` reads rows `5000 t … 5000 t + 4999` of the aggregate and
  writes the same rows of the result.

  The proof reads one stored entry (`pay_apply`, `tile_apply`), places every window's block in its array
  (`idx_facts`, `flushed_eq`: what tile `t` writes back is its rows of the specification), and notes that row
  `r` belongs to tile `r / 5000` (`cover`), so the written array is the specification everywhere (`aff`).
-/
import proofs.«415775_j12214886990280_1_alg».proof.Proof.Gen.KernelIdeal.Frame
import proofs.«415775_j12214886990280_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Aff3

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The two zero offsets of a whole-block rectangle, as the constant function. -/
theorem hz : (![0, 0] : Fin 2 → Nat) = fun _ => 0 := funext fun a => by fin_cases a <;> rfl

/-- A row vector spread over 5000 rows reads, at row `p` and column `q`, the vector's column `q`. -/
theorem spread_apply (x : Vec Ideal S1x128 .f32) (p : Fin 5000) (q : Fin 128) :
    broadcastTo S5000x128 x broadcasts_S1x128_S5000x128 (ix2 p q) = x (ix2 (0 : Fin 1) q) := by
  refine broadcastTo_apply x _ (ix2 p q) (ix2 (0 : Fin 1) q) ?_
  intro a
  match a with
  | ⟨0, _⟩ => rfl
  | ⟨1, _⟩ => rfl

/-- One entry of the tile the body stores: the aggregate's entry times its column's scale, plus its column's
    shift, floored at zero. -/
theorem pay_apply (x0 : Vec Ideal S5000x128 .f32) (x1 x2 : Vec Ideal S1x128 .f32) (p : Fin 5000) (q : Fin 128) :
    k3_pay1 (F := Ideal) x0 x1 x2 (ix2 p q)
      = max (x0 (ix2 p q) * x1 (ix2 (0 : Fin 1) q) + x2 (ix2 (0 : Fin 1) q)) 0 := by
  unfold k3_pay1
  rw [shapeCast_self, shapeCast_self, shapeCast_self]
  rw [maximumf_apply, addf_apply, mulf_apply, broadcast_apply, spread_apply, spread_apply]
  exact congrArg _ Ideal.ofBits_zero_f32

/-- The same entry against the whole arrays: if the tile's entry `j` is the aggregate's entry `i` in the same
    column, and the two row vectors are the scale and the shift, the stored entry is the specification's at `i`. -/
theorem tile_apply (A : (⟨2, ![100000, 128]⟩ : Shape).Idx → EReal) (s b : (⟨2, ![1, 128]⟩ : Shape).Idx → EReal)
    (x0 : Vec Ideal S5000x128 .f32) (x1 x2 : Vec Ideal S1x128 .f32)
    (j : S5000x128.Idx) (i : S100000x128.Idx) (hcol : (i 1).val = (j 1).val)
    (h0 : x0 j = A i) (h1 : ∀ k, x1 k = s k) (h2 : ∀ k, x2 k = b k) :
    k3_pay1 (F := Ideal) x0 x1 x2 j = Cert.Gnn.scaleShiftRelu (n := 100000) (d := 128) A s b i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hcol
  rw [pay_apply, h0, h1, h2]
  rfl

/-- Where each window's block sits at tile `t`: the aggregate's and the result's at row block `t`, the scale's
    and the shift's always at their one block (decided over the 20 tiles). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What tile `t` writes back is rows `5000 t … 5000 t + 4999` of the specification. -/
theorem flushed_eq (c : Dev nD) (t : Fin cfg3.N) :
    (dat3 (F := Ideal) V c).flushed 3 t
      = ((cfg3.win 3).blk t).view.read (Elt Ideal)
          (Cert.Gnn.scaleShiftRelu (n := 100000) (d := 128) (V c main_v82) (V c main_v101) (V c main_v102)) := by
  show (cfg3.win 3).cut (grid3.coords t) ((dat3 V c).after 3 t) = _
  rw [after3_3]
  unfold out3_3
  rw [View.canon_unit_zero hz]
  simp only [View.ld_unit_zero (S := S5000x128) hz, View.ld_unit_zero (S := S1x128) hz]
  obtain ⟨e00, e01, e10, e11, e20, e21, e30, e31⟩ := idx_facts t
  funext j
  refine tile_apply (V c main_v82) (V c main_v101) (V c main_v102) (iblk3 V c 0 t) (iblk3 V c 1 t) (iblk3 V c 2 t) j
    (((cfg3.win 3).blk t).view.emb j) ?_ ?_ ?_ ?_
  · show win3_3.index t (1 : Fin 2) * 128 + 1 * (j 1).val = (j 1).val
    omega
  · show V c main_v82 (((cfg3.win 0).blk t).view.emb j) = V c main_v82 (((cfg3.win 3).blk t).view.emb j)
    refine congrArg (V c main_v82) (funext fun a => Fin.ext ?_)
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  · intro k
    show V c main_v101 (((cfg3.win 1).blk t).view.emb k) = V c main_v101 k
    refine congrArg (V c main_v101) (funext fun a => Fin.ext ?_)
    match a with
    | ⟨0, _⟩ => show win3_1.index t (0 : Fin 2) * 1 + 1 * (k 0).val = (k 0).val; omega
    | ⟨1, _⟩ => show win3_1.index t (1 : Fin 2) * 128 + 1 * (k 1).val = (k 1).val; omega
  · intro k
    show V c main_v102 (((cfg3.win 2).blk t).view.emb k) = V c main_v102 k
    refine congrArg (V c main_v102) (funext fun a => Fin.ext ?_)
    match a with
    | ⟨0, _⟩ => show win3_2.index t (0 : Fin 2) * 1 + 1 * (k 0).val = (k 0).val; omega
    | ⟨1, _⟩ => show win3_2.index t (1 : Fin 2) * 128 + 1 * (k 1).val = (k 1).val; omega

/-- An entry of the array is in tile `t`'s block iff each coordinate is in the block's range on its axis. -/
theorem mem_blk (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v103).slice (win3_3.rect t)).set ↔ _
  rw [View.set_slice_whole, Rect.mem_set_unit]
  exact Iff.rfl

/-- Row `r` lies in the block of tile `r / 5000`: the twenty row blocks make up the array. -/
theorem cover (i : S100000x128.Idx) :
    ∃ t : Fin cfg3.N, (cfg3.win 3).flush t = true ∧ i ∈ ((cfg3.win 3).blk t).view.set := by
  have hN : cfg3.N = 20 := N_3
  have hi0 : (i 0).val < 100000 := (i 0).isLt
  have hi1 : (i 1).val < 128 := (i 1).isLt
  let t : Fin cfg3.N := ⟨(i 0).val / 5000, by rw [hN]; omega⟩
  have ht : t.val = (i 0).val / 5000 := rfl
  obtain ⟨-, -, -, -, -, -, e30, e31⟩ := idx_facts t
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The tiles of the scaled, shifted and floored array make up the whole array. -/
theorem aff (c : Dev nD) :
    (dat3 (F := Ideal) V c).arrAt 3 cfg3.N
      = Cert.Gnn.scaleShiftRelu (n := 100000) (d := 128) (V c main_v82) (V c main_v101) (V c main_v102) :=
  (dat3 (F := Ideal) V c).arrAt_eq_of_cover 3 _ (fun t _ => flushed_eq V c t) cover

end Cert.KernelIdeal.Aff3

end
-- ==== Proof.ChainL1.lean ====
/-
  The second layer of the network, boundary by boundary.

  Between the first layer's activation and the second's the program slices the second weight matrix out of the
  stack of three, multiplies the node features by it (launch 2), gathers the product's rows at the edges' sources,
  weights them and adds them up at the targets, folds the layer's bias and normalisation into one scale and one
  shift per column, and applies scale, shift and the floor at zero (launch 3).  Each step's buffer is identified
  with the reference's stage: the slice and the aggregation because both programs apply the same operations to
  equal operands, the product and the activation through the specification's functions, the folded scale and
  shift entry by entry.  The edge lists and the edge weights are written once, before the first layer, and are
  carried unchanged across every boundary.
-/
import proofs.«415775_j12214886990280_1_alg».proof.Proof.Gen.KernelIdeal.Frame
import proofs.«415775_j12214886990280_1_alg».proof.Proof.RefRead
import proofs.«415775_j12214886990280_1_alg».proof.Proof.Spec
import proofs.«415775_j12214886990280_1_alg».proof.Proof.ChainL0
import proofs.«415775_j12214886990280_1_alg».proof.Proof.Rows2
import proofs.«415775_j12214886990280_1_alg».proof.Proof.Aff3
import proofs.«415775_j12214886990280_1_alg».proof.Proof.RefRows
import proofs.«415775_j12214886990280_1_alg».proof.Proof.RefAff
import proofs.«415775_j12214886990280_1_alg».proof.Proof.Kept
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Chain.Later

open Idealize.ShloMosaic Idealize.ShloMosaic.TcCoe Idealize.SL.Sem Idealize.ShloMosaic.ValueIdx
open Cert.KernelIdeal Cert.KernelIdeal.Gen Cert.KernelIdeal.Chain

/-! ## One round of message passing, as one function of its four operands -/

section Generic
variable {F : FTy → Type} [FloatOps F]

/-- Gather the rows of hw at the source of every edge (a negative source wraps around once), weight each by
    its edge's weight, and add the weighted rows up at the edges' targets, starting from zero. -/
def edgeSum (hw : (⟨S100000x128, .f32⟩ : BufTy).Contents (Elt F)) (src dst : (⟨S1700000, .i32⟩ : BufTy).Contents (Elt F))
    (nrm : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (mulf
      (Host.gather gather_S100000x128_S1700000x1_S1700000x128_1_0_n_n_0_1_1128 hw
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)))
      (broadcastInDim S1700000x128 ![0, 1] bcast_S1700000x1_S1700000x128_0_1
        (broadcastInDim S1700000x1 ![0] bcast_S1700000_S1700000x1_0 nrm)))

/-- One 128 by 128 matrix out of the stack of three: the slice, then the unit axis dropped. -/
def layerMatrix (off : Fin 3 → Nat) (hs : S3x128x128.Slices off S1x128x128)
    (x : (⟨S3x128x128, .f32⟩ : BufTy).Contents (Elt F)) : (⟨S128x128, .f32⟩ : BufTy).Contents (Elt F) :=
  shapeCast S128x128 (extractStridedSlice S1x128x128 off x hs) shapeCasts_S1x128x128_S128x128

end Generic

/-! ## A layer's folded scale and shift, as the host computes them from the five parameter tables -/

section Fold
variable (off : Fin 2 → Nat) (hs : S3x128.Slices off S1x128)

/-- One row of a 3 by 128 table as a vector of 128 entries: the slice, then the unit axis dropped. -/
def tableRow (x : (⟨S3x128, .f32⟩ : BufTy).Contents (Elt Ideal)) : (⟨S128, .f32⟩ : BufTy).Contents (Elt Ideal) :=
  shapeCast S128 (extractStridedSlice S1x128 off x hs) shapeCasts_S1x128_S128

/-- The scale as a vector: the row of gamma times the inverse root of the row of variances plus the floor. -/
def scaleVec (g v : (⟨S3x128, .f32⟩ : BufTy).Contents (Elt Ideal)) : (⟨S128, .f32⟩ : BufTy).Contents (Elt Ideal) :=
  mulf (tableRow off hs g)
    (Host.rsqrt (addf (tableRow off hs v) (broadcastInDim S128 ![] bcast_S_S128 (constant (F := Ideal) S_ .f32 0x3727C5AC#32))))

/-- The scale as the one-row matrix the kernel is handed. -/
def scaleRow (g v : (⟨S3x128, .f32⟩ : BufTy).Contents (Elt Ideal)) : (⟨S1x128, .f32⟩ : BufTy).Contents (Elt Ideal) :=
  shapeCast S1x128 (scaleVec off hs g v) shapeCasts_S128_S1x128

/-- The shift as a vector: bias times scale, plus beta minus mean times scale. -/
def shiftVec (bc g be mu v : (⟨S3x128, .f32⟩ : BufTy).Contents (Elt Ideal)) : FVec Ideal S128 .f32 :=
  addf (F := Ideal) (s := S128) (φ := .f32) (mulf (F := Ideal) (s := S128) (φ := .f32) (tableRow off hs bc) (scaleVec off hs g v))
    (subf (F := Ideal) (s := S128) (φ := .f32) (tableRow off hs be) (mulf (F := Ideal) (s := S128) (φ := .f32) (tableRow off hs mu) (scaleVec off hs g v)))

/-- The shift as the one-row matrix the kernel is handed. -/
def shiftRow (bc g be mu v : (⟨S3x128, .f32⟩ : BufTy).Contents (Elt Ideal)) : (⟨S1x128, .f32⟩ : BufTy).Contents (Elt Ideal) :=
  shapeCast S1x128 (shiftVec off hs bc g be mu v) shapeCasts_S128_S1x128

/-- Entry q of row l of a table. -/
theorem tableRow_apply (l : Fin 3) (h0 : off 0 = l.val) (h1 : off 1 = 0) (x : (⟨S3x128, .f32⟩ : BufTy).Contents (Elt Ideal)) (q : Fin 128) :
    tableRow off hs x (ix1 q) = x (ix2 l q) := by
  unfold tableRow
  refine (shapeCast_1a_a_apply (a := 128) _ shapeCasts_S1x128_S128 q).trans ?_
  refine extractStridedSlice_apply off x hs (ix2 (0 : Fin 1) q) (ix2 l q) ?_
  intro a
  match a with
  | ⟨0, _⟩ => show l.val = off 0 + 0; omega
  | ⟨1, _⟩ => show q.val = off 1 + q.val; omega

/-- Entry q of the scale vector. -/
theorem scaleVec_apply (l : Fin 3) (h0 : off 0 = l.val) (h1 : off 1 = 0) (g v : (⟨S3x128, .f32⟩ : BufTy).Contents (Elt Ideal)) (q : Fin 128) :
    scaleVec off hs g v (ix1 q) = g (ix2 l q) * Ideal.rsqrt (v (ix2 l q) + Cert.Gnn.bnEps) := by
  show tableRow off hs g (ix1 q) * Ideal.rsqrt (tableRow off hs v (ix1 q) + Ideal.ofBits .f32 0x3727C5AC#32) = _
  rw [tableRow_apply off hs l h0 h1 g q, tableRow_apply off hs l h0 h1 v q]
  rfl

/-- The one-row scale is the specification's folded scale of layer l. -/
theorem scaleRow_eq (l : Fin 3) (h0 : off 0 = l.val) (h1 : off 1 = 0) (g v : (⟨S3x128, .f32⟩ : BufTy).Contents (Elt Ideal)) :
    scaleRow off hs g v = Cert.Gnn.foldScale (L := 3) (d := 128) l g v := by
  funext j
  obtain ⟨u, q, rfl⟩ : ∃ (u : Fin 1) (q : Fin 128), j = ix2 u q := ⟨j 0, j 1, eq_ix2 j⟩
  unfold scaleRow
  refine (shapeCast_a_1a_apply (a := 128) _ shapeCasts_S128_S1x128 u q).trans ?_
  exact scaleVec_apply off hs l h0 h1 g v q

/-- The one-row shift is the specification's folded shift of layer l. -/
theorem shiftRow_eq (l : Fin 3) (h0 : off 0 = l.val) (h1 : off 1 = 0) (bc g be mu v : (⟨S3x128, .f32⟩ : BufTy).Contents (Elt Ideal)) :
    shiftRow off hs bc g be mu v = Cert.Gnn.foldShift (L := 3) (d := 128) l bc g be mu v := by
  funext j
  obtain ⟨u, q, rfl⟩ : ∃ (u : Fin 1) (q : Fin 128), j = ix2 u q := ⟨j 0, j 1, eq_ix2 j⟩
  unfold shiftRow
  refine (shapeCast_a_1a_apply (a := 128) _ shapeCasts_S128_S1x128 u q).trans ?_
  unfold shiftVec
  show tableRow off hs bc (ix1 q) * scaleVec off hs g v (ix1 q)
      + (tableRow off hs be (ix1 q) - tableRow off hs mu (ix1 q) * scaleVec off hs g v (ix1 q)) = _
  rw [tableRow_apply off hs l h0 h1 bc q, tableRow_apply off hs l h0 h1 be q, tableRow_apply off hs l h0 h1 mu q,
    scaleVec_apply off hs l h0 h1 g v q]
  rfl

end Fold

/-! ## Walking a buffer back across the boundaries -/

variable (m : (ℓ : Loc nD τ sig) → Buf (Elt Ideal) ℓ) (ρ : Dev nD → PrngReg) (c : Dev nD)

/-- A buffer that nothing up to the exit of launch 1 writes still holds the launch memory there. -/
theorem launchAt6 (r : Ref sig .tc) (h0 : r ∉ Kept.wr0) (h01 : r ∉ Kept.wr0_1) (h02 : r ∉ Kept.wr0_2) (h1 : r ∉ Kept.wr1)
    (n0 : ∀ w, Pipeline.arrRef spec0 w ≠ r) (n1 : ∀ w, Pipeline.arrRef spec1 w ≠ r) :
    W6 m ρ c (Proc.devRef .tc r) = m ((c : Thread nD τ).loc r) :=
  (W6_of_ne m ρ c r n1).trans ((Kept.keep1 m ρ c r h1).trans ((W4_of_ne m ρ c r n0).trans
    ((Kept.keep0_2 m ρ c r h02).trans ((Kept.keep0_1 m ρ c r h01).trans ((Kept.keep0 m ρ c r h0).trans (Kept.at0 m ρ c r))))))

/-- Across the stretch before launch 2 and the launch itself. -/
theorem carry68 (r : Ref sig .tc) (h : r ∉ Kept.wr2) (n : ∀ w, Pipeline.arrRef spec2 w ≠ r) :
    W8 m ρ c (Proc.devRef .tc r) = W6 m ρ c (Proc.devRef .tc r) :=
  (W8_of_ne m ρ c r n).trans (Kept.keep2 m ρ c r h)

/-- Across the stretch before launch 3 and the launch itself. -/
theorem carry810 (r : Ref sig .tc) (h : r ∉ Kept.wr3) (n : ∀ w, Pipeline.arrRef spec3 w ≠ r) :
    W10 m ρ c (Proc.devRef .tc r) = W8 m ρ c (Proc.devRef .tc r) :=
  (W10_of_ne m ρ c r n).trans (Kept.keep3 m ρ c r h)

/-- The stack of weight matrices at the exit of launch 1. -/
theorem arg3_W6 : W6 m ρ c (Proc.devRef .tc main_arg3) = a3 m c :=
  launchAt6 m ρ c main_arg3 (by decide) (by decide) (by decide) (by decide) (by decide) (by decide)
/-- The bias table at the exit of launch 2. -/
theorem arg4_W8 : W8 m ρ c (Proc.devRef .tc main_arg4) = a4 m c :=
  (carry68 m ρ c main_arg4 (by decide) (by decide)).trans
    (launchAt6 m ρ c main_arg4 (by decide) (by decide) (by decide) (by decide) (by decide) (by decide))
/-- The gamma table at the exit of launch 2. -/
theorem arg5_W8 : W8 m ρ c (Proc.devRef .tc main_arg5) = a5 m c :=
  (carry68 m ρ c main_arg5 (by decide) (by decide)).trans
    (launchAt6 m ρ c main_arg5 (by decide) (by decide) (by decide) (by decide) (by decide) (by decide))
/-- The beta table at the exit of launch 2. -/
theorem arg6_W8 : W8 m ρ c (Proc.devRef .tc main_arg6) = a6 m c :=
  (carry68 m ρ c main_arg6 (by decide) (by decide)).trans
    (launchAt6 m ρ c main_arg6 (by decide) (by decide) (by decide) (by decide) (by decide) (by decide))
/-- The table of means at the exit of launch 2. -/
theorem arg7_W8 : W8 m ρ c (Proc.devRef .tc main_arg7) = a7 m c :=
  (carry68 m ρ c main_arg7 (by decide) (by decide)).trans
    (launchAt6 m ρ c main_arg7 (by decide) (by decide) (by decide) (by decide) (by decide) (by decide))
/-- The table of variances at the exit of launch 2. -/
theorem arg8_W8 : W8 m ρ c (Proc.devRef .tc main_arg8) = a8 m c :=
  (carry68 m ρ c main_arg8 (by decide) (by decide)).trans
    (launchAt6 m ρ c main_arg8 (by decide) (by decide) (by decide) (by decide) (by decide) (by decide))

end Cert.KernelIdeal.Chain.Later

namespace Cert.KernelIdeal.Chain.Later

open Idealize.ShloMosaic Idealize.ShloMosaic.TcCoe Idealize.SL.Sem Idealize.ShloMosaic.ValueIdx
open Cert.KernelIdeal Cert.KernelIdeal.Gen Cert.KernelIdeal.Chain Cert.ReferenceIdeal.Read

/-! ## The reference's stages of the second layer are the same operations -/

section RefGeneric
variable {F : FTy → Type} [FloatOps F]
variable (x0 : (⟨Cert.ReferenceIdeal.S100000x128, .f32⟩ : BufTy).Contents (Elt F))
  (x1 : (⟨Cert.ReferenceIdeal.S2x1600000, .i32⟩ : BufTy).Contents (Elt F))
  (x3 : (⟨Cert.ReferenceIdeal.S3x128x128, .f32⟩ : BufTy).Contents (Elt F))
  (x4 x5 x6 x7 x8 : (⟨Cert.ReferenceIdeal.S3x128, .f32⟩ : BufTy).Contents (Elt F))

/-- The reference's second weight matrix is the same slice of the stack. -/
theorem ref_v76 : val_main_v76 (F := F) x3 = layerMatrix ![1, 0, 0] slices_S3x128x128_S1x128x128_1_0_0 x3 := by
  unfold val_main_v76 val_main_v75 layerMatrix
  rfl

/-- The reference's second aggregation is the same round of message passing over its own product. -/
theorem ref_v90 : val_main_v90 (F := F) x0 x1 x3 x4 x5 x6 x7 x8
    = edgeSum (val_main_v77 (F := F) x0 x1 x3 x4 x5 x6 x7 x8) (val_main_v3 (F := F) x1) (val_main_v6 (F := F) x1)
        (val_main_v29 (F := F) x1) := by
  unfold val_main_v90 val_main_v89 val_main_v88 val_main_v87 val_main_v86 val_main_v85 val_main_v84 val_main_v83
    val_main_v82 val_main_v81 val_main_v80 val_main_v79 val_main_v78 val_main_c_10 val_main_c_11 val_main_cst_12 edgeSum
  rfl

end RefGeneric

end Cert.KernelIdeal.Chain.Later

namespace Cert.KernelIdeal.Chain

open Idealize.ShloMosaic Idealize.ShloMosaic.TcCoe Idealize.SL.Sem Idealize.ShloMosaic.ValueIdx
open Cert.KernelIdeal Cert.KernelIdeal.Gen Cert.ReferenceIdeal.Read Cert.KernelIdeal.Chain.Later

variable (m : (ℓ : Loc nD τ sig) → Buf (Elt Ideal) ℓ) (ρ : Dev nD → PrngReg) (c : Dev nD)

/-! ## The second layer -/

/-- The second layer's scale, as the kernel is handed it, is the specification's folded scale. -/
theorem k_v101 : W9 m ρ c (Proc.devRef .tc main_v101)
    = Cert.Gnn.foldScale (L := 3) (d := 128) 1 (a5 m c) (a8 m c) := by
  have e : W9 m ρ c (Proc.devRef .tc main_v101) = scaleRow ![1, 0] slices_S3x128_S1x128_1_0 (a5 m c) (a8 m c) := by
    show StableHlo.after hostOps3 (W8 m ρ c) (Proc.devRef .tc main_v101) = _
    after_results_simp
    rw [arg5_W8 m ρ c, arg8_W8 m ρ c]
    rfl
  exact e.trans (scaleRow_eq ![1, 0] slices_S3x128_S1x128_1_0 1 rfl rfl (a5 m c) (a8 m c))

/-- The second layer's shift, as the kernel is handed it, is the specification's folded shift. -/
theorem k_v102 : W9 m ρ c (Proc.devRef .tc main_v102)
    = Cert.Gnn.foldShift (L := 3) (d := 128) 1 (a4 m c) (a5 m c) (a6 m c) (a7 m c) (a8 m c) := by
  have e : W9 m ρ c (Proc.devRef .tc main_v102)
      = shiftRow ![1, 0] slices_S3x128_S1x128_1_0 (a4 m c) (a5 m c) (a6 m c) (a7 m c) (a8 m c) := by
    show StableHlo.after hostOps3 (W8 m ρ c) (Proc.devRef .tc main_v102) = _
    after_results_simp
    rw [arg4_W8 m ρ c, arg5_W8 m ρ c, arg6_W8 m ρ c, arg7_W8 m ρ c, arg8_W8 m ρ c]
    rfl
  exact e.trans (shiftRow_eq ![1, 0] slices_S3x128_S1x128_1_0 1 rfl rfl (a4 m c) (a5 m c) (a6 m c) (a7 m c) (a8 m c))

/-- What the stretch before launch 3 leaves in the aggregate's buffer, over the four buffers it reads. -/
theorem v82_read : W9 m ρ c (Proc.devRef .tc main_v82)
    = edgeSum (W8 m ρ c (Proc.devRef .tc main_v69)) (W8 m ρ c (Proc.devRef .tc main_v3))
        (W8 m ρ c (Proc.devRef .tc main_v6)) (W8 m ρ c (Proc.devRef .tc main_v29)) := by
  show StableHlo.after hostOps3 (W8 m ρ c) (Proc.devRef .tc main_v82) = _
  after_results_simp
  rfl

/-- The source list is untouched up to the exit of launch 2. -/
theorem k_v3_W8 : W8 m ρ c (Proc.devRef .tc main_v3) = val_main_v3 (F := Ideal) (a1 m c) :=
  (carry68 m ρ c main_v3 (by decide) (by decide)).trans (k_v3_W6 m ρ c)
/-- The target list is untouched up to the exit of launch 2. -/
theorem k_v6_W8 : W8 m ρ c (Proc.devRef .tc main_v6) = val_main_v6 (F := Ideal) (a1 m c) :=
  (carry68 m ρ c main_v6 (by decide) (by decide)).trans (k_v6_W6 m ρ c)
/-- The edge weights are untouched up to the exit of launch 2. -/
theorem k_v29_W8 : W8 m ρ c (Proc.devRef .tc main_v29) = val_main_v29 (F := Ideal) (a1 m c) :=
  (carry68 m ρ c main_v29 (by decide) (by decide)).trans (k_v29_W6 m ρ c)

/-- The second layer's weight matrix is the reference's slice. -/
theorem k_v68 : W7 m ρ c (Proc.devRef .tc main_v68) = val_main_v76 (F := Ideal) (a3 m c) := by
  have e : W7 m ρ c (Proc.devRef .tc main_v68) = layerMatrix ![1, 0, 0] slices_S3x128x128_S1x128x128_1_0_0 (a3 m c) := by
    show StableHlo.after hostOps2 (W6 m ρ c) (Proc.devRef .tc main_v68) = _
    after_results_simp
    rw [arg3_W6 m ρ c]
    rfl
  exact e.trans (ref_v76 (F := Ideal) (a3 m c)).symm

/-- The second layer's product of the node features with its weight matrix is the reference's. -/
theorem k_v69 (hp : Cert.Gnn.RealParams (L := 3) (d := 128) (a4 m c) (a5 m c) (a6 m c) (a7 m c) (a8 m c)) :
    W8 m ρ c (Proc.devRef .tc main_v69) = val_main_v77 (F := Ideal) (a0 m c) (a1 m c) (a3 m c) (a4 m c) (a5 m c) (a6 m c) (a7 m c) (a8 m c) := by
  refine (W8_arr m ρ c 2).trans ?_
  refine (Cert.KernelIdeal.Rows2.rows (V7 m ρ) c).trans ?_
  show Cert.Gnn.rowsTimes (n := 100000) (d := 128) (e := 128) (W7 m ρ c (Proc.devRef .tc main_v66)) (W7 m ρ c (Proc.devRef .tc main_v68)) = _
  rw [Kept.keep2 m ρ c main_v66 (by decide), k_v66 m ρ c hp, k_v68 m ρ c]
  exact (Cert.ReferenceIdeal.Stages.rows77 (a0 m c) (a1 m c) (a3 m c) (a4 m c) (a5 m c) (a6 m c) (a7 m c) (a8 m c)).symm

/-- The second layer's aggregate over the edges is the reference's. -/
theorem k_v82 (hp : Cert.Gnn.RealParams (L := 3) (d := 128) (a4 m c) (a5 m c) (a6 m c) (a7 m c) (a8 m c)) :
    W9 m ρ c (Proc.devRef .tc main_v82) = val_main_v90 (F := Ideal) (a0 m c) (a1 m c) (a3 m c) (a4 m c) (a5 m c) (a6 m c) (a7 m c) (a8 m c) := by
  rw [v82_read m ρ c, k_v69 m ρ c hp, k_v3_W8 m ρ c, k_v6_W8 m ρ c, k_v29_W8 m ρ c]
  exact (ref_v90 (F := Ideal) (a0 m c) (a1 m c) (a3 m c) (a4 m c) (a5 m c) (a6 m c) (a7 m c) (a8 m c)).symm

/-- After the second layer's activation the node features are the reference's. -/
theorem k_v103 (hp : Cert.Gnn.RealParams (L := 3) (d := 128) (a4 m c) (a5 m c) (a6 m c) (a7 m c) (a8 m c)) :
    W10 m ρ c (Proc.devRef .tc main_v103) = val_main_v119 (F := Ideal) (a0 m c) (a1 m c) (a3 m c) (a4 m c) (a5 m c) (a6 m c) (a7 m c) (a8 m c) := by
  refine (W10_arr m ρ c 3).trans ?_
  refine (Cert.KernelIdeal.Aff3.aff (V9 m ρ) c).trans ?_
  show Cert.Gnn.scaleShiftRelu (n := 100000) (d := 128) (W9 m ρ c (Proc.devRef .tc main_v82))
    (W9 m ρ c (Proc.devRef .tc main_v101)) (W9 m ρ c (Proc.devRef .tc main_v102)) = _
  rw [k_v82 m ρ c hp, k_v101 m ρ c, k_v102 m ρ c]
  exact (Cert.ReferenceIdeal.Stages.aff119 (a0 m c) (a1 m c) (a3 m c) (a4 m c) (a5 m c) (a6 m c) (a7 m c) (a8 m c) hp).symm
/-- The source list is untouched up to here. -/
theorem k_v3_W10 : W10 m ρ c (Proc.devRef .tc main_v3) = val_main_v3 (F := Ideal) (a1 m c) :=
  (carry810 m ρ c main_v3 (by decide) (by decide)).trans (k_v3_W8 m ρ c)
/-- The target list is untouched up to here. -/
theorem k_v6_W10 : W10 m ρ c (Proc.devRef .tc main_v6) = val_main_v6 (F := Ideal) (a1 m c) :=
  (carry810 m ρ c main_v6 (by decide) (by decide)).trans (k_v6_W8 m ρ c)
/-- The edge weights are untouched up to here. -/
theorem k_v29_W10 : W10 m ρ c (Proc.devRef .tc main_v29) = val_main_v29 (F := Ideal) (a1 m c) :=
  (carry810 m ρ c main_v29 (by decide) (by decide)).trans (k_v29_W8 m ρ c)

end Cert.KernelIdeal.Chain

end
-- ==== Proof.Rows4.lean ====
import proofs.«415775_j12214886990280_1_alg».proof.Proof.Gen.KernelIdeal.Frame
import proofs.«415775_j12214886990280_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Rows4

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## The product of a row tile with the weights, entry by entry -/

/-- The body's loads and its one store go through the whole tile: zero offsets on both axes. -/
theorem zero_offsets : (![0, 0] : Fin 2 → Nat) = fun _ => 0 := funext fun a => by fin_cases a <;> rfl

/-- On the left operand the row axis is kept: its coordinate is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- On the left operand the column axis is the summed one. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- On the right operand the row axis is the summed one. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- On the right operand the column axis is kept: its coordinate is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(p, q)` of what the body stores: row `p` of the loaded tile against column `q` of the loaded weights.
    On the extended reals the narrowing of both operands is the identity, the reshapes keep the shape, and the
    accumulator starts at zero, so only the sum over the 128 shared coordinates is left. -/
theorem tile_product (x0 : Vec Ideal S5000x128 .f32) (x1 : Vec Ideal S128x128 .f32) (p : Fin 5000) (q : Fin 128) :
    k4_pay1 (F := Ideal) x0 x1 (ix2 p q) = ∑ k : Fin 128, x0 (ix2 p k) * x1 (ix2 k q) := by
  unfold k4_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er, truncf_apply, truncf_apply, shapeCast_self, shapeCast_self]

/-! ## From the tiles to the whole array -/

/-- The index maps over the 20 grid points: the feature tile and the output tile at point `t` are row tile `t`
    (column tile 0), and the weights are always their one block. -/
theorem tile_indices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Tile `t` of the product, read off whole arrays `A` (features) and `W` (weights): row `r` of the feature
    tile is row `5000 t + r` of `A`, the weights' one block is `W` itself, and the output tile sits at the same rows. -/
theorem tile_reads (A : S100000x128.Idx → EReal) (W : S128x128.Idx → EReal) (t : Fin cfg4.N) (p : Fin 5000) (q : Fin 128) :
    ∑ k : Fin 128, A (((cfg4.win 0).blk t).view.emb (ix2 p k)) * W (((cfg4.win 1).blk t).view.emb (ix2 k q))
      = Cert.Gnn.rowsTimes (n := 100000) (d := 128) (e := 128) A W (((cfg4.win 2).blk t).view.emb (ix2 p q)) := by
  obtain ⟨e00, e01, e10, e11, e20, e21⟩ := tile_indices t
  unfold Cert.Gnn.rowsTimes
  refine Finset.sum_congr rfl fun k _ => ?_
  have h0 : ((cfg4.win 0).blk t).view.emb (ix2 p k) = ix2 ((((cfg4.win 2).blk t).view.emb (ix2 p q)) 0) k := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * k.val = k.val; omega
  have h1 : ((cfg4.win 1).blk t).view.emb (ix2 k q) = ix2 k ((((cfg4.win 2).blk t).view.emb (ix2 p q)) 1) := by
    funext a; apply Fin.ext
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega
  exact congrArg₂ (· * ·) (congrArg A h0) (congrArg W h1)

/-- What point `t` writes back is tile `t` of the product of the whole feature array with the weights. -/
theorem flushed_eq (c : Dev nD) (t : Fin cfg4.N) :
    (dat4 (F := Ideal) V c).flushed 2 t
      = ((cfg4.win 2).blk t).view.read (Elt Ideal)
          (Cert.Gnn.rowsTimes (n := 100000) (d := 128) (e := 128) (V c main_v103) (V c main_v105)) := by
  show (cfg4.win 2).cut (grid4.coords t) ((dat4 V c).after 2 t) = _
  rw [after4_2]
  unfold out4_2
  rw [View.canon_unit_zero zero_offsets]
  simp only [View.ld_unit_zero (S := S5000x128) zero_offsets, View.ld_unit_zero (S := S128x128) zero_offsets]
  funext j
  obtain ⟨p, q, rfl⟩ : ∃ (p : Fin 5000) (q : Fin 128), j = ix2 p q := ⟨j 0, j 1, eq_ix2 j⟩
  refine (tile_product (iblk4 V c 0 t) (iblk4 V c 1 t) p q).trans ?_
  exact tile_reads (V c main_v103) (V c main_v105) t p q

/-- An index of the output array lies in point `t`'s tile iff each coordinate is in the tile's range on its axis. -/
theorem mem_tile (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v106).slice (win4_2.rect t)).set ↔ _
  rw [View.set_slice_whole, Rect.mem_set_unit]
  exact Iff.rfl

/-- Every row lies in some tile: row `r` in tile `r / 5000`. -/
theorem tiles_cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  have ht : t.val = (i 0).val / 5000 := rfl
  obtain ⟨-, -, -, -, e20, e21⟩ := tile_indices t
  refine ⟨t, flush4_2 t, ?_⟩
  rw [mem_tile]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The row blocks of the product, written back tile by tile, make up the whole product. -/
theorem rows (c : Dev nD) :
    (dat4 (F := Ideal) V c).arrAt 2 cfg4.N
      = Cert.Gnn.rowsTimes (n := 100000) (d := 128) (e := 128) (V c main_v103) (V c main_v105) :=
  (dat4 (F := Ideal) V c).arrAt_eq_of_cover 2 _ (fun t _ => flushed_eq V c t) tiles_cover

end Cert.KernelIdeal.Rows4

end
-- ==== Proof.Aff5.lean ====
/-
  Launch 5 of the kernel scales every column of the aggregated features, shifts it, and floors the result at
  zero, one tile of 5000 rows at a time over a grid of 20 tiles.  The scale and the shift are single rows of 128
  entries, fetched whole at every tile; tile `t` reads rows `5000 t … 5000 t + 4999` of the aggregate and
  writes the same rows of the result.

  The proof reads one stored entry (`pay_apply`, `tile_apply`), places every window's block in its array
  (`idx_facts`, `flushed_eq`: what tile `t` writes back is its rows of the specification), and notes that row
  `r` belongs to tile `r / 5000` (`cover`), so the written array is the specification everywhere (`aff`).
-/
import proofs.«415775_j12214886990280_1_alg».proof.Proof.Gen.KernelIdeal.Frame
import proofs.«415775_j12214886990280_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Aff5

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The two zero offsets of a whole-block rectangle, as the constant function. -/
theorem hz : (![0, 0] : Fin 2 → Nat) = fun _ => 0 := funext fun a => by fin_cases a <;> rfl

/-- A row vector spread over 5000 rows reads, at row `p` and column `q`, the vector's column `q`. -/
theorem spread_apply (x : Vec Ideal S1x128 .f32) (p : Fin 5000) (q : Fin 128) :
    broadcastTo S5000x128 x broadcasts_S1x128_S5000x128 (ix2 p q) = x (ix2 (0 : Fin 1) q) := by
  refine broadcastTo_apply x _ (ix2 p q) (ix2 (0 : Fin 1) q) ?_
  intro a
  match a with
  | ⟨0, _⟩ => rfl
  | ⟨1, _⟩ => rfl

/-- One entry of the tile the body stores: the aggregate's entry times its column's scale, plus its column's
    shift, floored at zero. -/
theorem pay_apply (x0 : Vec Ideal S5000x128 .f32) (x1 x2 : Vec Ideal S1x128 .f32) (p : Fin 5000) (q : Fin 128) :
    k5_pay1 (F := Ideal) x0 x1 x2 (ix2 p q)
      = max (x0 (ix2 p q) * x1 (ix2 (0 : Fin 1) q) + x2 (ix2 (0 : Fin 1) q)) 0 := by
  unfold k5_pay1
  rw [shapeCast_self, shapeCast_self, shapeCast_self]
  rw [maximumf_apply, addf_apply, mulf_apply, broadcast_apply, spread_apply, spread_apply]
  exact congrArg _ Ideal.ofBits_zero_f32

/-- The same entry against the whole arrays: if the tile's entry `j` is the aggregate's entry `i` in the same
    column, and the two row vectors are the scale and the shift, the stored entry is the specification's at `i`. -/
theorem tile_apply (A : (⟨2, ![100000, 128]⟩ : Shape).Idx → EReal) (s b : (⟨2, ![1, 128]⟩ : Shape).Idx → EReal)
    (x0 : Vec Ideal S5000x128 .f32) (x1 x2 : Vec Ideal S1x128 .f32)
    (j : S5000x128.Idx) (i : S100000x128.Idx) (hcol : (i 1).val = (j 1).val)
    (h0 : x0 j = A i) (h1 : ∀ k, x1 k = s k) (h2 : ∀ k, x2 k = b k) :
    k5_pay1 (F := Ideal) x0 x1 x2 j = Cert.Gnn.scaleShiftRelu (n := 100000) (d := 128) A s b i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hcol
  rw [pay_apply, h0, h1, h2]
  rfl

/-- Where each window's block sits at tile `t`: the aggregate's and the result's at row block `t`, the scale's
    and the shift's always at their one block (decided over the 20 tiles). -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What tile `t` writes back is rows `5000 t … 5000 t + 4999` of the specification. -/
theorem flushed_eq (c : Dev nD) (t : Fin cfg5.N) :
    (dat5 (F := Ideal) V c).flushed 3 t
      = ((cfg5.win 3).blk t).view.read (Elt Ideal)
          (Cert.Gnn.scaleShiftRelu (n := 100000) (d := 128) (V c main_v119) (V c main_v138) (V c main_v139)) := by
  show (cfg5.win 3).cut (grid5.coords t) ((dat5 V c).after 3 t) = _
  rw [after5_3]
  unfold out5_3
  rw [View.canon_unit_zero hz]
  simp only [View.ld_unit_zero (S := S5000x128) hz, View.ld_unit_zero (S := S1x128) hz]
  obtain ⟨e00, e01, e10, e11, e20, e21, e30, e31⟩ := idx_facts t
  funext j
  refine tile_apply (V c main_v119) (V c main_v138) (V c main_v139) (iblk5 V c 0 t) (iblk5 V c 1 t) (iblk5 V c 2 t) j
    (((cfg5.win 3).blk t).view.emb j) ?_ ?_ ?_ ?_
  · show win5_3.index t (1 : Fin 2) * 128 + 1 * (j 1).val = (j 1).val
    omega
  · show V c main_v119 (((cfg5.win 0).blk t).view.emb j) = V c main_v119 (((cfg5.win 3).blk t).view.emb j)
    refine congrArg (V c main_v119) (funext fun a => Fin.ext ?_)
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 128 + 1 * (j 1).val = win5_3.index t (1 : Fin 2) * 128 + 1 * (j 1).val; omega
  · intro k
    show V c main_v138 (((cfg5.win 1).blk t).view.emb k) = V c main_v138 k
    refine congrArg (V c main_v138) (funext fun a => Fin.ext ?_)
    match a with
    | ⟨0, _⟩ => show win5_1.index t (0 : Fin 2) * 1 + 1 * (k 0).val = (k 0).val; omega
    | ⟨1, _⟩ => show win5_1.index t (1 : Fin 2) * 128 + 1 * (k 1).val = (k 1).val; omega
  · intro k
    show V c main_v139 (((cfg5.win 2).blk t).view.emb k) = V c main_v139 k
    refine congrArg (V c main_v139) (funext fun a => Fin.ext ?_)
    match a with
    | ⟨0, _⟩ => show win5_2.index t (0 : Fin 2) * 1 + 1 * (k 0).val = (k 0).val; omega
    | ⟨1, _⟩ => show win5_2.index t (1 : Fin 2) * 128 + 1 * (k 1).val = (k 1).val; omega

/-- An entry of the array is in tile `t`'s block iff each coordinate is in the block's range on its axis. -/
theorem mem_blk (t : Fin cfg5.N) (i : S100000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v140).slice (win5_3.rect t)).set ↔ _
  rw [View.set_slice_whole, Rect.mem_set_unit]
  exact Iff.rfl

/-- Row `r` lies in the block of tile `r / 5000`: the twenty row blocks make up the array. -/
theorem cover (i : S100000x128.Idx) :
    ∃ t : Fin cfg5.N, (cfg5.win 3).flush t = true ∧ i ∈ ((cfg5.win 3).blk t).view.set := by
  have hN : cfg5.N = 20 := N_5
  have hi0 : (i 0).val < 100000 := (i 0).isLt
  have hi1 : (i 1).val < 128 := (i 1).isLt
  let t : Fin cfg5.N := ⟨(i 0).val / 5000, by rw [hN]; omega⟩
  have ht : t.val = (i 0).val / 5000 := rfl
  obtain ⟨-, -, -, -, -, -, e30, e31⟩ := idx_facts t
  refine ⟨t, flush5_3 t, ?_⟩
  rw [mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- The tiles of the scaled, shifted and floored array make up the whole array. -/
theorem aff (c : Dev nD) :
    (dat5 (F := Ideal) V c).arrAt 3 cfg5.N
      = Cert.Gnn.scaleShiftRelu (n := 100000) (d := 128) (V c main_v119) (V c main_v138) (V c main_v139) :=
  (dat5 (F := Ideal) V c).arrAt_eq_of_cover 3 _ (fun t _ => flushed_eq V c t) cover

end Cert.KernelIdeal.Aff5

end
-- ==== Proof.ChainL2.lean ====
/-
  The third layer, from the second layer's output to the third layer's activation.

  The host cuts the third weight matrix out of the weight table; the fifth launch multiplies every row of the
  features by it; the host then gathers the products at the edges' sources, scales each by its edge weight and adds
  them up at the edges' targets (the same operations, over the same dimension records, as the reference's), and folds
  the layer's bias and normalisation tables into one scale and one shift per column; the sixth launch applies scale,
  shift and the floor at zero. Each buffer is read where it is written and walked back, across the stretches and
  launches that leave it alone, to the facts already known about it.
-/
import proofs.«415775_j12214886990280_1_alg».proof.Proof.Gen.KernelIdeal.Frame
import proofs.«415775_j12214886990280_1_alg».proof.Proof.RefRead
import proofs.«415775_j12214886990280_1_alg».proof.Proof.Spec
import proofs.«415775_j12214886990280_1_alg».proof.Proof.Kept
import proofs.«415775_j12214886990280_1_alg».proof.Proof.ChainL1
import proofs.«415775_j12214886990280_1_alg».proof.Proof.Rows4
import proofs.«415775_j12214886990280_1_alg».proof.Proof.Aff5
import proofs.«415775_j12214886990280_1_alg».proof.Proof.RefRows
import proofs.«415775_j12214886990280_1_alg».proof.Proof.RefAff
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Chain

open Idealize.ShloMosaic Idealize.ShloMosaic.TcCoe Idealize.SL.Sem Idealize.ShloMosaic.ValueIdx
open Cert.KernelIdeal Cert.KernelIdeal.Gen Cert.ReferenceIdeal.Read
open Cert.KernelIdeal.Kept

/-! ## Buffers nothing has written yet -/

namespace L2

section AnyFloat

variable {F : FTy → Type} [FloatOps F] (mF : (ℓ : Loc nD τ sig) → Buf (Elt F) ℓ) (ρ : Dev nD → PrngReg) (c : Dev nD)

/-- A buffer that no stretch and no launch before the third product writes holds the launch memory. -/
theorem at_W10 (r : Ref sig .tc) (h0 : r ∉ wr0) (h01 : r ∉ wr0_1) (h02 : r ∉ wr0_2)
    (g0 : ∀ w, Pipeline.arrRef spec0 w ≠ r) (h1 : r ∉ wr1) (g1 : ∀ w, Pipeline.arrRef spec1 w ≠ r)
    (h2 : r ∉ wr2) (g2 : ∀ w, Pipeline.arrRef spec2 w ≠ r) (h3 : r ∉ wr3) (g3 : ∀ w, Pipeline.arrRef spec3 w ≠ r) :
    W10 mF ρ c (Proc.devRef .tc r) = mF ((c : Thread nD τ).loc r) :=
  (W10_of_ne mF ρ c r g3).trans <| (keep3 mF ρ c r h3).trans <| (W8_of_ne mF ρ c r g2).trans <|
  (keep2 mF ρ c r h2).trans <| (W6_of_ne mF ρ c r g1).trans <| (keep1 mF ρ c r h1).trans <|
  (W4_of_ne mF ρ c r g0).trans <| (keep0_2 mF ρ c r h02).trans <| (keep0_1 mF ρ c r h01).trans <|
  (keep0 mF ρ c r h0).trans (at0 mF ρ c r)

/-- The same up to the exit of the third product. -/
theorem at_W12 (r : Ref sig .tc) (h0 : r ∉ wr0) (h01 : r ∉ wr0_1) (h02 : r ∉ wr0_2)
    (g0 : ∀ w, Pipeline.arrRef spec0 w ≠ r) (h1 : r ∉ wr1) (g1 : ∀ w, Pipeline.arrRef spec1 w ≠ r)
    (h2 : r ∉ wr2) (g2 : ∀ w, Pipeline.arrRef spec2 w ≠ r) (h3 : r ∉ wr3) (g3 : ∀ w, Pipeline.arrRef spec3 w ≠ r)
    (h4 : r ∉ wr4) (g4 : ∀ w, Pipeline.arrRef spec4 w ≠ r) :
    W12 mF ρ c (Proc.devRef .tc r) = mF ((c : Thread nD τ).loc r) :=
  (W12_of_ne mF ρ c r g4).trans <| (keep4 mF ρ c r h4).trans (at_W10 mF ρ c r h0 h01 h02 g0 h1 g1 h2 g2 h3 g3)

/-- The third weight matrix: slice 2 of the weight table, its leading unit axis dropped — at any float instance. -/
theorem g11_v105 : W11 mF ρ c (Proc.devRef .tc main_v105) = val_main_v121 (F := F) (mF ((c : Thread nD τ).loc main_arg3)) := by
  show StableHlo.after hostOps4 (W10 mF ρ c) (Proc.devRef .tc main_v105) = _
  after_results_simp
  rw [at_W10 mF ρ c main_arg3 (by decide) (by decide) (by decide) (by decide) (by decide) (by decide) (by decide) (by decide)
    (by decide) (by decide)]
  rfl

/-- The aggregation over the edges — gather at the sources, scale by the edge weights, add up at the targets — is the
    same operations over the same dimension records in both programs: at any float instance, whatever the four
    buffers it reads hold. -/
theorem g13_v119 (x0 : (⟨S100000x128, .f32⟩ : BufTy).Contents (Elt F)) (x1 : (⟨S2x1600000, .i32⟩ : BufTy).Contents (Elt F))
    (x3 : (⟨S3x128x128, .f32⟩ : BufTy).Contents (Elt F)) (x4 x5 x6 x7 x8 : (⟨S3x128, .f32⟩ : BufTy).Contents (Elt F))
    (h106 : W12 mF ρ c (Proc.devRef .tc main_v106) = val_main_v122 (F := F) x0 x1 x3 x4 x5 x6 x7 x8)
    (h3 : W12 mF ρ c (Proc.devRef .tc main_v3) = val_main_v3 (F := F) x1)
    (h6 : W12 mF ρ c (Proc.devRef .tc main_v6) = val_main_v6 (F := F) x1)
    (h29 : W12 mF ρ c (Proc.devRef .tc main_v29) = val_main_v29 (F := F) x1) :
    W13 mF ρ c (Proc.devRef .tc main_v119) = val_main_v135 (F := F) x0 x1 x3 x4 x5 x6 x7 x8 := by
  show StableHlo.after hostOps5 (W12 mF ρ c) (Proc.devRef .tc main_v119) = _
  after_results_simp
  rw [h106, h3, h6, h29]
  unfold val_main_v135 val_main_v134 val_main_v133 val_main_v132 val_main_v131 val_main_v130 val_main_v129 val_main_v128
    val_main_v127 val_main_v126 val_main_v125 val_main_v124 val_main_v123 val_main_c_14 val_main_c_15 val_main_cst_16
  rfl

end AnyFloat

/-- Row 2 of a [3,128] table, cut out and flattened, reads the table at (2, q). -/
theorem row2 (x : (⟨2, ![3, 128]⟩ : Shape).Idx → EReal) (q : Fin 128) :
    shapeCast S128 (extractStridedSlice S1x128 ![2, 0] x slices_S3x128_S1x128_2_0) shapeCasts_S1x128_S128 (ix1 q)
      = x (ix2 (2 : Fin 3) q) := by
  rw [shapeCast_1a_a_apply]
  exact slice2_axis0_apply 2 x slices_S3x128_S1x128_2_0 (0 : Fin 1) q (2 : Fin 3) rfl

end L2

variable (m : (ℓ : Loc nD τ sig) → Buf (Elt Ideal) ℓ) (ρ : Dev nD → PrngReg) (c : Dev nD)

/-- The five parameter tables are arguments: nothing up to the third product writes them. -/
theorem k_arg4_W12 : W12 m ρ c (Proc.devRef .tc main_arg4) = a4 m c :=
  L2.at_W12 m ρ c main_arg4 (by decide) (by decide) (by decide) (by decide) (by decide) (by decide) (by decide) (by decide)
    (by decide) (by decide) (by decide) (by decide)
theorem k_arg5_W12 : W12 m ρ c (Proc.devRef .tc main_arg5) = a5 m c :=
  L2.at_W12 m ρ c main_arg5 (by decide) (by decide) (by decide) (by decide) (by decide) (by decide) (by decide) (by decide)
    (by decide) (by decide) (by decide) (by decide)
theorem k_arg6_W12 : W12 m ρ c (Proc.devRef .tc main_arg6) = a6 m c :=
  L2.at_W12 m ρ c main_arg6 (by decide) (by decide) (by decide) (by decide) (by decide) (by decide) (by decide) (by decide)
    (by decide) (by decide) (by decide) (by decide)
theorem k_arg7_W12 : W12 m ρ c (Proc.devRef .tc main_arg7) = a7 m c :=
  L2.at_W12 m ρ c main_arg7 (by decide) (by decide) (by decide) (by decide) (by decide) (by decide) (by decide) (by decide)
    (by decide) (by decide) (by decide) (by decide)
theorem k_arg8_W12 : W12 m ρ c (Proc.devRef .tc main_arg8) = a8 m c :=
  L2.at_W12 m ρ c main_arg8 (by decide) (by decide) (by decide) (by decide) (by decide) (by decide) (by decide) (by decide)
    (by decide) (by decide) (by decide) (by decide)

/-! ## The third layer -/

/-- The third weight matrix is the reference's slice. -/
theorem k_v105 : W11 m ρ c (Proc.devRef .tc main_v105) = val_main_v121 (F := Ideal) (a3 m c) :=
  L2.g11_v105 m ρ c

/-- The second layer's output is still there when the third product starts. -/
theorem k_v103_W11 (hp : Cert.Gnn.RealParams (L := 3) (d := 128) (a4 m c) (a5 m c) (a6 m c) (a7 m c) (a8 m c)) :
    W11 m ρ c (Proc.devRef .tc main_v103) = val_main_v119 (F := Ideal) (a0 m c) (a1 m c) (a3 m c) (a4 m c) (a5 m c) (a6 m c) (a7 m c) (a8 m c) :=
  (keep4 m ρ c main_v103 (by decide)).trans (k_v103 m ρ c hp)

/-- The third product: every row of the second layer's output times the third weight matrix. -/
theorem k_v106 (hp : Cert.Gnn.RealParams (L := 3) (d := 128) (a4 m c) (a5 m c) (a6 m c) (a7 m c) (a8 m c)) :
    W12 m ρ c (Proc.devRef .tc main_v106) = val_main_v122 (F := Ideal) (a0 m c) (a1 m c) (a3 m c) (a4 m c) (a5 m c) (a6 m c) (a7 m c) (a8 m c) :=
  (W12_arr m ρ c 2).trans <| (Cert.KernelIdeal.Rows4.rows (V11 m ρ) c).trans <|
  (congrArg₂ (Cert.Gnn.rowsTimes (n := 100000) (d := 128) (e := 128)) (k_v103_W11 m ρ c hp) (k_v105 m ρ c)).trans
    (Cert.ReferenceIdeal.Stages.rows122 (a0 m c) (a1 m c) (a3 m c) (a4 m c) (a5 m c) (a6 m c) (a7 m c) (a8 m c)).symm

/-- The two edge lists and the edge weights are untouched by the third product. -/
theorem k_v3_W12 : W12 m ρ c (Proc.devRef .tc main_v3) = val_main_v3 (F := Ideal) (a1 m c) :=
  (W12_of_ne m ρ c main_v3 (by decide)).trans <| (keep4 m ρ c main_v3 (by decide)).trans (k_v3_W10 m ρ c)
theorem k_v6_W12 : W12 m ρ c (Proc.devRef .tc main_v6) = val_main_v6 (F := Ideal) (a1 m c) :=
  (W12_of_ne m ρ c main_v6 (by decide)).trans <| (keep4 m ρ c main_v6 (by decide)).trans (k_v6_W10 m ρ c)
theorem k_v29_W12 : W12 m ρ c (Proc.devRef .tc main_v29) = val_main_v29 (F := Ideal) (a1 m c) :=
  (W12_of_ne m ρ c main_v29 (by decide)).trans <| (keep4 m ρ c main_v29 (by decide)).trans (k_v29_W10 m ρ c)

/-- The third aggregation over the edges is the reference's. -/
theorem k_v119 (hp : Cert.Gnn.RealParams (L := 3) (d := 128) (a4 m c) (a5 m c) (a6 m c) (a7 m c) (a8 m c)) :
    W13 m ρ c (Proc.devRef .tc main_v119) = val_main_v135 (F := Ideal) (a0 m c) (a1 m c) (a3 m c) (a4 m c) (a5 m c) (a6 m c) (a7 m c) (a8 m c) :=
  L2.g13_v119 m ρ c (a0 m c) (a1 m c) (a3 m c) (a4 m c) (a5 m c) (a6 m c) (a7 m c) (a8 m c) (k_v106 m ρ c hp) (k_v3_W12 m ρ c) (k_v6_W12 m ρ c) (k_v29_W12 m ρ c)

/-- The third layer's scale, column by column: γ · rsqrt(v + ε) of row 2 of the tables. -/
theorem k_v138 : W13 m ρ c (Proc.devRef .tc main_v138)
    = Cert.Gnn.foldScale (L := 3) (d := 128) 2 (a5 m c) (a8 m c) := by
  show StableHlo.after hostOps5 (W12 m ρ c) (Proc.devRef .tc main_v138) = _
  after_results_simp
  rw [k_arg5_W12 m ρ c, k_arg8_W12 m ρ c]
  funext j
  obtain ⟨z, q, rfl⟩ : ∃ (z : Fin 1) (q : Fin 128), j = ix2 z q := ⟨j 0, j 1, eq_ix2 j⟩
  refine (shapeCast_a_1a_apply _ shapeCasts_S128_S1x128 z q).trans ?_
  show shapeCast S128 (extractStridedSlice S1x128 ![2, 0] (a5 m c) slices_S3x128_S1x128_2_0) shapeCasts_S1x128_S128 (ix1 q)
      * Ideal.rsqrt (shapeCast S128 (extractStridedSlice S1x128 ![2, 0] (a8 m c) slices_S3x128_S1x128_2_0) shapeCasts_S1x128_S128 (ix1 q)
        + Ideal.ofBits .f32 0x3727C5AC#32) = _
  rw [L2.row2, L2.row2]
  rfl

/-- The third layer's shift, column by column: b · s + (β − μ · s) of row 2 of the tables. -/
theorem k_v139 : W13 m ρ c (Proc.devRef .tc main_v139)
    = Cert.Gnn.foldShift (L := 3) (d := 128) 2 (a4 m c) (a5 m c) (a6 m c) (a7 m c) (a8 m c) := by
  show StableHlo.after hostOps5 (W12 m ρ c) (Proc.devRef .tc main_v139) = _
  after_results_simp
  rw [k_arg4_W12 m ρ c, k_arg5_W12 m ρ c, k_arg6_W12 m ρ c, k_arg7_W12 m ρ c, k_arg8_W12 m ρ c]
  funext j
  obtain ⟨z, q, rfl⟩ : ∃ (z : Fin 1) (q : Fin 128), j = ix2 z q := ⟨j 0, j 1, eq_ix2 j⟩
  refine (shapeCast_a_1a_apply _ shapeCasts_S128_S1x128 z q).trans ?_
  show shapeCast S128 (extractStridedSlice S1x128 ![2, 0] (a4 m c) slices_S3x128_S1x128_2_0) shapeCasts_S1x128_S128 (ix1 q)
        * (shapeCast S128 (extractStridedSlice S1x128 ![2, 0] (a5 m c) slices_S3x128_S1x128_2_0) shapeCasts_S1x128_S128 (ix1 q)
          * Ideal.rsqrt (shapeCast S128 (extractStridedSlice S1x128 ![2, 0] (a8 m c) slices_S3x128_S1x128_2_0) shapeCasts_S1x128_S128 (ix1 q)
            + Ideal.ofBits .f32 0x3727C5AC#32))
      + (shapeCast S128 (extractStridedSlice S1x128 ![2, 0] (a6 m c) slices_S3x128_S1x128_2_0) shapeCasts_S1x128_S128 (ix1 q)
        - shapeCast S128 (extractStridedSlice S1x128 ![2, 0] (a7 m c) slices_S3x128_S1x128_2_0) shapeCasts_S1x128_S128 (ix1 q)
          * (shapeCast S128 (extractStridedSlice S1x128 ![2, 0] (a5 m c) slices_S3x128_S1x128_2_0) shapeCasts_S1x128_S128 (ix1 q)
            * Ideal.rsqrt (shapeCast S128 (extractStridedSlice S1x128 ![2, 0] (a8 m c) slices_S3x128_S1x128_2_0) shapeCasts_S1x128_S128 (ix1 q)
              + Ideal.ofBits .f32 0x3727C5AC#32))) = _
  rw [L2.row2, L2.row2, L2.row2, L2.row2, L2.row2]
  rfl

/-- After the third layer's activation the node features are the reference's. -/
theorem k_v140 (hp : Cert.Gnn.RealParams (L := 3) (d := 128) (a4 m c) (a5 m c) (a6 m c) (a7 m c) (a8 m c)) :
    W14 m ρ c (Proc.devRef .tc main_v140) = val_main_v164 (F := Ideal) (a0 m c) (a1 m c) (a3 m c) (a4 m c) (a5 m c) (a6 m c) (a7 m c) (a8 m c) :=
  (W14_arr m ρ c 3).trans <| (Cert.KernelIdeal.Aff5.aff (V13 m ρ) c).trans <|
  (congr (congrArg₂ (Cert.Gnn.scaleShiftRelu (n := 100000) (d := 128)) (k_v119 m ρ c hp) (k_v138 m ρ c)) (k_v139 m ρ c)).trans
    (Cert.ReferenceIdeal.Stages.aff164 (a0 m c) (a1 m c) (a3 m c) (a4 m c) (a5 m c) (a6 m c) (a7 m c) (a8 m c) hp).symm

end Cert.KernelIdeal.Chain

end
-- ==== Proof.Pool6.lean ====
/-
  The per-graph pooling: the result array is the segment sums of the rows.

  The region walks the 100000 rows in 20 tiles of 5000. At each tile it builds the [5000, 512] matrix whose entry
  (r, g) is 1 when row r's segment number equals g and 0 otherwise, contracts it with the tile's [5000, 128] rows
  over the row axis, and adds the [512, 128] product to one accumulator block that is zeroed at the first tile and
  written back after the last. Over the extended reals the product's entry (g, q) is the sum of column q over the
  tile's rows of segment g (1 · x = x, 0 · x = 0), so after tile n the accumulator holds the contributions of tiles
  0 … n (induction on the tile), and after tile 19 the sum over all rows e = 5000 s + r of segment g: the segment sum.
  A segment number equals the 32-bit word of g < 512 exactly when its signed reading is g.
-/
import proofs.«415775_j12214886990280_1_alg».proof.Proof.Gen.KernelIdeal.Frame
import proofs.«415775_j12214886990280_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Pool6

open Idealize.ShloMosaic Idealize.ShloMosaic.TcCoe Idealize.SL.Sem Idealize.ShloMosaic.ValueIdx
open Cert.KernelIdeal Cert.KernelIdeal.Gen

/-! ## What each case leaves in the accumulator block: the payload of the blocks -/

section Pieces
variable {F : FTy → Type} [FloatOps F]

theorem hz : (![0, 0] : Fin 2 → Nat) = fun _ => 0 := funext fun a => by fin_cases a <;> rfl

/-- A later tile: the one store covers the block, and its loads read the three buffers whole, so the block ends at
    the accumulator plus the tile's product. -/
theorem out_B (c : Dev nD) (i : grid6.Coords) (a1 : Memref sig .tc .vmem S5000x128 .f32) (h1 : a1.IsWhole)
    (a2 : Memref sig .tc .vmem S5000x1 .i32) (h2 : a2.IsWhole) (a3 : Memref sig .tc .vmem S512x128 .f32) (h3 : a3.IsWhole)
    (hc : ¬cond6_0 i) (x0 : Vec F S5000x128 .f32) (x1 : Vec F S5000x1 .i32) (xo : Vec F S512x128 .f32) :
    out6_B_2 c i a1 h1 a2 h2 a3 h3 hc x0 x1 xo = k6_pay2 x1 x0 xo := by
  unfold out6_B_2
  rw [View.read_writes_eq_canon _ _ _ (cover6_B_2 c i a1 h1 a2 h2 a3 h3 hc x0 x1 xo)]
  unfold kernelRun6_B
  dsimp only
  sl_unfold_words
  rw [View.canon_unit_zero hz]
  simp only [View.readAt_eq_ld, h1.read_unread, h2.read_unread, h3.read_unread, View.ld_unit_zero (S := S5000x128) hz,
    View.ld_unit_zero (S := S5000x1) hz, View.ld_unit_zero (S := S512x128) hz]

/-- The first tile: the block is set to zero, read back, and ends at zero plus the tile's product (the later of the
    two stores covers the block; the read-back of the first store is the zero block). -/
theorem out_A (c : Dev nD) (i : grid6.Coords) (a1 : Memref sig .tc .vmem S5000x128 .f32) (h1 : a1.IsWhole)
    (a2 : Memref sig .tc .vmem S5000x1 .i32) (h2 : a2.IsWhole) (a3 : Memref sig .tc .vmem S512x128 .f32) (h3 : a3.IsWhole)
    (hc : cond6_0 i) (x0 : Vec F S5000x128 .f32) (x1 : Vec F S5000x1 .i32) :
    out6_A_2 c i a1 h1 a2 h2 a3 h3 hc x0 x1 = k6_pay2 x1 x0 (k6_pay1 (F := F)) := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S512x128) hz, View.readCov_unit_zero (S := S512x128) _ hz]
  simp only [View.readAt_eq_ld, h1.read_unread, h2.read_unread, View.ld_unit_zero (S := S5000x128) hz,
    View.ld_unit_zero (S := S5000x1) hz]

end Pieces

/-! ## The one-hot factor -/

/-- Below 2^31 the word of a natural reads back, signed, as that natural. -/
theorem toInt_ofNat_small (g : Fin 512) : (BitVec.ofNat 32 g.val).toInt = (g.val : Int) := by
  have := g.isLt
  rw [BitVec.toInt_eq_toNat_cond, BitVec.toNat_ofNat]
  split <;> omega

/-- So a word is the word of g < 512 exactly when its signed reading is g. -/
theorem eq_ofNat_iff (x : BitVec 32) (g : Fin 512) : x = BitVec.ofNat 32 g.val ↔ x.toInt = (g.val : Int) := by
  rw [← toInt_ofNat_small g]; exact BitVec.toInt_inj.symm

/-- The comparison bit, widened and converted, is 1 when the word's signed reading is g and 0 otherwise. -/
theorem onehot (x : BitVec 32) (g : Fin 512) :
    (FloatOps.sitofp (F := Ideal) .f32 ((IntOp.cmpi .eq x (BitVec.ofNat 32 g.val)).setWidth 32) : EReal)
      = if x.toInt = (g.val : Int) then 1 else 0 := by
  show ((((IntOp.cmpi .eq x (BitVec.ofNat 32 g.val)).setWidth 32).toInt : ℝ) : EReal) = _
  by_cases h : x = BitVec.ofNat 32 g.val
  · rw [if_pos ((eq_ofNat_iff x g).mp h)]
    have e : IntOp.cmpi .eq x (BitVec.ofNat 32 g.val) = 1#1 := by
      show BitVec.ofBool (x == BitVec.ofNat 32 g.val) = 1#1
      rw [beq_iff_eq.mpr h]; rfl
    rw [e]
    have e1 : ((1#1 : BitVec 1).setWidth 32).toInt = 1 := by decide
    rw [e1]; norm_num
  · rw [if_neg (fun e => h ((eq_ofNat_iff x g).mpr e))]
    have e : IntOp.cmpi .eq x (BitVec.ofNat 32 g.val) = 0#1 := by
      show BitVec.ofBool (x == BitVec.ofNat 32 g.val) = 0#1
      rw [beq_eq_false_iff_ne.mpr h]; rfl
    rw [e]
    have e0 : ((0#1 : BitVec 1).setWidth 32).toInt = 0 := by decide
    rw [e0]; norm_num

/-! ## The tile's product at an index -/

/-! The contraction runs over axis 0 of both operands: at result index (g, q) and row r the left operand is read at
    (r, g) and the right one at (r, q). -/

theorem lhs_D6_0 (j : S512x128.Idx) (k : dot_S5000x512_S5000x128_S512x128_0_0_1_1_n_n.contr.Idx) :
    (dot_S5000x512_S5000x128_S512x128_0_0_1_1_n_n.lhsIdx j k 0).val = (k ⟨0, by decide⟩).val :=
  dot_S5000x512_S5000x128_S512x128_0_0_1_1_n_n.lhsIdx_val_of_single rfl j k
theorem lhs_D6_1 (j : S512x128.Idx) (k : dot_S5000x512_S5000x128_S512x128_0_0_1_1_n_n.contr.Idx) :
    (dot_S5000x512_S5000x128_S512x128_0_0_1_1_n_n.lhsIdx j k 1).val = (j 0).val := by
  unfold DotDims.lhsIdx
  rw [dif_neg (show ¬(1 : Fin S5000x512.rank) ∈ dot_S5000x512_S5000x128_S512x128_0_0_1_1_n_n.lhsBatch by decide), dif_pos (show (1 : Fin S5000x512.rank) ∈ dot_S5000x512_S5000x128_S512x128_0_0_1_1_n_n.lhsNonContracting by decide)]
  rfl
theorem rhs_D6_0 (j : S512x128.Idx) (k : dot_S5000x512_S5000x128_S512x128_0_0_1_1_n_n.contr.Idx) :
    (dot_S5000x512_S5000x128_S512x128_0_0_1_1_n_n.rhsIdx j k 0).val = (k ⟨0, by decide⟩).val :=
  dot_S5000x512_S5000x128_S512x128_0_0_1_1_n_n.rhsIdx_val_of_single rfl j k
theorem rhs_D6_1 (j : S512x128.Idx) (k : dot_S5000x512_S5000x128_S512x128_0_0_1_1_n_n.contr.Idx) :
    (dot_S5000x512_S5000x128_S512x128_0_0_1_1_n_n.rhsIdx j k 1).val = (j 1).val := by
  unfold DotDims.rhsIdx
  rw [dif_neg (show ¬(1 : Fin S5000x128.rank) ∈ dot_S5000x512_S5000x128_S512x128_0_0_1_1_n_n.rhsBatch by decide), dif_pos (show (1 : Fin S5000x128.rank) ∈ dot_S5000x512_S5000x128_S512x128_0_0_1_1_n_n.rhsNonContracting by decide)]
  rfl

/-- The one-hot operand at (row r of the tile, column g): 1 when row r's segment number is g, else 0. -/
theorem onehot_apply (s : Vec Ideal S5000x1 .i32) (r : Fin 5000) (g : Fin 512) :
    (truncf .bf16 (sitofp (F := Ideal) .f32 (extui 32 (cmpi .eq (broadcastTo S5000x512 s broadcasts_S5000x1_S5000x512)
      (iota .tc S5000x512 32 [1] iota_S5000x512_d1_w32)) natLt_1_32)) bitsLt_bf16_f32 : FVec Ideal S5000x512 .bf16) (ix2 r g)
      = if (s (ix2 r (0 : Fin 1))).toInt = (g.val : Int) then 1 else 0 := by
  refine Eq.trans ?_ (onehot (s (ix2 r (0 : Fin 1))) g)
  show FloatOps.sitofp (F := Ideal) .f32 ((IntOp.cmpi .eq (broadcastTo S5000x512 s broadcasts_S5000x1_S5000x512 (ix2 r g))
      (iota .tc S5000x512 32 [1] iota_S5000x512_d1_w32 (ix2 r g))).setWidth 32) = _
  rw [broadcastTo_apply s broadcasts_S5000x1_S5000x512 (ix2 r g) (ix2 r (0 : Fin 1)) (fun a => by
      match a with
      | ⟨0, _⟩ => rfl
      | ⟨1, _⟩ => rfl),
    iota_single_apply .tc S5000x512 32 1 iota_S5000x512_d1_w32 (ix2 r g)]

/-- The tile's payload at (g, q): the accumulator plus the tile's rows of segment g, column q. -/
theorem pay2_apply (s : Vec Ideal S5000x1 .i32) (h : Vec Ideal S5000x128 .f32) (acc : Vec Ideal S512x128 .f32)
    (g : Fin 512) (q : Fin 128) :
    k6_pay2 (F := Ideal) s h acc (ix2 g q)
      = acc (ix2 g q) + ∑ r : Fin 5000, if (s (ix2 r (0 : Fin 1))).toInt = (g.val : Int) then h (ix2 r q) else 0 := by
  unfold k6_pay2
  dsimp only
  simp only [shapeCast_self]
  refine (addf_apply _ _ (ix2 g q)).trans ?_
  refine congrArg (acc (ix2 g q) + ·) ?_
  refine (Ideal.matmul_constant_zero_apply dot_S5000x512_S5000x128_S512x128_0_0_1_1_n_n none _ _ (ix2 g q)).trans ?_
  rw [← Equiv.sum_comp (contrEquiv1 dot_S5000x512_S5000x128_S512x128_0_0_1_1_n_n 5000 rfl rfl).symm]
  refine Finset.sum_congr rfl fun r _ => ?_
  have hk := contrEquiv1_symm_val dot_S5000x512_S5000x128_S512x128_0_0_1_1_n_n 5000 rfl rfl r
  have el : dot_S5000x512_S5000x128_S512x128_0_0_1_1_n_n.lhsIdx (ix2 g q) ((contrEquiv1 dot_S5000x512_S5000x128_S512x128_0_0_1_1_n_n 5000 rfl rfl).symm r) = ix2 r g := funext fun a => Fin.ext (by
    match a with
    | ⟨0, _⟩ => exact (lhs_D6_0 _ _).trans hk
    | ⟨1, _⟩ => exact lhs_D6_1 _ _)
  have er : dot_S5000x512_S5000x128_S512x128_0_0_1_1_n_n.rhsIdx (ix2 g q) ((contrEquiv1 dot_S5000x512_S5000x128_S512x128_0_0_1_1_n_n 5000 rfl rfl).symm r) = ix2 r q := funext fun a => Fin.ext (by
    match a with
    | ⟨0, _⟩ => exact (rhs_D6_0 _ _).trans hk
    | ⟨1, _⟩ => exact rhs_D6_1 _ _)
  rw [el, er, onehot_apply s r g]
  show (if _ then (1 : EReal) else 0) * h (ix2 r q) = _
  split
  · exact one_mul _
  · exact zero_mul _

/-! ## The tiles read off the arrays, and the running sum -/

variable (V : (c : Dev nD) → (b : Ref sig .tc) → Buf (Elt Ideal) ((c : Thread nD τ).loc b))

/-- The rows and their segment numbers, whole and tile by tile. -/
abbrev harr (c : Dev nD) : Vec Ideal S100000x128 .f32 := V c main_v140
abbrev sarr (c : Dev nD) : Vec Ideal S100000x1 .i32 := V c main_v141
abbrev hblk (c : Dev nD) (t : Fin cfg6.N) : Vec Ideal S5000x128 .f32 := iblk6 V c 0 t
abbrev sblk (c : Dev nD) (t : Fin cfg6.N) : Vec Ideal S5000x1 .i32 := iblk6 V c 1 t

/-- Row r of tile t is row 5000 t + r. -/
def row (t : Fin cfg6.N) (r : Fin 5000) : Fin 100000 :=
  ⟨5000 * t.val + r.val, by have := t.isLt; have hN : cfg6.N = 20 := N_6; have := r.isLt; omega⟩

theorem idx6_0 : ∀ t : Fin cfg6.N, win6_0.index t 0 = t.val ∧ win6_0.index t 1 = 0 :=
  (by decide +kernel : ∀ t : Fin grid6.N, win6_0.index t 0 = t.val ∧ win6_0.index t 1 = 0)
theorem idx6_1 : ∀ t : Fin cfg6.N, win6_1.index t 0 = t.val ∧ win6_1.index t 1 = 0 :=
  (by decide +kernel : ∀ t : Fin grid6.N, win6_1.index t 0 = t.val ∧ win6_1.index t 1 = 0)

theorem hblk_apply (c : Dev nD) (t : Fin cfg6.N) (r : Fin 5000) (q : Fin 128) :
    hblk V c t (ix2 r q) = harr V c (ix2 (row t r) q) := by
  have hi := idx6_0 t
  unfold hblk iblk6
  rw [View.read_apply]
  refine congrArg (V c main_v140) (funext fun a => Fin.ext ?_)
  match a with
  | ⟨0, _⟩ => show win6_0.index t 0 * 5000 + 1 * r.val = 5000 * t.val + r.val; rw [hi.1]; omega
  | ⟨1, _⟩ => show win6_0.index t 1 * 128 + 1 * q.val = q.val; rw [hi.2]; omega

theorem sblk_apply (c : Dev nD) (t : Fin cfg6.N) (r : Fin 5000) :
    sblk V c t (ix2 r (0 : Fin 1)) = sarr V c (ix2 (row t r) (0 : Fin 1)) := by
  have hi := idx6_1 t
  unfold sblk iblk6
  rw [View.read_apply]
  refine congrArg (V c main_v141) (funext fun a => Fin.ext ?_)
  match a with
  | ⟨0, _⟩ => show win6_1.index t 0 * 5000 + 1 * r.val = 5000 * t.val + r.val; rw [hi.1]; omega
  | ⟨1, _⟩ => show win6_1.index t 1 * 1 + 1 * 0 = 0; rw [hi.2]

/-- Tile t's contribution to (g, q): its rows of segment g, column q. -/
def tileSum (c : Dev nD) (t : Fin cfg6.N) (g : Fin 512) (q : Fin 128) : EReal :=
  ∑ r : Fin 5000, if (sarr V c (ix2 (row t r) (0 : Fin 1))).toInt = (g.val : Int) then harr V c (ix2 (row t r) q) else 0

/-- The same for every natural, zero past the grid. -/
def tileSumN (c : Dev nD) (n : ℕ) (g : Fin 512) (q : Fin 128) : EReal :=
  if h : n < cfg6.N then tileSum V c ⟨n, h⟩ g q else 0

theorem tile_eq (c : Dev nD) (t : Fin cfg6.N) (g : Fin 512) (q : Fin 128) :
    (∑ r : Fin 5000, if (sblk V c t (ix2 r (0 : Fin 1))).toInt = (g.val : Int) then hblk V c t (ix2 r q) else 0)
      = tileSum V c t g q :=
  Finset.sum_congr rfl fun r _ => by rw [sblk_apply, hblk_apply]

/-- At the first point the accumulator is zeroed, so it leaves the first tile's contribution. -/
theorem step_A (c : Dev nD) (t : Fin cfg6.N) (h0 : t.val % 20 = 0) (g : Fin 512) (q : Fin 128) :
    (outsAt6 V c t.val t.isLt : Vec Ideal S512x128 .f32) (ix2 g q) = tileSum V c t g q := by
  rw [outsAt6_A V c t h0]
  refine (congrFun (out_A (F := Ideal) c (grid6.coords t) (ms6_0 t) (hs6_0 t) (ms6_1 t) (hs6_1 t) (ms6_2 t) (hs6_2 t)
    ((hcond6_0 t).mpr h0) (iblk6 V c 0 t) (iblk6 V c 1 t)) (ix2 g q)).trans ?_
  refine (pay2_apply (sblk V c t) (hblk V c t) (k6_pay1 (F := Ideal)) g q).trans ?_
  rw [tile_eq]
  show Ideal.ofBits .f32 0x00000000#32 + _ = _
  rw [Ideal.ofBits_zero_f32, zero_add]

/-- At every later point the tile's contribution is added to what the point before left. -/
theorem step_B (c : Dev nD) (t : Fin cfg6.N) (h0 : ¬t.val % 20 = 0) (g : Fin 512) (q : Fin 128) :
    (outsAt6 V c t.val t.isLt : Vec Ideal S512x128 .f32) (ix2 g q)
      = (outsAt6 V c (t.val - 1) (Nat.lt_of_le_of_lt (Nat.sub_le _ _) t.isLt) : Vec Ideal S512x128 .f32) (ix2 g q)
        + tileSum V c t g q := by
  rw [outsAt6_B V c t h0]
  refine (congrFun (out_B (F := Ideal) c (grid6.coords t) (ms6_0 t) (hs6_0 t) (ms6_1 t) (hs6_1 t) (ms6_2 t) (hs6_2 t)
    (fun h => h0 ((hcond6_0 t).mp h)) (iblk6 V c 0 t) (iblk6 V c 1 t)
    (outsAt6 V c (t.val - 1) (Nat.lt_of_le_of_lt (Nat.sub_le _ _) t.isLt))) (ix2 g q)).trans ?_
  refine (pay2_apply (sblk V c t) (hblk V c t) (outsAt6 V c (t.val - 1) (Nat.lt_of_le_of_lt (Nat.sub_le _ _) t.isLt)) g q).trans ?_
  rw [tile_eq]

/-- After point n the accumulator holds the contributions of tiles 0 … n. -/
theorem outsAt_eq (c : Dev nD) : ∀ (n : ℕ) (hn : n < cfg6.N) (g : Fin 512) (q : Fin 128),
    (outsAt6 V c n hn : Vec Ideal S512x128 .f32) (ix2 g q) = ∑ s ∈ Finset.range (n + 1), tileSumN V c s g q
  | 0, hn, g, q => by
    rw [Finset.sum_range_one]
    refine (step_A V c ⟨0, hn⟩ rfl g q).trans ?_
    unfold tileSumN; rw [dif_pos hn]
  | n + 1, hn, g, q => by
    have hN : cfg6.N = 20 := N_6
    have hB : ¬(⟨n + 1, hn⟩ : Fin cfg6.N).val % 20 = 0 := by dsimp only; omega
    rw [Finset.sum_range_succ, ← outsAt_eq c n (Nat.lt_of_succ_lt hn) g q]
    refine (step_B V c ⟨n + 1, hn⟩ hB g q).trans ?_
    unfold tileSumN; rw [dif_pos hn]
    rfl

/-! ## The last point's contents are the segment sums, and they are what is written back -/

theorem h19 : 19 < cfg6.N := by rw [show cfg6.N = 20 from N_6]; decide
abbrev t19 : Fin cfg6.N := ⟨19, h19⟩

/-- The 100000 rows are the 20 tiles of 5000 rows. -/
theorem sum_rows {M : Type*} [AddCommMonoid M] (f : Fin 100000 → M) :
    ∑ e : Fin 100000, f e
      = ∑ s : Fin 20, ∑ r : Fin 5000, f ⟨5000 * s.val + r.val, by have := s.isLt; have := r.isLt; omega⟩ := by
  rw [← Fintype.sum_prod_type (f := fun p : Fin 20 × Fin 5000 =>
    f ⟨5000 * p.1.val + p.2.val, by have := p.1.isLt; have := p.2.isLt; omega⟩)]
  refine (Fintype.sum_equiv (finProdFinEquiv (m := 20) (n := 5000)) _ f fun p => congrArg f (Fin.ext ?_)).symm
  show 5000 * p.1.val + p.2.val = p.2.val + 5000 * p.1.val
  omega

theorem last_eq (c : Dev nD) :
    (outsAt6 V c 19 h19 : Vec Ideal S512x128 .f32)
      = Cert.Gnn.segSums (n := 100000) (d := 128) (g := 512) (harr V c) (sarr V c) := by
  funext i
  obtain ⟨g, q, rfl⟩ : ∃ (g : Fin 512) (q : Fin 128), i = ix2 g q := ⟨i 0, i 1, eq_ix2 i⟩
  rw [outsAt_eq V c 19 h19 g q]
  unfold Cert.Gnn.segSums
  show _ = ∑ e ∈ Finset.univ.filter (fun e : Fin 100000 => (sarr V c (ix2 e (0 : Fin 1))).toInt = (g.val : Int)),
    harr V c (ix2 e q)
  rw [Finset.sum_filter, sum_rows, Finset.sum_range]
  refine Finset.sum_congr rfl fun s _ => ?_
  unfold tileSumN
  rw [dif_pos (show s.val < cfg6.N from lt_of_lt_of_eq s.isLt (show 19 + 1 = cfg6.N from N_6.symm))]
  rfl

/-- The one write-back, after the last point: the block is the whole array. -/
theorem flushed_eq (c : Dev nD) (t : Fin cfg6.N) (hf : (cfg6.win 2).flush t = true) :
    (dat6 (F := Ideal) V c).flushed 2 t = ((cfg6.win 2).blk t).view.read (Elt Ideal) (outsAt6 V c 19 h19) := by
  have hN : cfg6.N = 20 := N_6
  have h : t.val = 19 := by have := (flush6_2 t).mp hf; have := t.isLt; omega
  obtain rfl : t = t19 := Fin.ext h
  show (cfg6.win 2).cut (grid6.coords t19) ((dat6 (F := Ideal) V c).after 2 t19) = _
  rw [after6_2]
  have hz' : (fun a => win6_2.index t19 a * main_v142.ty.shape.size a) = fun _ => 0 :=
    funext fun a => by fin_cases a <;> decide
  exact (Memref.read_access_unit_zero (Elt Ideal) main_v142 hz' (fun a => by rw [congrFun hz' a]; simp) (outsAt6 V c 19 h19)).symm

theorem covered (c : Dev nD) (i : ((cfg6.win 2).arr.view.loc (c.tc : Thread nD τ)).2.ty.Idx) :
    ∃ t : Fin cfg6.N, (cfg6.win 2).flush t = true ∧ i ∈ ((cfg6.win 2).blk t).view.set :=
  ⟨t19, (flush6_2 t19).mpr rfl, by
    show i ∈ ((View.whole main_v142).slice (win6_2.rect t19)).set
    rw [View.set_slice_whole, Rect.mem_set_unit]
    intro a
    have h0 : (i 0 : Nat) < 512 := (i 0).isLt
    have h1 : (i 1 : Nat) < 128 := (i 1).isLt
    match a with
    | ⟨0, _⟩ =>
      show win6_2.index t19 0 * win6_2.size 0 ≤ (i 0 : Nat)
        ∧ (i 0 : Nat) < win6_2.index t19 0 * win6_2.size 0 + win6_2.xsize (grid6.coords t19) 0
      rw [show win6_2.index t19 0 * win6_2.size 0 = 0 from by decide +kernel,
        show win6_2.xsize (grid6.coords t19) 0 = 512 from by decide +kernel]; omega
    | ⟨1, _⟩ =>
      show win6_2.index t19 1 * win6_2.size 1 ≤ (i 1 : Nat)
        ∧ (i 1 : Nat) < win6_2.index t19 1 * win6_2.size 1 + win6_2.xsize (grid6.coords t19) 1
      rw [show win6_2.index t19 1 * win6_2.size 1 = 0 from by decide +kernel,
        show win6_2.xsize (grid6.coords t19) 1 = 128 from by decide +kernel]; omega⟩

/-- After the last tile the accumulator holds, in row g, the sum of the rows whose segment number is g. -/
theorem pool (c : Dev nD) :
    (dat6 (F := Ideal) V c).arrAt 2 cfg6.N
      = Cert.Gnn.segSums (n := 100000) (d := 128) (g := 512) (V c main_v140) (V c main_v141) :=
  ((dat6 (F := Ideal) V c).arrAt_eq_of_cover 2 (outsAt6 V c 19 h19) (flushed_eq V c) (covered c)).trans (last_eq V c)

end Cert.KernelIdeal.Pool6

end
-- ==== Proof.Heads7.lean ====
/-
  The two small heads on the pooled features, read off the last region's one grid point.

  The region has a single point, at which every window's block is its whole array: each block index is zero on
  every axis, so an element of a block sits in its array at its own coordinates, and the one point's block of each
  output covers the output's array. What the point stores is then read element by element:

  * a product into the zero splat, at row p and column q, is the sum over the contraction coordinate k of the left
    operand at (p, k) times the right operand at (k, q) (the dot's operand indices, axis by axis);
  * the changes of format and the cast of a shape to itself are the identity on the extended reals;
  * a bias cast to one row and laid along every row reads its entry at the column;
  * the floor is the maximum with the zero word's value, which is zero.

  So the class head's array ends holding `Cert.Gnn.clsHead` and the domain head's `Cert.Gnn.domHead` of the arrays
  the region finds.
-/
import proofs.«415775_j12214886990280_1_alg».proof.Proof.Gen.KernelIdeal.Frame
import proofs.«415775_j12214886990280_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Heads7

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## The three products at an index

Each product contracts the left operand's columns against the right operand's rows, with no batch axis: at output
index (p, q) and contraction coordinate k the operands are read at (p, k) and (k, q). -/

theorem lhs_cls_0 (i : S500x10.Idx) (q : dot_S500x128_S128x10_S500x10_1_0_0_1_n_n.contr.Idx) :
    (dot_S500x128_S128x10_S500x10_1_0_0_1_n_n.lhsIdx i q 0).val = (i 0).val := by
  unfold DotDims.lhsIdx
  rw [dif_neg (show ¬(0 : Fin S500x128.rank) ∈ dot_S500x128_S128x10_S500x10_1_0_0_1_n_n.lhsBatch by decide), dif_pos (show (0 : Fin S500x128.rank) ∈ dot_S500x128_S128x10_S500x10_1_0_0_1_n_n.lhsNonContracting by decide)]
  rfl
theorem lhs_cls_1 (i : S500x10.Idx) (q : dot_S500x128_S128x10_S500x10_1_0_0_1_n_n.contr.Idx) :
    (dot_S500x128_S128x10_S500x10_1_0_0_1_n_n.lhsIdx i q 1).val = (q ⟨0, by decide⟩).val :=
  dot_S500x128_S128x10_S500x10_1_0_0_1_n_n.lhsIdx_val_of_single rfl i q
theorem rhs_cls_0 (i : S500x10.Idx) (q : dot_S500x128_S128x10_S500x10_1_0_0_1_n_n.contr.Idx) :
    (dot_S500x128_S128x10_S500x10_1_0_0_1_n_n.rhsIdx i q 0).val = (q ⟨0, by decide⟩).val :=
  dot_S500x128_S128x10_S500x10_1_0_0_1_n_n.rhsIdx_val_of_single rfl i q
theorem rhs_cls_1 (i : S500x10.Idx) (q : dot_S500x128_S128x10_S500x10_1_0_0_1_n_n.contr.Idx) :
    (dot_S500x128_S128x10_S500x10_1_0_0_1_n_n.rhsIdx i q 1).val = (i 1).val := by
  unfold DotDims.rhsIdx
  rw [dif_neg (show ¬(1 : Fin S128x10.rank) ∈ dot_S500x128_S128x10_S500x10_1_0_0_1_n_n.rhsBatch by decide), dif_pos (show (1 : Fin S128x10.rank) ∈ dot_S500x128_S128x10_S500x10_1_0_0_1_n_n.rhsNonContracting by decide)]
  rfl

/-- The class head's product into the zero splat, read at row p and column q. -/
theorem matmul_cls (a : FVec Ideal S500x128 .bf16) (b : FVec Ideal S128x10 .bf16) (p : Fin 500) (q : Fin 10) :
    matmul dot_S500x128_S128x10_S500x10_1_0_0_1_n_n none a b (constant S500x10 .f32 0x00000000#32) (ix2 p q)
      = ∑ k : Fin 128, a (ix2 p k) * b (ix2 k q) := by
  simp only [matmul]
  rw [Ideal.matmul_constant_zero_apply, ← Equiv.sum_comp (contrEquiv1 dot_S500x128_S128x10_S500x10_1_0_0_1_n_n 128 rfl rfl).symm]
  refine Finset.sum_congr rfl fun k _ => ?_
  have hk := contrEquiv1_symm_val dot_S500x128_S128x10_S500x10_1_0_0_1_n_n 128 rfl rfl k
  have el : dot_S500x128_S128x10_S500x10_1_0_0_1_n_n.lhsIdx (ix2 p q) ((contrEquiv1 dot_S500x128_S128x10_S500x10_1_0_0_1_n_n 128 rfl rfl).symm k) = ix2 p k := funext fun a => Fin.ext (by
    match a with
    | ⟨0, _⟩ => exact lhs_cls_0 _ _
    | ⟨1, _⟩ => exact (lhs_cls_1 _ _).trans hk)
  have er : dot_S500x128_S128x10_S500x10_1_0_0_1_n_n.rhsIdx (ix2 p q) ((contrEquiv1 dot_S500x128_S128x10_S500x10_1_0_0_1_n_n 128 rfl rfl).symm k) = ix2 k q := funext fun a => Fin.ext (by
    match a with
    | ⟨0, _⟩ => exact (rhs_cls_0 _ _).trans hk
    | ⟨1, _⟩ => exact rhs_cls_1 _ _)
  rw [el, er]

theorem lhs_hid_0 (i : S500x64.Idx) (q : dot_S500x128_S128x64_S500x64_1_0_0_1_n_n.contr.Idx) :
    (dot_S500x128_S128x64_S500x64_1_0_0_1_n_n.lhsIdx i q 0).val = (i 0).val := by
  unfold DotDims.lhsIdx
  rw [dif_neg (show ¬(0 : Fin S500x128.rank) ∈ dot_S500x128_S128x64_S500x64_1_0_0_1_n_n.lhsBatch by decide), dif_pos (show (0 : Fin S500x128.rank) ∈ dot_S500x128_S128x64_S500x64_1_0_0_1_n_n.lhsNonContracting by decide)]
  rfl
theorem lhs_hid_1 (i : S500x64.Idx) (q : dot_S500x128_S128x64_S500x64_1_0_0_1_n_n.contr.Idx) :
    (dot_S500x128_S128x64_S500x64_1_0_0_1_n_n.lhsIdx i q 1).val = (q ⟨0, by decide⟩).val :=
  dot_S500x128_S128x64_S500x64_1_0_0_1_n_n.lhsIdx_val_of_single rfl i q
theorem rhs_hid_0 (i : S500x64.Idx) (q : dot_S500x128_S128x64_S500x64_1_0_0_1_n_n.contr.Idx) :
    (dot_S500x128_S128x64_S500x64_1_0_0_1_n_n.rhsIdx i q 0).val = (q ⟨0, by decide⟩).val :=
  dot_S500x128_S128x64_S500x64_1_0_0_1_n_n.rhsIdx_val_of_single rfl i q
theorem rhs_hid_1 (i : S500x64.Idx) (q : dot_S500x128_S128x64_S500x64_1_0_0_1_n_n.contr.Idx) :
    (dot_S500x128_S128x64_S500x64_1_0_0_1_n_n.rhsIdx i q 1).val = (i 1).val := by
  unfold DotDims.rhsIdx
  rw [dif_neg (show ¬(1 : Fin S128x64.rank) ∈ dot_S500x128_S128x64_S500x64_1_0_0_1_n_n.rhsBatch by decide), dif_pos (show (1 : Fin S128x64.rank) ∈ dot_S500x128_S128x64_S500x64_1_0_0_1_n_n.rhsNonContracting by decide)]
  rfl

/-- The domain head's first product into the zero splat, read at row p and column q. -/
theorem matmul_hid (a : FVec Ideal S500x128 .bf16) (b : FVec Ideal S128x64 .bf16) (p : Fin 500) (q : Fin 64) :
    matmul dot_S500x128_S128x64_S500x64_1_0_0_1_n_n none a b (constant S500x64 .f32 0x00000000#32) (ix2 p q)
      = ∑ k : Fin 128, a (ix2 p k) * b (ix2 k q) := by
  simp only [matmul]
  rw [Ideal.matmul_constant_zero_apply, ← Equiv.sum_comp (contrEquiv1 dot_S500x128_S128x64_S500x64_1_0_0_1_n_n 128 rfl rfl).symm]
  refine Finset.sum_congr rfl fun k _ => ?_
  have hk := contrEquiv1_symm_val dot_S500x128_S128x64_S500x64_1_0_0_1_n_n 128 rfl rfl k
  have el : dot_S500x128_S128x64_S500x64_1_0_0_1_n_n.lhsIdx (ix2 p q) ((contrEquiv1 dot_S500x128_S128x64_S500x64_1_0_0_1_n_n 128 rfl rfl).symm k) = ix2 p k := funext fun a => Fin.ext (by
    match a with
    | ⟨0, _⟩ => exact lhs_hid_0 _ _
    | ⟨1, _⟩ => exact (lhs_hid_1 _ _).trans hk)
  have er : dot_S500x128_S128x64_S500x64_1_0_0_1_n_n.rhsIdx (ix2 p q) ((contrEquiv1 dot_S500x128_S128x64_S500x64_1_0_0_1_n_n 128 rfl rfl).symm k) = ix2 k q := funext fun a => Fin.ext (by
    match a with
    | ⟨0, _⟩ => exact (rhs_hid_0 _ _).trans hk
    | ⟨1, _⟩ => exact rhs_hid_1 _ _)
  rw [el, er]

theorem lhs_dom_0 (i : S500x2.Idx) (q : dot_S500x64_S64x2_S500x2_1_0_0_1_n_n.contr.Idx) :
    (dot_S500x64_S64x2_S500x2_1_0_0_1_n_n.lhsIdx i q 0).val = (i 0).val := by
  unfold DotDims.lhsIdx
  rw [dif_neg (show ¬(0 : Fin S500x64.rank) ∈ dot_S500x64_S64x2_S500x2_1_0_0_1_n_n.lhsBatch by decide), dif_pos (show (0 : Fin S500x64.rank) ∈ dot_S500x64_S64x2_S500x2_1_0_0_1_n_n.lhsNonContracting by decide)]
  rfl
theorem lhs_dom_1 (i : S500x2.Idx) (q : dot_S500x64_S64x2_S500x2_1_0_0_1_n_n.contr.Idx) :
    (dot_S500x64_S64x2_S500x2_1_0_0_1_n_n.lhsIdx i q 1).val = (q ⟨0, by decide⟩).val :=
  dot_S500x64_S64x2_S500x2_1_0_0_1_n_n.lhsIdx_val_of_single rfl i q
theorem rhs_dom_0 (i : S500x2.Idx) (q : dot_S500x64_S64x2_S500x2_1_0_0_1_n_n.contr.Idx) :
    (dot_S500x64_S64x2_S500x2_1_0_0_1_n_n.rhsIdx i q 0).val = (q ⟨0, by decide⟩).val :=
  dot_S500x64_S64x2_S500x2_1_0_0_1_n_n.rhsIdx_val_of_single rfl i q
theorem rhs_dom_1 (i : S500x2.Idx) (q : dot_S500x64_S64x2_S500x2_1_0_0_1_n_n.contr.Idx) :
    (dot_S500x64_S64x2_S500x2_1_0_0_1_n_n.rhsIdx i q 1).val = (i 1).val := by
  unfold DotDims.rhsIdx
  rw [dif_neg (show ¬(1 : Fin S64x2.rank) ∈ dot_S500x64_S64x2_S500x2_1_0_0_1_n_n.rhsBatch by decide), dif_pos (show (1 : Fin S64x2.rank) ∈ dot_S500x64_S64x2_S500x2_1_0_0_1_n_n.rhsNonContracting by decide)]
  rfl

/-- The domain head's second product into the zero splat, read at row p and column q. -/
theorem matmul_dom (a : FVec Ideal S500x64 .bf16) (b : FVec Ideal S64x2 .bf16) (p : Fin 500) (q : Fin 2) :
    matmul dot_S500x64_S64x2_S500x2_1_0_0_1_n_n none a b (constant S500x2 .f32 0x00000000#32) (ix2 p q)
      = ∑ k : Fin 64, a (ix2 p k) * b (ix2 k q) := by
  simp only [matmul]
  rw [Ideal.matmul_constant_zero_apply, ← Equiv.sum_comp (contrEquiv1 dot_S500x64_S64x2_S500x2_1_0_0_1_n_n 64 rfl rfl).symm]
  refine Finset.sum_congr rfl fun k _ => ?_
  have hk := contrEquiv1_symm_val dot_S500x64_S64x2_S500x2_1_0_0_1_n_n 64 rfl rfl k
  have el : dot_S500x64_S64x2_S500x2_1_0_0_1_n_n.lhsIdx (ix2 p q) ((contrEquiv1 dot_S500x64_S64x2_S500x2_1_0_0_1_n_n 64 rfl rfl).symm k) = ix2 p k := funext fun a => Fin.ext (by
    match a with
    | ⟨0, _⟩ => exact lhs_dom_0 _ _
    | ⟨1, _⟩ => exact (lhs_dom_1 _ _).trans hk)
  have er : dot_S500x64_S64x2_S500x2_1_0_0_1_n_n.rhsIdx (ix2 p q) ((contrEquiv1 dot_S500x64_S64x2_S500x2_1_0_0_1_n_n 64 rfl rfl).symm k) = ix2 k q := funext fun a => Fin.ext (by
    match a with
    | ⟨0, _⟩ => exact (rhs_dom_0 _ _).trans hk
    | ⟨1, _⟩ => exact rhs_dom_1 _ _)
  rw [el, er]

/-! ## The payloads at an index -/

/-- A vector of n entries cast to one row and laid along m rows reads, at row p and column q, its entry q. -/
theorem rowBias_apply {α : Type} {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The pooled features pass the cast to their own shape and the change of format unchanged. -/
theorem pay1_apply (v0 : Vec Ideal S500x128 .f32) (i : S500x128.Idx) : k7_pay1 (F := Ideal) v0 i = v0 i := by
  unfold k7_pay1
  show shapeCast S500x128 v0 shapeCasts_S500x128_S500x128 i = v0 i
  rw [shapeCast_self]

/-- The class head's stored value at row p and column q: the row of features against the column of weights, plus
    the column's bias. -/
theorem pay2_apply (v0 : Vec Ideal S500x128 .f32) (v3 : Vec Ideal S128x10 .f32) (v6 : Vec Ideal S10 .f32)
    (p : Fin 500) (q : Fin 10) :
    k7_pay2 (F := Ideal) v0 v3 v6 (ix2 p q) = (∑ k : Fin 128, v0 (ix2 p k) * v3 (ix2 k q)) + v6 (ix1 q) := by
  unfold k7_pay2
  refine (addf_apply _ _ (ix2 p q)).trans ?_
  refine congrArg₂ (· + ·) ?_ ?_
  · refine (matmul_cls _ _ p q).trans ?_
    refine Finset.sum_congr rfl fun k _ => ?_
    exact congrArg₂ (· * ·) (pay1_apply v0 (ix2 p k)) rfl
  · exact rowBias_apply v6 _ _ p q

/-- The domain head's hidden layer at row p and column k, before the second product: the first linear layer
    floored at zero (the zero it is floored at is the zero word's value). -/
theorem hidden_apply (v0 : Vec Ideal S500x128 .f32) (v11 : Vec Ideal S128x64 .f32) (v14 : Vec Ideal S64 .f32)
    (p : Fin 500) (k : Fin 64) :
    maximumf (F := Ideal)
        (addf (matmul dot_S500x128_S128x64_S500x64_1_0_0_1_n_n none (k7_pay1 v0) (truncf .bf16 v11 bitsLt_bf16_f32) (constant S500x64 .f32 0x00000000#32))
          (broadcastTo S500x64 (shapeCast S1x64 v14 shapeCasts_S64_S1x64) broadcasts_S1x64_S500x64))
        (broadcast S500x64 (Scalar.ofBits .f32 0x00000000#32)) (ix2 p k)
      = max ((∑ l : Fin 128, v0 (ix2 p l) * v11 (ix2 l k)) + v14 (ix1 k)) 0 := by
  refine (maximumf_apply _ _ (ix2 p k)).trans ?_
  refine congrArg₂ max ?_ Ideal.ofBits_zero_f32
  refine (addf_apply _ _ (ix2 p k)).trans ?_
  refine congrArg₂ (· + ·) ?_ ?_
  · refine (matmul_hid _ _ p k).trans ?_
    refine Finset.sum_congr rfl fun l _ => ?_
    exact congrArg₂ (· * ·) (pay1_apply v0 (ix2 p l)) rfl
  · exact rowBias_apply v14 _ _ p k

/-- The domain head's stored value at row p and column r: the floored hidden row against the column of the second
    weights, plus the column's bias. -/
theorem pay3_apply (v0 : Vec Ideal S500x128 .f32) (v11 : Vec Ideal S128x64 .f32) (v14 : Vec Ideal S64 .f32)
    (v21 : Vec Ideal S64x2 .f32) (v24 : Vec Ideal S2 .f32) (p : Fin 500) (r : Fin 2) :
    k7_pay3 (F := Ideal) v0 v11 v14 v21 v24 (ix2 p r)
      = (∑ k : Fin 64, max ((∑ l : Fin 128, v0 (ix2 p l) * v11 (ix2 l k)) + v14 (ix1 k)) 0 * v21 (ix2 k r)) + v24 (ix1 r) := by
  unfold k7_pay3
  refine (addf_apply _ _ (ix2 p r)).trans ?_
  refine congrArg₂ (· + ·) ?_ ?_
  · refine (matmul_dom _ _ p r).trans ?_
    refine Finset.sum_congr rfl fun k _ => ?_
    exact congrArg₂ (· * ·) (hidden_apply v0 v11 v14 p k) rfl
  · exact rowBias_apply v24 _ _ p r

/-! ## The one point's blocks are the whole arrays -/

theorem zeros2 : (![0, 0] : Fin 2 → Nat) = fun _ => 0 := funext fun a => by fin_cases a <;> rfl
theorem zeros1 : (![0] : Fin 1 → Nat) = fun _ => 0 := funext fun a => by fin_cases a <;> rfl

/-- Every window's block index is zero on every axis, decided over the grid's one point. -/
theorem index_zero : ∀ t : Fin cfg7.N,
    win7_0.index t (0 : Fin 2) = 0 ∧ win7_0.index t (1 : Fin 2) = 0
    ∧ win7_1.index t (0 : Fin 2) = 0 ∧ win7_1.index t (1 : Fin 2) = 0
    ∧ win7_2.index t (0 : Fin 1) = 0
    ∧ win7_3.index t (0 : Fin 2) = 0 ∧ win7_3.index t (1 : Fin 2) = 0
    ∧ win7_4.index t (0 : Fin 1) = 0
    ∧ win7_5.index t (0 : Fin 2) = 0 ∧ win7_5.index t (1 : Fin 2) = 0
    ∧ win7_6.index t (0 : Fin 1) = 0
    ∧ win7_7.index t (0 : Fin 2) = 0 ∧ win7_7.index t (1 : Fin 2) = 0
    ∧ win7_8.index t (0 : Fin 2) = 0 ∧ win7_8.index t (1 : Fin 2) = 0 :=
  (by decide +kernel : ∀ t : Fin grid7.N, _)

/-- The pooled features' block at the one point is the array they are read from. -/
theorem blk0 (c : Dev nD) (t : Fin cfg7.N) (y : S500x128.Idx) : iblk7 (F := Ideal) V c 0 t y = V c main_v152 y := by
  have hz := index_zero t
  have h : ((cfg7.win 0).blk t).view.emb y = y := by
    funext a; apply Fin.ext
    match a with
    | ⟨0, _⟩ => show win7_0.index t (0 : Fin 2) * 500 + 1 * (y 0).val = (y 0).val; omega
    | ⟨1, _⟩ => show win7_0.index t (1 : Fin 2) * 128 + 1 * (y 1).val = (y 1).val; omega
  show V c main_v152 (((cfg7.win 0).blk t).view.emb y) = V c main_v152 y
  rw [h]

/-- The class weights' block is their array. -/
theorem blk1 (c : Dev nD) (t : Fin cfg7.N) (y : S128x10.Idx) : iblk7 (F := Ideal) V c 1 t y = V c main_arg9 y := by
  have hz := index_zero t
  have h : ((cfg7.win 1).blk t).view.emb y = y := by
    funext a; apply Fin.ext
    match a with
    | ⟨0, _⟩ => show win7_1.index t (0 : Fin 2) * 128 + 1 * (y 0).val = (y 0).val; omega
    | ⟨1, _⟩ => show win7_1.index t (1 : Fin 2) * 10 + 1 * (y 1).val = (y 1).val; omega
  show V c main_arg9 (((cfg7.win 1).blk t).view.emb y) = V c main_arg9 y
  rw [h]

/-- The class bias's block is its array. -/
theorem blk2 (c : Dev nD) (t : Fin cfg7.N) (y : S10.Idx) : iblk7 (F := Ideal) V c 2 t y = V c main_arg10 y := by
  have hz := index_zero t
  have h : ((cfg7.win 2).blk t).view.emb y = y := by
    funext a; apply Fin.ext
    match a with
    | ⟨0, _⟩ => show win7_2.index t (0 : Fin 1) * 10 + 1 * (y 0).val = (y 0).val; omega
  show V c main_arg10 (((cfg7.win 2).blk t).view.emb y) = V c main_arg10 y
  rw [h]

/-- The first domain weights' block is their array. -/
theorem blk3 (c : Dev nD) (t : Fin cfg7.N) (y : S128x64.Idx) : iblk7 (F := Ideal) V c 3 t y = V c main_arg11 y := by
  have hz := index_zero t
  have h : ((cfg7.win 3).blk t).view.emb y = y := by
    funext a; apply Fin.ext
    match a with
    | ⟨0, _⟩ => show win7_3.index t (0 : Fin 2) * 128 + 1 * (y 0).val = (y 0).val; omega
    | ⟨1, _⟩ => show win7_3.index t (1 : Fin 2) * 64 + 1 * (y 1).val = (y 1).val; omega
  show V c main_arg11 (((cfg7.win 3).blk t).view.emb y) = V c main_arg11 y
  rw [h]

/-- The first domain bias's block is its array. -/
theorem blk4 (c : Dev nD) (t : Fin cfg7.N) (y : S64.Idx) : iblk7 (F := Ideal) V c 4 t y = V c main_arg12 y := by
  have hz := index_zero t
  have h : ((cfg7.win 4).blk t).view.emb y = y := by
    funext a; apply Fin.ext
    match a with
    | ⟨0, _⟩ => show win7_4.index t (0 : Fin 1) * 64 + 1 * (y 0).val = (y 0).val; omega
  show V c main_arg12 (((cfg7.win 4).blk t).view.emb y) = V c main_arg12 y
  rw [h]

/-- The second domain weights' block is their array. -/
theorem blk5 (c : Dev nD) (t : Fin cfg7.N) (y : S64x2.Idx) : iblk7 (F := Ideal) V c 5 t y = V c main_arg13 y := by
  have hz := index_zero t
  have h : ((cfg7.win 5).blk t).view.emb y = y := by
    funext a; apply Fin.ext
    match a with
    | ⟨0, _⟩ => show win7_5.index t (0 : Fin 2) * 64 + 1 * (y 0).val = (y 0).val; omega
    | ⟨1, _⟩ => show win7_5.index t (1 : Fin 2) * 2 + 1 * (y 1).val = (y 1).val; omega
  show V c main_arg13 (((cfg7.win 5).blk t).view.emb y) = V c main_arg13 y
  rw [h]

/-- The second domain bias's block is its array. -/
theorem blk6 (c : Dev nD) (t : Fin cfg7.N) (y : S2.Idx) : iblk7 (F := Ideal) V c 6 t y = V c main_arg14 y := by
  have hz := index_zero t
  have h : ((cfg7.win 6).blk t).view.emb y = y := by
    funext a; apply Fin.ext
    match a with
    | ⟨0, _⟩ => show win7_6.index t (0 : Fin 1) * 2 + 1 * (y 0).val = (y 0).val; omega
  show V c main_arg14 (((cfg7.win 6).blk t).view.emb y) = V c main_arg14 y
  rw [h]

/-- An element of output window 7's one block sits in the array at its own coordinates. -/
theorem out_emb7 (t : Fin cfg7.N) (j : S500x10.Idx) : ((cfg7.win 7).blk t).view.emb j = j := by
  have hz := index_zero t
  funext a; apply Fin.ext
  match a with
  | ⟨0, _⟩ => show win7_7.index t (0 : Fin 2) * 500 + 1 * (j 0).val = (j 0).val; omega
  | ⟨1, _⟩ => show win7_7.index t (1 : Fin 2) * 10 + 1 * (j 1).val = (j 1).val; omega

/-- An element of output window 8's one block sits in the array at its own coordinates. -/
theorem out_emb8 (t : Fin cfg7.N) (j : S500x2.Idx) : ((cfg7.win 8).blk t).view.emb j = j := by
  have hz := index_zero t
  funext a; apply Fin.ext
  match a with
  | ⟨0, _⟩ => show win7_8.index t (0 : Fin 2) * 500 + 1 * (j 0).val = (j 0).val; omega
  | ⟨1, _⟩ => show win7_8.index t (1 : Fin 2) * 2 + 1 * (j 1).val = (j 1).val; omega

/-! ## The two heads at an index -/

/-- The class head at row p and column q. -/
theorem clsHead_apply (f : S500x128.Idx → EReal) (w : S128x10.Idx → EReal) (b : S10.Idx → EReal) (p : Fin 500) (q : Fin 10) :
    Cert.Gnn.clsHead (n := 500) (d := 128) (e := 10) f w b (ix2 p q) = (∑ k : Fin 128, f (ix2 p k) * w (ix2 k q)) + b (ix1 q) := rfl

/-- The domain head at row p and column r. -/
theorem domHead_apply (f : S500x128.Idx → EReal) (w1 : S128x64.Idx → EReal) (b1 : S64.Idx → EReal)
    (w2 : S64x2.Idx → EReal) (b2 : S2.Idx → EReal) (p : Fin 500) (r : Fin 2) :
    Cert.Gnn.domHead (n := 500) (d := 128) (e := 64) (o := 2) f w1 b1 w2 b2 (ix2 p r)
      = (∑ k : Fin 64, max ((∑ l : Fin 128, f (ix2 p l) * w1 (ix2 l k)) + b1 (ix1 k)) 0 * w2 (ix2 k r)) + b2 (ix1 r) := rfl

/-! ## What the point writes back -/

/-- The class head's stored value, element by element, is the class head of the arrays the region finds. -/
theorem cls_block (c : Dev nD) (t : Fin cfg7.N) (j : S500x10.Idx) :
    k7_pay2 (F := Ideal) (iblk7 V c 0 t) (iblk7 V c 1 t) (iblk7 V c 2 t) j
      = Cert.Gnn.clsHead (n := 500) (d := 128) (e := 10) (V c main_v152) (V c main_arg9) (V c main_arg10)
          (((cfg7.win 7).blk t).view.emb j) := by
  obtain ⟨p, q, rfl⟩ : ∃ (p : Fin 500) (q : Fin 10), j = ix2 p q := ⟨j 0, j 1, eq_ix2 j⟩
  rw [out_emb7 t (ix2 p q)]
  refine (pay2_apply (iblk7 V c 0 t) (iblk7 V c 1 t) (iblk7 V c 2 t) p q).trans ?_
  refine Eq.trans ?_ (clsHead_apply (V c main_v152) (V c main_arg9) (V c main_arg10) p q).symm
  exact congrArg₂ (· + ·)
    (Finset.sum_congr rfl fun k _ => congrArg₂ (· * ·) (blk0 V c t (ix2 p k)) (blk1 V c t (ix2 k q)))
    (blk2 V c t (ix1 q))

/-- The domain head's stored value, element by element, is the domain head of the arrays the region finds. -/
theorem dom_block (c : Dev nD) (t : Fin cfg7.N) (j : S500x2.Idx) :
    k7_pay3 (F := Ideal) (iblk7 V c 0 t) (iblk7 V c 3 t) (iblk7 V c 4 t) (iblk7 V c 5 t) (iblk7 V c 6 t) j
      = Cert.Gnn.domHead (n := 500) (d := 128) (e := 64) (o := 2) (V c main_v152) (V c main_arg11) (V c main_arg12)
          (V c main_arg13) (V c main_arg14) (((cfg7.win 8).blk t).view.emb j) := by
  obtain ⟨p, r, rfl⟩ : ∃ (p : Fin 500) (r : Fin 2), j = ix2 p r := ⟨j 0, j 1, eq_ix2 j⟩
  rw [out_emb8 t (ix2 p r)]
  refine (pay3_apply (iblk7 V c 0 t) (iblk7 V c 3 t) (iblk7 V c 4 t) (iblk7 V c 5 t) (iblk7 V c 6 t) p r).trans ?_
  refine Eq.trans ?_ (domHead_apply (V c main_v152) (V c main_arg11) (V c main_arg12) (V c main_arg13) (V c main_arg14) p r).symm
  exact congrArg₂ (· + ·)
    (Finset.sum_congr rfl fun k _ => congrArg₂ (· * ·)
      (congrArg (max · 0) (congrArg₂ (· + ·)
        (Finset.sum_congr rfl fun l _ => congrArg₂ (· * ·) (blk0 V c t (ix2 p l)) (blk3 V c t (ix2 l k)))
        (blk4 V c t (ix1 k))))
      (blk5 V c t (ix2 k r)))
    (blk6 V c t (ix1 r))

/-- What the point writes back into the class head's array is the block of the class head. -/
theorem flushed_cls (c : Dev nD) (t : Fin cfg7.N) :
    (dat7 (F := Ideal) V c).flushed 7 t
      = ((cfg7.win 7).blk t).view.read (Elt Ideal)
          (Cert.Gnn.clsHead (n := 500) (d := 128) (e := 10) (V c main_v152) (V c main_arg9) (V c main_arg10)) := by
  show (cfg7.win 7).cut (grid7.coords t) ((dat7 V c).after 7 t) = _
  rw [after7_7]
  unfold out7_7
  rw [View.canon_unit_zero zeros2]
  simp only [View.ld_unit_zero (S := S500x128) zeros2, View.ld_unit_zero (S := S128x10) zeros2, View.ld_unit_zero (S := S10) zeros1]
  funext j
  exact cls_block V c t j

/-- What the point writes back into the domain head's array is the block of the domain head. -/
theorem flushed_dom (c : Dev nD) (t : Fin cfg7.N) :
    (dat7 (F := Ideal) V c).flushed 8 t
      = ((cfg7.win 8).blk t).view.read (Elt Ideal)
          (Cert.Gnn.domHead (n := 500) (d := 128) (e := 64) (o := 2) (V c main_v152) (V c main_arg11) (V c main_arg12)
            (V c main_arg13) (V c main_arg14)) := by
  show (cfg7.win 8).cut (grid7.coords t) ((dat7 V c).after 8 t) = _
  rw [after7_8]
  unfold out7_8
  rw [View.canon_unit_zero zeros2]
  simp only [View.ld_unit_zero (S := S500x128) zeros2, View.ld_unit_zero (S := S128x64) zeros2, View.ld_unit_zero (S := S64) zeros1,
    View.ld_unit_zero (S := S64x2) zeros2, View.ld_unit_zero (S := S2) zeros1]
  funext j
  exact dom_block V c t j

/-! ## From the block to the array -/

/-- An index of the array is in the point's block iff each coordinate is in the block's range on its axis. -/
theorem mem_blk7 (t : Fin cfg7.N) (i : S500x10.Idx) :
    i ∈ ((cfg7.win 7).blk t).view.set ↔ ∀ a : Fin 2, win7_7.index t a * S500x10.size a ≤ (i a).val ∧ (i a).val < win7_7.index t a * S500x10.size a + S500x10.size a := by
  show i ∈ ((View.whole main_v153_0).slice (win7_7.rect t)).set ↔ _
  rw [View.set_slice_whole, Rect.mem_set_unit]
  exact Iff.rfl

/-- The one point's block is the whole array, so it covers every index. -/
theorem cover7 (i : S500x10.Idx) : ∃ t : Fin cfg7.N, (cfg7.win 7).flush t = true ∧ i ∈ ((cfg7.win 7).blk t).view.set := by
  have hz := index_zero t7_0
  have h0 : (i 0).val < 500 := idx2_lt0 i
  have h1 : (i 1).val < 10 := idx2_lt1 i
  refine ⟨t7_0, flush7_7 t7_0, ?_⟩
  rw [mem_blk7]
  intro a
  match a with
  | ⟨0, _⟩ => show win7_7.index t7_0 (0 : Fin 2) * 500 ≤ (i 0).val ∧ (i 0).val < win7_7.index t7_0 (0 : Fin 2) * 500 + 500; omega
  | ⟨1, _⟩ => show win7_7.index t7_0 (1 : Fin 2) * 10 ≤ (i 1).val ∧ (i 1).val < win7_7.index t7_0 (1 : Fin 2) * 10 + 10; omega

/-- An index of the array is in the point's block iff each coordinate is in the block's range on its axis. -/
theorem mem_blk8 (t : Fin cfg7.N) (i : S500x2.Idx) :
    i ∈ ((cfg7.win 8).blk t).view.set ↔ ∀ a : Fin 2, win7_8.index t a * S500x2.size a ≤ (i a).val ∧ (i a).val < win7_8.index t a * S500x2.size a + S500x2.size a := by
  show i ∈ ((View.whole main_v153_1).slice (win7_8.rect t)).set ↔ _
  rw [View.set_slice_whole, Rect.mem_set_unit]
  exact Iff.rfl

/-- The one point's block is the whole array, so it covers every index. -/
theorem cover8 (i : S500x2.Idx) : ∃ t : Fin cfg7.N, (cfg7.win 8).flush t = true ∧ i ∈ ((cfg7.win 8).blk t).view.set := by
  have hz := index_zero t7_0
  have h0 : (i 0).val < 500 := idx2_lt0 i
  have h1 : (i 1).val < 2 := idx2_lt1 i
  refine ⟨t7_0, flush7_8 t7_0, ?_⟩
  rw [mem_blk8]
  intro a
  match a with
  | ⟨0, _⟩ => show win7_8.index t7_0 (0 : Fin 2) * 500 ≤ (i 0).val ∧ (i 0).val < win7_8.index t7_0 (0 : Fin 2) * 500 + 500; omega
  | ⟨1, _⟩ => show win7_8.index t7_0 (1 : Fin 2) * 2 ≤ (i 1).val ∧ (i 1).val < win7_8.index t7_0 (1 : Fin 2) * 2 + 2; omega

/-- The class head: one linear layer on the pooled features. -/
theorem cls (c : Dev nD) :
    (dat7 (F := Ideal) V c).arrAt 7 cfg7.N
      = Cert.Gnn.clsHead (n := 500) (d := 128) (e := 10) (V c main_v152) (V c main_arg9) (V c main_arg10) :=
  (dat7 (F := Ideal) V c).arrAt_eq_of_cover 7 _ (fun t _ => flushed_cls V c t) cover7

/-- The domain head: two linear layers with a floor at zero between them. -/
theorem dom (c : Dev nD) :
    (dat7 (F := Ideal) V c).arrAt 8 cfg7.N
      = Cert.Gnn.domHead (n := 500) (d := 128) (e := 64) (o := 2) (V c main_v152) (V c main_arg11) (V c main_arg12) (V c main_arg13) (V c main_arg14) :=
  (dat7 (F := Ideal) V c).arrAt_eq_of_cover 8 _ (fun t _ => flushed_dom V c t) cover8

end Cert.KernelIdeal.Heads7

end
-- ==== Proof.LibRowOps.lean ====
/-
  Row scatter-add and row gather, read at an index and compared across two operand heights.

  A scatter-add of rows into an array of N rows (scatter indices [E, 1], one node index per update row; jax's
  segment_sum and x.at[idx].add(u)) adds update row e to operand row idx[e] when 0 ≤ idx[e] < N, read as a signed
  integer, and drops it otherwise; a gather of rows (x[idx]) reads operand row idx[e] clamped into [0, N − 1].
  Hence, when every index lies in [0, N') with N' ≤ N, both operations on an N-row array and on an N'-row array
  whose rows are the first N' rows of the former agree: the gathers everywhere, the scatters on the first N' rows.
-/
import Idealize.ShloMosaic.PureOps.Ideal
import Idealize.ShloMosaic.Lib.ValueIdx

noncomputable section

namespace Cert.Lib.RowOps

open Idealize.ShloMosaic Idealize.ShloMosaic.ValueIdx

/-- Scatter rows of a vector: operand [N], scatter indices [E, 1], updates [E]. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Scatter rows of a matrix: operand [N, D], scatter indices [E, 1], updates [E, D]. -/
abbrev scat2 (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Gather entries of a vector: operand [N], start indices [E, 1], result [E]. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Gather rows of a matrix: operand [N, D], start indices [E, 1], result [E, D]. -/
abbrev gath2 (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Every index of the column lies in [0, M). -/
def InRange {E w : Nat} (idx : IVec ⟨2, ![E, 1]⟩ w) (M : Nat) : Prop :=
  ∀ e : Fin E, 0 ≤ (idx (ix2 e (0 : Fin 1))).toInt ∧ (idx (ix2 e (0 : Fin 1))).toInt < (M : Int)

/-- The first N' entries of a agree with b. -/
def Agree1 {α : Type} {N N' : Nat} (h : N' ≤ N) (a : (⟨1, ![N]⟩ : Shape).Idx → α) (b : (⟨1, ![N']⟩ : Shape).Idx → α) : Prop :=
  ∀ n : Fin N', a (ix1 ⟨n.val, lt_of_lt_of_le n.isLt h⟩) = b (ix1 n)

/-- The first N' rows of A agree with B. -/
def Agree2 {α : Type} {N N' D : Nat} (h : N' ≤ N) (A : (⟨2, ![N, D]⟩ : Shape).Idx → α) (B : (⟨2, ![N', D]⟩ : Shape).Idx → α) : Prop :=
  ∀ (n : Fin N') (c : Fin D), A (ix2 ⟨n.val, lt_of_lt_of_le n.isLt h⟩ c) = B (ix2 n c)

/-! ## Read at an index -/

/-- Where an update lands: the operand index whose every coordinate is the start plus the window coordinate. -/
private theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · rintro rfl a
      have := (h a).1
      simp only [Int.toNat_of_nonneg this]
    · intro hh
      funext a
      refine Fin.ext ?_
      simp only [hh a, Int.toNat_natCast]
  · constructor
    · intro hh; cases hh
    · intro hh
      exfalso
      apply h
      intro a
      rw [hh a]
      exact ⟨Int.natCast_nonneg _, by exact_mod_cast (i a).isLt⟩

section Scat2
variable {N D E w : Nat} (wf : ScatterDims.WF ⟨2, ![N, D]⟩ ⟨2, ![E, 1]⟩ ⟨2, ![E, D]⟩ [1] [0] [0] 1)

/-- The scattered axis reads the index column, signed. -/
private theorem scat2_start0 (j : (⟨2, ![E, D]⟩ : Shape).Idx) (idx : IVec ⟨2, ![E, 1]⟩ w) :
    (scat2 N D E wf).start j idx 0 = (idx (ix2 (j 0) (0 : Fin 1))).toInt := by
  unfold ScatterDims.start
  rw [dif_pos (show (0 : Fin 2) ∈ (scat2 N D E wf).scatterDimsToOperandDims from List.mem_singleton.mpr rfl)]
  have hsi : (scat2 N D E wf).siIdx j ⟨List.idxOf (0 : Fin 2) (scat2 N D E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The column axis is not scattered: its start is 0. -/
private theorem scat2_start1 (j : (⟨2, ![E, D]⟩ : Shape).Idx) (idx : IVec ⟨2, ![E, 1]⟩ w) :
    (scat2 N D E wf).start j idx 1 = 0 := by
  unfold ScatterDims.start
  rw [dif_neg (show ¬ (1 : Fin 2) ∈ (scat2 N D E wf).scatterDimsToOperandDims by simp)]

/-- The row axis is inserted: no window coordinate. -/
private theorem scat2_window0 (j : (⟨2, ![E, D]⟩ : Shape).Idx) :
    (scat2 N D E wf).window j 0 = 0 := by
  unfold ScatterDims.window
  rw [dif_neg (show ¬ (0 : Fin 2) ∈ (scat2 N D E wf).sKept by simp [ScatterDims.sKept, Shape.kept])]

/-- The column axis is the window axis: its coordinate is the update's column. -/
private theorem scat2_window1 (j : (⟨2, ![E, D]⟩ : Shape).Idx) :
    (scat2 N D E wf).window j 1 = (j 1).val := by
  unfold ScatterDims.window
  rw [dif_pos (show (1 : Fin 2) ∈ (scat2 N D E wf).sKept by simp [ScatterDims.sKept, Shape.kept])]
  rfl

/-- Update (e, c') lands on (n, c) exactly when its index, read signed, is n and the columns agree. -/
private theorem scat2_lands (e : Fin E) (c' : Fin D) (n : Fin N) (c : Fin D) (idx : IVec ⟨2, ![E, 1]⟩ w) :
    (scat2 N D E wf).resultIdx? (ix2 e c') idx = some (ix2 n c)
      ↔ (idx (ix2 e (0 : Fin 1))).toInt = (n.val : Int) ∧ c' = c := by
  rw [resultIdx?_eq_some_iff]
  constructor
  · intro hh
    have h0 := hh 0
    have h1 := hh 1
    rw [scat2_start0, scat2_window0] at h0
    rw [scat2_start1, scat2_window1] at h1
    have h0' : (idx (ix2 e (0 : Fin 1))).toInt + ((0 : Nat) : Int) = (n.val : Int) := h0
    have h1' : (0 : Int) + ((c'.val : Nat) : Int) = (c.val : Int) := h1
    refine ⟨by simpa using h0', Fin.ext ?_⟩
    omega
  · rintro ⟨e0, rfl⟩ a
    match a with
    | ⟨0, _⟩ =>
      show (scat2 N D E wf).start (ix2 e c') idx 0 + ((scat2 N D E wf).window (ix2 e c') 0 : Int) = (n.val : Int)
      rw [scat2_start0, scat2_window0]
      show (idx (ix2 e (0 : Fin 1))).toInt + ((0 : Nat) : Int) = (n.val : Int)
      simpa using e0
    | ⟨1, _⟩ =>
      show (scat2 N D E wf).start (ix2 e c') idx 1 + ((scat2 N D E wf).window (ix2 e c') 1 : Int) = (c'.val : Int)
      rw [scat2_start1, scat2_window1]
      show (0 : Int) + ((c'.val : Nat) : Int) = (c'.val : Int)
      simp

end Scat2

/-- A sum over a rank-1 index set is the sum over its coordinate. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

section Scat1
variable {N E w : Nat} (wf : ScatterDims.WF ⟨1, ![N]⟩ ⟨2, ![E, 1]⟩ ⟨1, ![E]⟩ [] [0] [0] 1)

/-- The scattered axis reads the index column, signed. -/
private theorem scat1_start0 (j : (⟨1, ![E]⟩ : Shape).Idx) (idx : IVec ⟨2, ![E, 1]⟩ w) :
    (scat1 N E wf).start j idx 0 = (idx (ix2 (j 0) (0 : Fin 1))).toInt := by
  unfold ScatterDims.start
  rw [dif_pos (show (0 : Fin 1) ∈ (scat1 N E wf).scatterDimsToOperandDims from List.mem_singleton.mpr rfl)]
  have hsi : (scat1 N E wf).siIdx j ⟨List.idxOf (0 : Fin 1) (scat1 N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The one operand axis is inserted: no window coordinate. -/
private theorem scat1_window0 (j : (⟨1, ![E]⟩ : Shape).Idx) :
    (scat1 N E wf).window j 0 = 0 := by
  unfold ScatterDims.window
  rw [dif_neg (show ¬ (0 : Fin 1) ∈ (scat1 N E wf).sKept by simp [ScatterDims.sKept, Shape.kept])]

/-- Update e lands on entry n exactly when its index, read signed, is n. -/
private theorem scat1_lands (e : Fin E) (n : Fin N) (idx : IVec ⟨2, ![E, 1]⟩ w) :
    (scat1 N E wf).resultIdx? (ix1 e) idx = some (ix1 n) ↔ (idx (ix2 e (0 : Fin 1))).toInt = (n.val : Int) := by
  rw [resultIdx?_eq_some_iff]
  constructor
  · intro hh
    have h0 := hh 0
    rw [scat1_start0, scat1_window0] at h0
    have h0' : (idx (ix2 e (0 : Fin 1))).toInt + ((0 : Nat) : Int) = (n.val : Int) := h0
    simpa using h0'
  · intro e0 a
    obtain rfl : a = 0 := Subsingleton.elim _ _
    rw [scat1_start0, scat1_window0]
    show (idx (ix2 e (0 : Fin 1))).toInt + ((0 : Nat) : Int) = (n.val : Int)
    simpa using e0

end Scat1

theorem scat1_apply {N E w : Nat} (wf) (x : (⟨1, ![N]⟩ : Shape).Idx → EReal) (idx : IVec ⟨2, ![E, 1]⟩ w)
    (upd : (⟨1, ![E]⟩ : Shape).Idx → EReal) (n : Fin N) :
    Ideal.hostScatterAdd (scat1 N E wf) x idx upd (ix1 n)
      = x (ix1 n) + ∑ e ∈ Finset.univ.filter (fun e : Fin E => (idx (ix2 e (0 : Fin 1))).toInt = (n.val : Int)), upd (ix1 e) := by
  unfold Ideal.hostScatterAdd
  congr 1
  rw [Finset.sum_filter, Finset.sum_filter, sum_idx1]
  refine Finset.sum_congr rfl fun e _ => ?_
  simp only [scat1_lands]

theorem scat2_apply {N D E w : Nat} (wf) (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd (scat2 N D E wf) x idx upd (ix2 n c)
      = x (ix2 n c) + ∑ e ∈ Finset.univ.filter (fun e : Fin E => (idx (ix2 e (0 : Fin 1))).toInt = (n.val : Int)), upd (ix2 e c) := by
  unfold Ideal.hostScatterAdd
  congr 1
  rw [Finset.sum_filter, Finset.sum_filter, sum_idx2]
  refine Finset.sum_congr rfl fun e _ => ?_
  simp only [scat2_lands]
  by_cases hq : (idx (ix2 e (0 : Fin 1))).toInt = (n.val : Int)
  · simp only [hq, true_and, if_true]
    rw [Finset.sum_ite_eq']
    simp
  · simp only [hq, false_and, if_false]
    simp

theorem gath1_apply {α : Type} {N E w : Nat} (hN : 0 < N) (wf) (x : (⟨1, ![N]⟩ : Shape).Idx → α) (idx : IVec ⟨2, ![E, 1]⟩ w) (e : Fin E) :
    Host.gather (gath1 N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N E wf).startIndexMap from List.mem_singleton.mpr rfl)]
  have hsi : (gath1 N E wf).siIdx (ix1 e) ⟨List.idxOf (0 : Fin 1) (gath1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gath2_apply {α : Type} {N D E w : Nat} (hN : 0 < N) (wf) (x : (⟨2, ![N, D]⟩ : Shape).Idx → α) (idx : IVec ⟨2, ![E, 1]⟩ w)
    (e : Fin E) (c : Fin D) :
    Host.gather (gath2 N D E wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (gath2 N D E wf).start (ix2 e c) idx 0 + (gath2 N D E wf).batchCoord (ix2 e c) 0 + (gath2 N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2 N D E wf).startIndexMap from List.mem_singleton.mpr rfl)]
    have hsi : (gath2 N D E wf).siIdx (ix2 e c) ⟨List.idxOf (0 : Fin 2) (gath2 N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gath2 N D E wf).start (ix2 e c) idx 1 + (gath2 N D E wf).batchCoord (ix2 e c) 1 + (gath2 N D E wf).offCoord (ix2 e c) 1 = _
    rw [GatherDims.batchCoord_eq_zero _ _ _ List.not_mem_nil]
    unfold GatherDims.start
    rw [dif_neg (show ¬ (1 : Fin 2) ∈ (gath2 N D E wf).startIndexMap by simp)]
    unfold GatherDims.offCoord
    rw [dif_pos (show (1 : Fin 2) ∈ (gath2 N D E wf).sKept from (GatherDims.mem_sKept _ _).mpr ⟨by simp, List.not_mem_nil⟩)]
    simp only [Nat.zero_add]
    rfl

/-! ## Two operand heights, every index below the smaller -/

/-- An index in [0, M) with M at most K is its own clamp into [0, K − 1]. -/
private theorem clamp_eq {t : Int} {M K : Nat} (h0 : 0 ≤ t) (h1 : t < (M : Int)) (hMK : M ≤ K) :
    min t.toNat (K - 1) = t.toNat := by
  omega

theorem gath1_agree {α : Type} {N N' E w : Nat} (h : N' ≤ N) (hN' : 0 < N') (wf) (wf')
    (a : (⟨1, ![N]⟩ : Shape).Idx → α) (b : (⟨1, ![N']⟩ : Shape).Idx → α) (hab : Agree1 h a b)
    (idx : IVec ⟨2, ![E, 1]⟩ w) (hr : InRange idx N') :
    Host.gather (gath1 N E wf) a idx = Host.gather (gath1 N' E wf') b idx := by
  funext j
  obtain ⟨e, rfl⟩ : ∃ e, j = ix1 e := ⟨j 0, eq_ix1 j⟩
  rw [gath1_apply (lt_of_lt_of_le hN' h), gath1_apply hN']
  obtain ⟨h0, h1⟩ := hr e
  have key : ∀ (p q : Nat) (hp : p < N) (hq : q < N'), p = q → a (ix1 ⟨p, hp⟩) = b (ix1 ⟨q, hq⟩) := by
    intro p q hp hq hpq
    subst hpq
    exact hab ⟨p, hq⟩
  exact key _ _ _ _ ((clamp_eq h0 h1 h).trans (clamp_eq h0 h1 le_rfl).symm)

theorem gath2_agree {α : Type} {N N' D E w : Nat} (h : N' ≤ N) (hN' : 0 < N') (wf) (wf')
    (A : (⟨2, ![N, D]⟩ : Shape).Idx → α) (B : (⟨2, ![N', D]⟩ : Shape).Idx → α) (hAB : Agree2 h A B)
    (idx : IVec ⟨2, ![E, 1]⟩ w) (hr : InRange idx N') :
    Host.gather (gath2 N D E wf) A idx = Host.gather (gath2 N' D E wf') B idx := by
  funext j
  obtain ⟨e, c, rfl⟩ : ∃ e c, j = ix2 e c := ⟨j 0, j 1, eq_ix2 j⟩
  rw [gath2_apply (lt_of_lt_of_le hN' h), gath2_apply hN']
  obtain ⟨h0, h1⟩ := hr e
  have key : ∀ (p q : Nat) (hp : p < N) (hq : q < N'), p = q → A (ix2 ⟨p, hp⟩ c) = B (ix2 ⟨q, hq⟩ c) := by
    intro p q hp hq hpq
    subst hpq
    exact hAB ⟨p, hq⟩ c
  exact key _ _ _ _ ((clamp_eq h0 h1 h).trans (clamp_eq h0 h1 le_rfl).symm)

theorem scat1_agree {N N' E w : Nat} (h : N' ≤ N) (wf) (wf')
    (x : (⟨1, ![N]⟩ : Shape).Idx → EReal) (x' : (⟨1, ![N']⟩ : Shape).Idx → EReal) (hx : Agree1 h x x')
    (idx : IVec ⟨2, ![E, 1]⟩ w) (upd : (⟨1, ![E]⟩ : Shape).Idx → EReal) :
    Agree1 h (Ideal.hostScatterAdd (scat1 N E wf) x idx upd) (Ideal.hostScatterAdd (scat1 N' E wf') x' idx upd) := by
  intro n
  rw [scat1_apply, scat1_apply, hx n]

theorem scat2_agree {N N' D E w : Nat} (h : N' ≤ N) (wf) (wf')
    (x : (⟨2, ![N, D]⟩ : Shape).Idx → EReal) (x' : (⟨2, ![N', D]⟩ : Shape).Idx → EReal) (hx : Agree2 h x x')
    (idx : IVec ⟨2, ![E, 1]⟩ w) (upd : (⟨2, ![E, D]⟩ : Shape).Idx → EReal) :
    Agree2 h (Ideal.hostScatterAdd (scat2 N D E wf) x idx upd) (Ideal.hostScatterAdd (scat2 N' D E wf') x' idx upd) := by
  intro n c
  rw [scat2_apply, scat2_apply, hx n c]

end Cert.Lib.RowOps

end
-- ==== Proof.RefPool.lean ====
import proofs.«415775_j12214886990280_1_alg».proof.Proof.RefRead
import proofs.«415775_j12214886990280_1_alg».proof.Proof.Spec
import proofs.«415775_j12214886990280_1_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.ReferenceIdeal.Stages

open Idealize.ShloMosaic Idealize.ShloMosaic.TcCoe Idealize.SL.Sem Idealize.ShloMosaic.ValueIdx
open Cert.ReferenceIdeal Cert.ReferenceIdeal.Gen Cert.ReferenceIdeal.Read

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S3x128x128, .f32⟩ : BufTy).Contents (Elt Ideal))
  (x4 x5 x6 x7 x8 : (⟨S3x128, .f32⟩ : BufTy).Contents (Elt Ideal))
  (x9 : (⟨S128x10, .f32⟩ : BufTy).Contents (Elt Ideal)) (x10 : (⟨S10, .f32⟩ : BufTy).Contents (Elt Ideal))
  (x11 : (⟨S128x64, .f32⟩ : BufTy).Contents (Elt Ideal)) (x12 : (⟨S64, .f32⟩ : BufTy).Contents (Elt Ideal))
  (x13 : (⟨S64x2, .f32⟩ : BufTy).Contents (Elt Ideal)) (x14 : (⟨S2, .f32⟩ : BufTy).Contents (Elt Ideal))

/-- The segment sum of the last layer's rows, index by index. -/
theorem pool167 : val_main_v167 (F := Ideal) x0 x1 x2 x3 x4 x5 x6 x7 x8
    = Cert.Gnn.segSums (n := 100000) (d := 128) (g := 500) (val_main_v164 (F := Ideal) x0 x1 x3 x4 x5 x6 x7 x8) (val_main_v166 (F := Ideal) x2) := by
  funext i
  obtain ⟨n, c, rfl⟩ : ∃ (n : Fin 500) (c : Fin 128), i = ix2 n c := ⟨i 0, i 1, eq_ix2 i⟩
  -- the printed scatter record is the row scatter of a matrix, under the program's own well-formedness fact
  have hrec : scatter_S500x128_S100000x1_S100000x128_1_0_0_1
      = Cert.Lib.RowOps.scat2 500 128 100000 Facts₀.scatter_S500x128_S100000x1_S100000x128_1_0_0_1_wf := rfl
  unfold val_main_v167 Host.scatterAdd
  rw [Ideal.hostScatterAdd_def, hrec, Cert.Lib.RowOps.scat2_apply]
  -- the operand is the zero matrix
  rw [val_main_v165_apply, val_main_cst_18_apply]
  show Ideal.ofBits .f32 0x00000000#32 + _ = _
  rw [Ideal.ofBits_zero_f32, zero_add]
  rfl

end Cert.ReferenceIdeal.Stages

end
-- ==== Proof.RefHeads.lean ====
import proofs.«415775_j12214886990280_1_alg».proof.Proof.RefRead
import proofs.«415775_j12214886990280_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.Stages

open Idealize.ShloMosaic Idealize.ShloMosaic.TcCoe Idealize.SL.Sem Idealize.ShloMosaic.ValueIdx
open Cert.ReferenceIdeal Cert.ReferenceIdeal.Gen Cert.ReferenceIdeal.Read

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S3x128x128, .f32⟩ : BufTy).Contents (Elt Ideal))
  (x4 x5 x6 x7 x8 : (⟨S3x128, .f32⟩ : BufTy).Contents (Elt Ideal))
  (x9 : (⟨S128x10, .f32⟩ : BufTy).Contents (Elt Ideal)) (x10 : (⟨S10, .f32⟩ : BufTy).Contents (Elt Ideal))
  (x11 : (⟨S128x64, .f32⟩ : BufTy).Contents (Elt Ideal)) (x12 : (⟨S64, .f32⟩ : BufTy).Contents (Elt Ideal))
  (x13 : (⟨S64x2, .f32⟩ : BufTy).Contents (Elt Ideal)) (x14 : (⟨S2, .f32⟩ : BufTy).Contents (Elt Ideal))

/-- The class head on the pooled features. -/
theorem cls180 : val_main_v180 (F := Ideal) x0 x1 x2 x3 x4 x5 x6 x7 x8 x9 x10
    = Cert.Gnn.clsHead (n := 500) (d := 128) (e := 10) (val_main_v176 (F := Ideal) x0 x1 x2 x3 x4 x5 x6 x7 x8) x9 x10 := by
  funext i
  have el : ∀ k : Fin 128, lidx_main_v177 i k = ix2 (i 0) k := fun k => funext fun a => Fin.ext (by match a with | ⟨0, _⟩ => rfl | ⟨1, _⟩ => rfl)
  have er : ∀ k : Fin 128, ridx_main_v177 i k = ix2 k (i 1) := fun k => funext fun a => Fin.ext (by match a with | ⟨0, _⟩ => rfl | ⟨1, _⟩ => rfl)
  have eb : idx_main_v178 (idx_main_v179 i) = ix1 (i 1) := funext fun a => Fin.ext (by match a with | ⟨0, _⟩ => rfl)
  rw [val_main_v180_apply, val_main_v177_apply, val_main_v179_apply, val_main_v178_apply]
  simp only [el, er, eb, Ideal.addf_def, Cert.Gnn.clsHead, Cert.Gnn.rowsTimes]
  rfl

/-- The domain head's hidden layer before its floor: one linear layer with a bias on the pooled features. -/
theorem hid184 (j : S500x64.Idx) : val_main_v184 (F := Ideal) x0 x1 x2 x3 x4 x5 x6 x7 x8 x11 x12 j
    = Cert.Gnn.clsHead (n := 500) (d := 128) (e := 64) (val_main_v176 (F := Ideal) x0 x1 x2 x3 x4 x5 x6 x7 x8) x11 x12 j := by
  have el : ∀ k : Fin 128, lidx_main_v181 j k = ix2 (j 0) k := fun k => funext fun a => Fin.ext (by match a with | ⟨0, _⟩ => rfl | ⟨1, _⟩ => rfl)
  have er : ∀ k : Fin 128, ridx_main_v181 j k = ix2 k (j 1) := fun k => funext fun a => Fin.ext (by match a with | ⟨0, _⟩ => rfl | ⟨1, _⟩ => rfl)
  have eb : idx_main_v182 (idx_main_v183 j) = ix1 (j 1) := funext fun a => Fin.ext (by match a with | ⟨0, _⟩ => rfl)
  rw [val_main_v184_apply, val_main_v181_apply, val_main_v183_apply, val_main_v182_apply]
  simp only [el, er, eb, Ideal.addf_def, Cert.Gnn.clsHead, Cert.Gnn.rowsTimes]
  rfl

/-- The hidden layer floored at zero (the zero constant is the extended real `0`). -/
theorem hid185 (j : S500x64.Idx) : val_main_v185 (F := Ideal) x0 x1 x2 x3 x4 x5 x6 x7 x8 x11 x12 j
    = max (Cert.Gnn.clsHead (n := 500) (d := 128) (e := 64) (val_main_v176 (F := Ideal) x0 x1 x2 x3 x4 x5 x6 x7 x8) x11 x12 j) 0 := by
  rw [val_main_v185_apply, hid184, val_main_call4_v0_apply, val_main_call4_cst_apply]
  simp only [Ideal.maximumf_def, Ideal.ofBits_def, Ideal.ofBits_zero_f32]

/-- The domain head on the pooled features. -/
theorem dom189 : val_main_v189 (F := Ideal) x0 x1 x2 x3 x4 x5 x6 x7 x8 x11 x12 x13 x14
    = Cert.Gnn.domHead (n := 500) (d := 128) (e := 64) (o := 2) (val_main_v176 (F := Ideal) x0 x1 x2 x3 x4 x5 x6 x7 x8) x11 x12 x13 x14 := by
  funext i
  -- the row and the column of the result as literal-typed coordinates, so that the hidden layer can be read at row `p`
  obtain ⟨p, q, rfl⟩ : ∃ (p : Fin 500) (q : Fin 2), i = ix2 p q := ⟨i 0, i 1, eq_ix2 i⟩
  have el : ∀ k : Fin 64, lidx_main_v186 (ix2 p q) k = ix2 p k := fun k => funext fun a => Fin.ext (by match a with | ⟨0, _⟩ => rfl | ⟨1, _⟩ => rfl)
  have er : ∀ k : Fin 64, ridx_main_v186 (ix2 p q) k = ix2 k q := fun k => funext fun a => Fin.ext (by match a with | ⟨0, _⟩ => rfl | ⟨1, _⟩ => rfl)
  have eb : idx_main_v187 (idx_main_v188 (ix2 p q)) = ix1 q := funext fun a => Fin.ext (by match a with | ⟨0, _⟩ => rfl)
  rw [val_main_v189_apply, val_main_v186_apply, val_main_v188_apply, val_main_v187_apply]
  simp only [hid185, el, er, eb, Ideal.addf_def, Cert.Gnn.domHead, Cert.Gnn.clsHead, Cert.Gnn.rowsTimes]

end Cert.ReferenceIdeal.Stages

end
-- ==== Proof.ChainT.lean ====
import proofs.«415775_j12214886990280_1_alg».proof.Proof.Gen.KernelIdeal.Frame
import proofs.«415775_j12214886990280_1_alg».proof.Proof.RefRead
import proofs.«415775_j12214886990280_1_alg».proof.Proof.Spec
import proofs.«415775_j12214886990280_1_alg».proof.Proof.ChainL2
import proofs.«415775_j12214886990280_1_alg».proof.Proof.Pool6
import proofs.«415775_j12214886990280_1_alg».proof.Proof.Heads7
import proofs.«415775_j12214886990280_1_alg».proof.Proof.RefPool
import proofs.«415775_j12214886990280_1_alg».proof.Proof.RefHeads
import proofs.«415775_j12214886990280_1_alg».proof.Proof.Kept
import Idealize.ShloMosaic.Lib.Pipeline.Value
import Idealize.ShloMosaic.Lib.ValueIdx
import Idealize.ShloMosaic.Lib.StableHlo.Run

set_option maxRecDepth 16384

noncomputable section

namespace Cert.KernelIdeal.Chain

open Idealize.ShloMosaic Idealize.ShloMosaic.TcCoe Idealize.SL.Sem Idealize.ShloMosaic.ValueIdx
open Cert.KernelIdeal Cert.KernelIdeal.Gen Cert.ReferenceIdeal.Read

/-! ## Pooling per graph, the mean, and the two heads

  After the third layer the node features are summed per graph (row g of the result is the sum of the rows
  whose graph number is g), each sum is divided by the number of nodes of its graph (floored at one), and
  the two heads are applied to these means. The kernel sums into 512 rows and keeps the first 500; a row's
  sum depends only on its own number, so these are the sums into 500 rows. The node counts are the same
  operations on both sides. -/

namespace Tail

/-! ### Two facts about values, free of the run -/

/-- The graph numbers written as one column: the reshape reads, at row r, what the broadcast reads. -/
theorem reshape_col (x2 : (⟨S100000, .i32⟩ : BufTy).Contents (Elt Ideal)) :
    shapeCast S100000x1 x2 shapeCasts_S100000_S100000x1 = val_main_v166 (F := Ideal) x2 := by
  funext i
  rw [val_main_v166_apply]
  exact shapeCast_apply x2 shapeCasts_S100000_S100000x1 i (idx_main_v166 i) (by
    rw [Shape.rowMajor_val_one, Shape.rowMajor_val_two]
    have h1 : (i 1).val < 1 := (i 1).isLt
    show (i 0).val = (i 0).val * 1 + (i 1).val
    omega)

/-- The first 500 of the 512 rows of the per-graph sums are the per-graph sums into 500 rows: row g sums
    the rows whose graph number is g, whatever the number of result rows. -/
theorem slice_pool (H : (⟨S100000x128, .f32⟩ : BufTy).Contents (Elt Ideal)) (seg : (⟨S100000x1, .i32⟩ : BufTy).Contents (Elt Ideal)) :
    extractStridedSlice S500x128 ![0, 0] (Cert.Gnn.segSums (n := 100000) (d := 128) (g := 512) H seg) slices_S512x128_S500x128_0_0
      = Cert.Gnn.segSums (n := 100000) (d := 128) (g := 500) H seg := by
  funext i
  refine (extractStridedSlice_apply ![0, 0] _ slices_S512x128_S500x128_0_0 i
    (ix2 (⟨(i 0).val, by have := idx2_lt0 i; omega⟩ : Fin 512) (⟨(i 1).val, idx2_lt1 i⟩ : Fin 128)) (fun a => match a with
      | ⟨0, _⟩ => by show (i 0).val = 0 + (i 0).val; omega
      | ⟨1, _⟩ => by show (i 1).val = 0 + (i 1).val; omega)).trans ?_
  rfl

/-- The number of nodes per graph, floored at one and repeated along the columns: operation by operation
    what the reference computes (a scatter-add of ones at the graph numbers, a maximum with one, two
    broadcasts), for any reading of the floats. -/
theorem cnt_same {F : FTy → Type} [FloatOps F] (x2 : (⟨S100000, .i32⟩ : BufTy).Contents (Elt F)) :
    (broadcastInDim S500x128 ![0, 1] bcast_S500x1_S500x128_0_1
      (broadcastInDim S500x1 ![0] bcast_S500_S500x1_0
        (maximumf
          (Host.scatterAdd scatter_S500_S100000x1_S100000_n_0_0_1
            (broadcastInDim S500 ![] bcast_S_S500 (constant (F := F) S_ .f32 0x00000000#32))
            (broadcastInDim S100000x1 ![0] bcast_S100000_S100000x1_0 x2)
            (broadcastInDim S100000 ![] bcast_S_S100000 (constant (F := F) S_ .f32 0x3F800000#32)))
          (broadcastInDim S500 ![] bcast_S_S500 (constant (F := F) S_ .f32 0x3F800000#32)))) : (⟨S500x128, .f32⟩ : BufTy).Contents (Elt F))
      = val_main_v175 (F := F) x2 := by
  unfold val_main_v175 val_main_v174 val_main_v173 val_main_v172 val_main_v171 val_main_v170 val_main_v169 val_main_v168
    val_main_cst_19 val_main_cst_20 val_main_cst_21
  rfl

variable (m : (ℓ : Loc nD τ sig) → Buf (Elt Ideal) ℓ) (ρ : Dev nD → PrngReg) (c : Dev nD)

/-! ### The arguments these last stretches and launches read are as launched

  No stretch and no launch writes an argument: an argument that is an input window of the last launch is
  read and not written back, so at its entry it holds what it holds at its exit, the launch memory. -/

/-- The graph numbers at the entry of the last stretch of host operations. -/
theorem arg2_16 : W16 m ρ c (Proc.devRef .tc main_arg2) = a2 m c :=
  (Kept.keep7 m ρ c main_arg2 (by decide)).symm.trans
    ((W18_of_ne m ρ c main_arg2 (by decide)).symm.trans (W18_main_arg2 m ρ c))
/-- The graph numbers at the exit of the third layer's launch. -/
theorem arg2_14 : W14 m ρ c (Proc.devRef .tc main_arg2) = a2 m c :=
  (Kept.keep6 m ρ c main_arg2 (by decide)).symm.trans
    ((W16_of_ne m ρ c main_arg2 (by decide)).symm.trans (arg2_16 m ρ c))
/-- The class head's weights at the entry of the last launch. -/
theorem arg9_17 : W17 m ρ c (Proc.devRef .tc main_arg9) = a9 m c :=
  ((W18_arr m ρ c 1).trans (((dat7 (V17 m ρ) c).arrAt_in 1 rfl _).trans (A_eq7 (V17 m ρ) c 1))).symm.trans (W18_main_arg9 m ρ c)
/-- The class head's bias. -/
theorem arg10_17 : W17 m ρ c (Proc.devRef .tc main_arg10) = a10 m c :=
  ((W18_arr m ρ c 2).trans (((dat7 (V17 m ρ) c).arrAt_in 2 rfl _).trans (A_eq7 (V17 m ρ) c 2))).symm.trans (W18_main_arg10 m ρ c)
/-- The domain head's first weights. -/
theorem arg11_17 : W17 m ρ c (Proc.devRef .tc main_arg11) = a11 m c :=
  ((W18_arr m ρ c 3).trans (((dat7 (V17 m ρ) c).arrAt_in 3 rfl _).trans (A_eq7 (V17 m ρ) c 3))).symm.trans (W18_main_arg11 m ρ c)
/-- The domain head's first bias. -/
theorem arg12_17 : W17 m ρ c (Proc.devRef .tc main_arg12) = a12 m c :=
  ((W18_arr m ρ c 4).trans (((dat7 (V17 m ρ) c).arrAt_in 4 rfl _).trans (A_eq7 (V17 m ρ) c 4))).symm.trans (W18_main_arg12 m ρ c)
/-- The domain head's second weights. -/
theorem arg13_17 : W17 m ρ c (Proc.devRef .tc main_arg13) = a13 m c :=
  ((W18_arr m ρ c 5).trans (((dat7 (V17 m ρ) c).arrAt_in 5 rfl _).trans (A_eq7 (V17 m ρ) c 5))).symm.trans (W18_main_arg13 m ρ c)
/-- The domain head's second bias. -/
theorem arg14_17 : W17 m ρ c (Proc.devRef .tc main_arg14) = a14 m c :=
  ((W18_arr m ρ c 6).trans (((dat7 (V17 m ρ) c).arrAt_in 6 rfl _).trans (A_eq7 (V17 m ρ) c 6))).symm.trans (W18_main_arg14 m ρ c)

/-! ### The run, boundary by boundary -/

/-- The graph numbers as a column, at the entry of the pooling launch, are the reference's. -/
theorem k_seg : W15 m ρ c (Proc.devRef .tc main_v141) = val_main_v166 (F := Ideal) (a2 m c) := by
  show StableHlo.after hostOps6 (W14 m ρ c) (Proc.devRef .tc main_v141) = _
  after_results_simp
  rw [arg2_14 m ρ c]
  exact reshape_col (a2 m c)

/-- At the exit of the pooling launch the accumulator holds the per-graph sums (into 512 rows) of the
    reference's third-layer features. -/
theorem k_pool (hp : Cert.Gnn.RealParams (L := 3) (d := 128) (a4 m c) (a5 m c) (a6 m c) (a7 m c) (a8 m c)) :
    W16 m ρ c (Proc.devRef .tc main_v142)
      = Cert.Gnn.segSums (n := 100000) (d := 128) (g := 512)
          (val_main_v164 (F := Ideal) (a0 m c) (a1 m c) (a3 m c) (a4 m c) (a5 m c) (a6 m c) (a7 m c) (a8 m c)) (val_main_v166 (F := Ideal) (a2 m c)) := by
  refine (W16_arr m ρ c 2).trans ?_
  refine (Pool6.pool (V15 m ρ) c).trans ?_
  have e1 : V15 m ρ c main_v140 = val_main_v164 (F := Ideal) (a0 m c) (a1 m c) (a3 m c) (a4 m c) (a5 m c) (a6 m c) (a7 m c) (a8 m c) :=
    (Kept.keep6 m ρ c main_v140 (by decide)).trans (k_v140 m ρ c hp)
  have e2 : V15 m ρ c main_v141 = val_main_v166 (F := Ideal) (a2 m c) := k_seg m ρ c
  rw [e1, e2]

/-- The means at the entry of the last launch are the reference's. -/
theorem k_mean (hp : Cert.Gnn.RealParams (L := 3) (d := 128) (a4 m c) (a5 m c) (a6 m c) (a7 m c) (a8 m c)) :
    W17 m ρ c (Proc.devRef .tc main_v152) = val_main_v176 (F := Ideal) (a0 m c) (a1 m c) (a2 m c) (a3 m c) (a4 m c) (a5 m c) (a6 m c) (a7 m c) (a8 m c) := by
  show StableHlo.after hostOps7 (W16 m ρ c) (Proc.devRef .tc main_v152) = _
  after_results_simp
  rw [k_pool m ρ c hp, arg2_16 m ρ c, slice_pool, cnt_same (a2 m c), ← Cert.ReferenceIdeal.Stages.pool167]
  rfl

end Tail

open Tail

variable (m : (ℓ : Loc nD τ sig) → Buf (Elt Ideal) ℓ) (ρ : Dev nD → PrngReg) (c : Dev nD)

/-! ### The three results -/

/-- The pooled mean features are the reference's. -/
theorem k_feat (hp : Cert.Gnn.RealParams (L := 3) (d := 128) (a4 m c) (a5 m c) (a6 m c) (a7 m c) (a8 m c)) :
    W18 m ρ c (Proc.devRef .tc main_v152) = val_main_v176 (F := Ideal) (a0 m c) (a1 m c) (a2 m c) (a3 m c) (a4 m c) (a5 m c) (a6 m c) (a7 m c) (a8 m c) :=
  (Kept.in18_0 m ρ c).trans (k_mean m ρ c hp)

/-- The class scores are the reference's. -/
theorem k_cls (hp : Cert.Gnn.RealParams (L := 3) (d := 128) (a4 m c) (a5 m c) (a6 m c) (a7 m c) (a8 m c)) :
    W18 m ρ c (Proc.devRef .tc main_v153_0) = val_main_v180 (F := Ideal) (a0 m c) (a1 m c) (a2 m c) (a3 m c) (a4 m c) (a5 m c) (a6 m c) (a7 m c) (a8 m c) (a9 m c) (a10 m c) := by
  refine (W18_arr m ρ c 7).trans ?_
  refine (Heads7.cls (V17 m ρ) c).trans ?_
  have e0 : V17 m ρ c main_v152 = val_main_v176 (F := Ideal) (a0 m c) (a1 m c) (a2 m c) (a3 m c) (a4 m c) (a5 m c) (a6 m c) (a7 m c) (a8 m c) := k_mean m ρ c hp
  have e9 : V17 m ρ c main_arg9 = a9 m c := arg9_17 m ρ c
  have e10 : V17 m ρ c main_arg10 = a10 m c := arg10_17 m ρ c
  rw [e0, e9, e10]
  exact (Cert.ReferenceIdeal.Stages.cls180 (a0 m c) (a1 m c) (a2 m c) (a3 m c) (a4 m c) (a5 m c) (a6 m c) (a7 m c) (a8 m c) (a9 m c) (a10 m c)).symm

/-- The domain scores are the reference's. -/
theorem k_dom (hp : Cert.Gnn.RealParams (L := 3) (d := 128) (a4 m c) (a5 m c) (a6 m c) (a7 m c) (a8 m c)) :
    W18 m ρ c (Proc.devRef .tc main_v153_1) = val_main_v189 (F := Ideal) (a0 m c) (a1 m c) (a2 m c) (a3 m c) (a4 m c) (a5 m c) (a6 m c) (a7 m c) (a8 m c) (a11 m c) (a12 m c) (a13 m c) (a14 m c) := by
  refine (W18_arr m ρ c 8).trans ?_
  refine (Heads7.dom (V17 m ρ) c).trans ?_
  have e0 : V17 m ρ c main_v152 = val_main_v176 (F := Ideal) (a0 m c) (a1 m c) (a2 m c) (a3 m c) (a4 m c) (a5 m c) (a6 m c) (a7 m c) (a8 m c) := k_mean m ρ c hp
  have e11 : V17 m ρ c main_arg11 = a11 m c := arg11_17 m ρ c
  have e12 : V17 m ρ c main_arg12 = a12 m c := arg12_17 m ρ c
  have e13 : V17 m ρ c main_arg13 = a13 m c := arg13_17 m ρ c
  have e14 : V17 m ρ c main_arg14 = a14 m c := arg14_17 m ρ c
  rw [e0, e11, e12, e13, e14]
  exact (Cert.ReferenceIdeal.Stages.dom189 (a0 m c) (a1 m c) (a2 m c) (a3 m c) (a4 m c) (a5 m c) (a6 m c) (a7 m c) (a8 m c) (a11 m c) (a12 m c) (a13 m c) (a14 m c)).symm

end Cert.KernelIdeal.Chain

end
-- ==== Proof.lean ====
/-
  A three-layer graph convolution network with two heads, as a kernel program of eight launches against its
  plain reference, equal over the extended reals wherever the five per-layer parameter tables hold real numbers
  and the variances are not negative.

  Both programs build the same edge lists (edges, then one self loop per node), the same degrees, inverse root
  degrees and edge weights, and in every layer gather the same rows, weigh them and add them up per target node
  with the same operations; they differ in four dense steps, and each is an identity on the extended reals:
    * a layer's product of the node features with its weight matrix, tile of rows by tile of rows, is the product
      of the whole array (a row of the result depends on that row of the features only);
    * bias, normalisation by the running statistics and the floor at zero, folded into one scale and one shift per
      column, are the reference's chain of operations when bias, gain, offset, mean and inverse deviation are real
      numbers (the aggregate may be any extended real: a real factor distributes over a sum with a real term);
    * the per-graph sums, taken as the product of a one-hot matrix with the node features and accumulated over
      the tiles, are the reference's segment sum (a row whose graph number is outside the range falls on no
      result row on either side);
    * the two small heads are the same sums of products.
  The kernel's run is read off the boundaries between its launches and host stretches (Proof/KernelRun.lean names
  the three results at the last boundary; Proof/Chain*.lean walk the boundaries), the reference's run stage by
  stage.
-/
import proofs.«415775_j12214886990280_1_alg».proof.Defs
import proofs.«415775_j12214886990280_1_alg».proof.Proof.Gen.Kernel
import proofs.«415775_j12214886990280_1_alg».proof.Proof.Gen.Kernel.Skeleton
import proofs.«415775_j12214886990280_1_alg».proof.Proof.Gen.Kernel.Launch
import proofs.«415775_j12214886990280_1_alg».proof.Proof.Gen.Kernel.Points
import proofs.«415775_j12214886990280_1_alg».proof.Proof.Gen.Kernel.Frame
import proofs.«415775_j12214886990280_1_alg».proof.Proof.Gen.KernelIdeal
import proofs.«415775_j12214886990280_1_alg».proof.Proof.Gen.KernelIdeal.Skeleton
import proofs.«415775_j12214886990280_1_alg».proof.Proof.Gen.KernelIdeal.Launch
import proofs.«415775_j12214886990280_1_alg».proof.Proof.Gen.KernelIdeal.Points
import proofs.«415775_j12214886990280_1_alg».proof.Proof.Gen.KernelIdeal.Frame
import proofs.«415775_j12214886990280_1_alg».proof.Proof.Gen.ReferenceIdeal
import proofs.«415775_j12214886990280_1_alg».proof.Proof.RefRun
import proofs.«415775_j12214886990280_1_alg».proof.Proof.RefRead
import proofs.«415775_j12214886990280_1_alg».proof.Proof.RefRunEq
import proofs.«415775_j12214886990280_1_alg».proof.Proof.Gen.Pre_finite_inputs
import proofs.«415775_j12214886990280_1_alg».proof.Proof.KernelRun
import proofs.«415775_j12214886990280_1_alg».proof.Proof.Reals
import proofs.«415775_j12214886990280_1_alg».proof.Proof.ChainT
import Idealize.ShloMosaic.Adequacy
import Idealize.ShloMosaic.Init

set_option maxRecDepth 16384

noncomputable section

namespace Cert.Proof

open Idealize.ShloMosaic Idealize.SL.Sem

/-- The kernel program runs and leaves its arguments alone. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

open Cert.KernelIdeal.Chain Cert.ReferenceIdeal.Read in
/-- Both programs end with the reference's three last stages of the (agreeing) arguments. -/
theorem algebraic : Cert.algebraic_KernelIdeal_ReferenceIdeal := by
  intro m ρ m' ρ' hpre hagree
  have hp := fun c => Cert.KernelIdeal.Reals.realParams_of_pre m hpre c
  refine ⟨fun c => val_main_v180 (F := Ideal) (a0 m c) (a1 m c) (a2 m c) (a3 m c) (a4 m c) (a5 m c) (a6 m c) (a7 m c) (a8 m c) (a9 m c) (a10 m c),
    fun c => val_main_v189 (F := Ideal) (a0 m c) (a1 m c) (a2 m c) (a3 m c) (a4 m c) (a5 m c) (a6 m c) (a7 m c) (a8 m c) (a11 m c) (a12 m c) (a13 m c) (a14 m c),
    fun c => val_main_v176 (F := Ideal) (a0 m c) (a1 m c) (a2 m c) (a3 m c) (a4 m c) (a5 m c) (a6 m c) (a7 m c) (a8 m c), ?_, ?_⟩
  · exact (θ_run Cert.KernelIdeal.defs _ _).mono
      (fun r h c => ⟨(h c).1.trans (k_cls m ρ c (hp c)), (h c).2.1.trans (k_dom m ρ c (hp c)),
        (h c).2.2.1.trans (k_feat m ρ c (hp c)), (h c).2.2.2⟩)
      (Cert.KernelIdeal.Results.run (F := Ideal) m ρ)
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13, e14⟩ := hagree c
    refine ⟨(h c).1.trans ?_, (h c).2.1.trans ?_, (h c).2.2.1.trans ?_, (h c).2.2.2⟩
    · rw [val_main_v180_eq, e0, e1, e2, e3, e4, e5, e6, e7, e8, e9, e10]
    · rw [val_main_v189_eq, e0, e1, e2, e3, e4, e5, e6, e7, e8, e11, e12, e13, e14]
    · rw [val_main_v176_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
